-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S8x512x512x2 : Shape := ⟨4, ![8, 512, 512, 2]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel
  bcast_S_S8x512x512x2 : S_.BroadcastsInDim S8x512x512x2 (![] : Fin 0 → Fin S8x512x512x2.rank)
  reducesTo_S8x512x512x2_S_d0_1_2_3 : S8x512x512x2.ReducesTo [0, 1, 2, 3] S_

variable [Facts]

def fn {F : FTy → Type} [FloatOps F] (main_arg0 : FVec F S8x16x512x512 .f32) (main_arg1 : FVec F S8x512x512x2 .f32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  let main_v4 : FVec F S8x512x512x2 .f32 := Host.absf main_arg1
  let main_cst_0 : FVec F S_ .f32 := constant S_ .f32 0x7F800000#32
  let main_v5 : FVec F S8x512x512x2 .f32 := broadcastInDim S8x512x512x2 ![] bcast_S_S8x512x512x2 main_cst_0
  let main_v6 : IVec S8x512x512x2 1 := cmpf .olt main_v4 main_v5
  let main_c_1 : IVec S_ 1 := constantI S_ 1 1#1
  let main_v7 : IVec S_ 1 := (fun x v => Host.reduce IntOp.andi x v reducesTo_S8x512x512x2_S_d0_1_2_3 h_S_) main_v6 main_c_1
  let main_v8 : IVec S_ 1 := andi main_v3 main_v7
  main_v8
-- ==== Kernel.lean ====
abbrev S8x16x512x512 : Shape := ⟨4, ![8, 16, 512, 512]⟩
abbrev S8x512x512x2 : Shape := ⟨4, ![8, 512, 512, 2]⟩
abbrev S8x512x512x1 : Shape := ⟨4, ![8, 512, 512, 1]⟩
abbrev S8x512x512 : Shape := ⟨3, ![8, 512, 512]⟩
abbrev S4x8x512x512x16 : Shape := ⟨5, ![4, 8, 512, 512, 16]⟩
abbrev S4x8x512x512 : Shape := ⟨4, ![4, 8, 512, 512]⟩
abbrev S1x16x64x512 : Shape := ⟨4, ![1, 16, 64, 512]⟩
abbrev S1x64x512 : Shape := ⟨3, ![1, 64, 512]⟩
abbrev S4x1x64x512x16 : Shape := ⟨5, ![4, 1, 64, 512, 16]⟩
abbrev S4x1x64x512 : Shape := ⟨4, ![4, 1, 64, 512]⟩
abbrev S16x64x512 : Shape := ⟨3, ![16, 64, 512]⟩
abbrev S64x512 : Shape := ⟨2, ![64, 512]⟩
abbrev S64x512x16 : Shape := ⟨3, ![64, 512, 16]⟩
abbrev S64x512x1 : Shape := ⟨3, ![64, 512, 1]⟩
abbrev S1x1x64x512x16 : Shape := ⟨5, ![1, 1, 64, 512, 16]⟩
abbrev S1x1x64x512 : Shape := ⟨4, ![1, 1, 64, 512]⟩
abbrev S_ : Shape := ⟨0, ![]⟩
abbrev S8x512x512x16 : Shape := ⟨4, ![8, 512, 512, 16]⟩
abbrev S8 : Shape := ⟨1, ![8]⟩
abbrev S1x8x1x1 : Shape := ⟨4, ![1, 8, 1, 1]⟩
abbrev S4x8x512x512x1 : Shape := ⟨5, ![4, 8, 512, 512, 1]⟩
abbrev S4x8x512x512x3 : Shape := ⟨5, ![4, 8, 512, 512, 3]⟩

abbrev nBuf : Space → Nat
  | .hbm => 41
  | .vmem => 12
  | .smem => 0
  | _ => 0

abbrev bufTy : (tb : Table) → Fin (tcTables nBuf tb) → BufTy
  | .hbm, ⟨0, _⟩ => ⟨S8x16x512x512, .f32⟩
  | .hbm, ⟨1, _⟩ => ⟨S8x512x512x2, .f32⟩
  | .hbm, ⟨2, _⟩ => ⟨S8x512x512x1, .f32⟩
  | .hbm, ⟨3, _⟩ => ⟨S8x512x512, .f32⟩
  | .hbm, ⟨4, _⟩ => ⟨S8x512x512x1, .f32⟩
  | .hbm, ⟨5, _⟩ => ⟨S8x512x512, .f32⟩
  | .hbm, ⟨6, _⟩ => ⟨S4x8x512x512x16, .f32⟩
  | .hbm, ⟨7, _⟩ => ⟨S4x8x512x512, .i32⟩
  | .hbm, ⟨8, _⟩ => ⟨S4x8x512x512, .i32⟩
  | .hbm, ⟨9, _⟩ => ⟨S_, .f32⟩
  | .hbm, ⟨10, _⟩ => ⟨S8x512x512x16, .f32⟩
  | .hbm, ⟨11, _⟩ => ⟨S8, .i32⟩
  | .hbm, ⟨12, _⟩ => ⟨S1x8x1x1, .i32⟩
  | .hbm, ⟨13, _⟩ => ⟨S4x8x512x512, .i32⟩
  | .hbm, ⟨14, _⟩ => ⟨S_, .i32⟩
  | .hbm, ⟨15, _⟩ => ⟨S4x8x512x512, .i32⟩
  | .hbm, ⟨16, _⟩ => ⟨S4x8x512x512, .i1⟩
  | .hbm, ⟨17, _⟩ => ⟨S_, .i32⟩
  | .hbm, ⟨18, _⟩ => ⟨S4x8x512x512, .i32⟩
  | .hbm, ⟨19, _⟩ => ⟨S4x8x512x512, .i32⟩
  | .hbm, ⟨20, _⟩ => ⟨S4x8x512x512, .i32⟩
  | .hbm, ⟨21, _⟩ => ⟨S_, .i32⟩
  | .hbm, ⟨22, _⟩ => ⟨S4x8x512x512, .i32⟩
  | .hbm, ⟨23, _⟩ => ⟨S4x8x512x512, .i1⟩
  | .hbm, ⟨24, _⟩ => ⟨S_, .i32⟩
  | .hbm, ⟨25, _⟩ => ⟨S4x8x512x512, .i32⟩
  | .hbm, ⟨26, _⟩ => ⟨S4x8x512x512, .i32⟩
  | .hbm, ⟨27, _⟩ => ⟨S4x8x512x512, .i32⟩
  | .hbm, ⟨28, _⟩ => ⟨S_, .i32⟩
  | .hbm, ⟨29, _⟩ => ⟨S4x8x512x512, .i32⟩
  | .hbm, ⟨30, _⟩ => ⟨S4x8x512x512, .i1⟩
  | .hbm, ⟨31, _⟩ => ⟨S_, .i32⟩
  | .hbm, ⟨32, _⟩ => ⟨S4x8x512x512, .i32⟩
  | .hbm, ⟨33, _⟩ => ⟨S4x8x512x512, .i32⟩
  | .hbm, ⟨34, _⟩ => ⟨S4x8x512x512, .i32⟩
  | .hbm, ⟨35, _⟩ => ⟨S4x8x512x512x1, .i32⟩
  | .hbm, ⟨36, _⟩ => ⟨S4x8x512x512x1, .i32⟩
  | .hbm, ⟨37, _⟩ => ⟨S4x8x512x512x1, .i32⟩
  | .hbm, ⟨38, _⟩ => ⟨S4x8x512x512x3, .i32⟩
  | .hbm, ⟨39, _⟩ => ⟨S8x512x512x16, .f32⟩
  | .hbm, ⟨40, _⟩ => ⟨S8x16x512x512, .f32⟩
  | .local _ .vmem, ⟨0, _⟩ => ⟨S1x16x64x512, .f32⟩
  | .local _ .vmem, ⟨1, _⟩ => ⟨S1x16x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S4x1x64x512x16, .f32⟩
  | .local _ .vmem, ⟨7, _⟩ => ⟨S4x1x64x512x16, .f32⟩
  | .local _ .vmem, ⟨8, _⟩ => ⟨S4x1x64x512, .i32⟩
  | .local _ .vmem, ⟨9, _⟩ => ⟨S4x1x64x512, .i32⟩
  | .local _ .vmem, ⟨10, _⟩ => ⟨S4x1x64x512, .i32⟩
  | .local _ .vmem, ⟨11, _⟩ => ⟨S4x1x64x512, .i32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x64x512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x64x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x64x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S8x512x512x2_S8x512x512x1_0_0_0_0 : S8x512x512x2.Slices ![0, 0, 0, 0] S8x512x512x1
  shapeCasts_S8x512x512x1_S8x512x512 : S8x512x512x1.ShapeCasts S8x512x512
  slices_S8x512x512x2_S8x512x512x1_0_0_0_1 : S8x512x512x2.Slices ![0, 0, 0, 1] S8x512x512x1
  inb_S1x16x64x512_S1x16x64x512_0_0_0_0 : ∀ a, (![0, 0, 0, 0] : Fin 4 → Nat) a + S1x16x64x512.size a ≤ S1x16x64x512.size a
  h_S1x16x64x512 : 0 < S1x16x64x512.numel
  shapeCasts_S1x16x64x512_S16x64x512 : S1x16x64x512.ShapeCasts S16x64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  transposes_S16x64x512_p1_2_0_S64x512x16 : S16x64x512.Transposes [1, 2, 0] S64x512x16
  shapeCasts_S64x512_S64x512x1 : S64x512.ShapeCasts S64x512x1
  broadcasts_S64x512x1_S64x512x16 : S64x512x1.Broadcasts S64x512x16
  inb_S4x1x64x512x16_S1x1x64x512x16_0_0_0_0_0 : ∀ a, (![0, 0, 0, 0, 0] : Fin 5 → Nat) a + S1x1x64x512x16.size a ≤ S4x1x64x512x16.size a
  h_S1x1x64x512x16 : 0 < S1x1x64x512x16.numel
  shapeCasts_S1x1x64x512x16_S64x512x16 : S1x1x64x512x16.ShapeCasts S64x512x16
  shapeCasts_S64x512x16_S1x1x64x512x16 : S64x512x16.ShapeCasts S1x1x64x512x16
  inb_S4x1x64x512_S1x1x64x512_0_0_0_0 : ∀ a, (![0, 0, 0, 0] : Fin 4 → Nat) a + S1x1x64x512.size a ≤ S4x1x64x512.size a
  h_S1x1x64x512 : 0 < S1x1x64x512.numel
  shapeCasts_S1x1x64x512_S64x512 : S1x1x64x512.ShapeCasts S64x512
  shapeCasts_S64x512_S1x1x64x512 : S64x512.ShapeCasts S1x1x64x512
  inb_S4x1x64x512x16_S1x1x64x512x16_1_0_0_0_0 : ∀ a, (![1, 0, 0, 0, 0] : Fin 5 → Nat) a + S1x1x64x512x16.size a ≤ S4x1x64x512x16.size a
  inb_S4x1x64x512_S1x1x64x512_1_0_0_0 : ∀ a, (![1, 0, 0, 0] : Fin 4 → Nat) a + S1x1x64x512.size a ≤ S4x1x64x512.size a
  inb_S4x1x64x512x16_S1x1x64x512x16_2_0_0_0_0 : ∀ a, (![2, 0, 0, 0, 0] : Fin 5 → Nat) a + S1x1x64x512x16.size a ≤ S4x1x64x512x16.size a
  inb_S4x1x64x512_S1x1x64x512_2_0_0_0 : ∀ a, (![2, 0, 0, 0] : Fin 4 → Nat) a + S1x1x64x512.size a ≤ S4x1x64x512.size a
  inb_S4x1x64x512x16_S1x1x64x512x16_3_0_0_0_0 : ∀ a, (![3, 0, 0, 0, 0] : Fin 5 → Nat) a + S1x1x64x512x16.size a ≤ S4x1x64x512x16.size a
  inb_S4x1x64x512_S1x1x64x512_3_0_0_0 : ∀ a, (![3, 0, 0, 0] : Fin 4 → Nat) a + S1x1x64x512.size a ≤ S4x1x64x512.size a
  bcast_S_S8x512x512x16 : S_.BroadcastsInDim S8x512x512x16 (![] : Fin 0 → Fin S8x512x512x16.rank)
  bcast_S8_S1x8x1x1_1 : S8.BroadcastsInDim S1x8x1x1 (![1] : Fin 1 → Fin S1x8x1x1.rank)
  bcast_S1x8x1x1_S4x8x512x512_0_1_2_3 : S1x8x1x1.BroadcastsInDim S4x8x512x512 (![0, 1, 2, 3] : Fin 4 → Fin S4x8x512x512.rank)
  bcast_S_S4x8x512x512 : S_.BroadcastsInDim S4x8x512x512 (![] : Fin 0 → Fin S4x8x512x512.rank)
  bcast_S4x8x512x512_S4x8x512x512x1_0_1_2_3 : S4x8x512x512.BroadcastsInDim S4x8x512x512x1 (![0, 1, 2, 3] : Fin 4 → Fin S4x8x512x512x1.rank)
  concatenates_S4x8x512x512x1_S4x8x512x512x1_S4x8x512x512x1_S4x8x512x512x3_d4 : Shape.Concatenates [S4x8x512x512x1, S4x8x512x512x1, S4x8x512x512x1] S4x8x512x512x3 4
  transposes_S8x512x512x16_S8x16x512x512_0_3_1_2 : S8x512x512x16.Transposes [0, 3, 1, 2] S8x16x512x512
  scatter_S8x512x512x16_S4x8x512x512x3_S4x8x512x512x16_4_012_012_4_wf : ScatterDims.WF S8x512x512x16 S4x8x512x512x3 S4x8x512x512x16 [4] [0, 1, 2] [0, 1, 2] 4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x64x512.size a ≤ S8x16x512x512.size a
  hwx0_0 : ∀ i : grid0.Coords, EltTy.bits .f32 = 32 ∨ (Rect.block (s := S8x16x512x512) S1x16x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x512x512.size a
  hwx0_1 : ∀ i : grid0.Coords, EltTy.bits .f32 = 32 ∨ (Rect.block (s := S8x512x512) S1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x512.size a ≤ S8x512x512.size a
  hwx0_2 : ∀ i : grid0.Coords, EltTy.bits .f32 = 32 ∨ (Rect.block (s := S8x512x512) S1x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x64x512x16.size a ≤ S4x8x512x512x16.size a
  hwx0_3 : ∀ i : grid0.Coords, EltTy.bits .f32 = 32 ∨ (Rect.block (s := S4x8x512x512x16) S4x1x64x512x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x64x512.size a ≤ S4x8x512x512.size a
  hwx0_4 : ∀ i : grid0.Coords, EltTy.bits .i32 = 32 ∨ (Rect.block (s := S4x8x512x512) S4x1x64x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x1x64x512.size a ≤ S4x8x512x512.size a
  hwx0_5 : ∀ i : grid0.Coords, EltTy.bits .i32 = 32 ∨ (Rect.block (s := S4x8x512x512) S4x1x64x512.size (cc0_transform_5 i) (hinb0_5 i)).WholeWords (EltTy.packing .i32)

variable [Facts₀]

def scatter_S8x512x512x16_S4x8x512x512x3_S4x8x512x512x16_4_012_012_4 : ScatterDims S8x512x512x16 S4x8x512x512x3 S4x8x512x512x16 where
  updateWindowDims := [4]
  insertedWindowDims := [0, 1, 2]
  scatterDimsToOperandDims := [0, 1, 2]
  indexVectorDim := 4
  wf := scatter_S8x512x512x16_S4x8x512x512x3_S4x8x512x512x16_4_012_012_4_wf

abbrev win0_0 : Pipeline.Window sig grid0 :=
  Pipeline.Window.ofSpec (Memref.whole main_arg0) S1x16x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S4x1x64x512x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S4x1x64x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S4x1x64x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16x512x512 : Shape := ⟨4, ![8, 16, 512, 512]⟩
abbrev S8x512x512x2 : Shape := ⟨4, ![8, 512, 512, 2]⟩
abbrev S_ : Shape := ⟨0, ![]⟩
abbrev S8x512x512x1 : Shape := ⟨4, ![8, 512, 512, 1]⟩
abbrev S8x512x512 : Shape := ⟨3, ![8, 512, 512]⟩
abbrev S8x16x515x515 : Shape := ⟨4, ![8, 16, 515, 515]⟩
abbrev S8 : Shape := ⟨1, ![8]⟩
abbrev S8x1x1 : Shape := ⟨3, ![8, 1, 1]⟩
abbrev S8x512x512x16 : Shape := ⟨4, ![8, 512, 512, 16]⟩
abbrev S8x512x512x3 : Shape := ⟨4, ![8, 512, 512, 3]⟩

abbrev nBuf : Space → Nat
  | .hbm => 270
  | .vmem => 0
  | .smem => 0
  | _ => 0

abbrev hbmTy0_0 (i : Nat) : BufTy := match i % 128 with
  | 0 => ⟨S8x16x512x512, .f32⟩
  | 1 => ⟨S8x512x512x2, .f32⟩
  | 2 => ⟨S_, .f32⟩
  | 3 => ⟨S8x512x512x2, .f32⟩
  | 4 => ⟨S8x512x512x2, .f32⟩
  | 5 => ⟨S_, .f32⟩
  | 6 => ⟨S8x512x512x2, .f32⟩
  | 7 => ⟨S8x512x512x2, .f32⟩
  | 8 => ⟨S8x512x512x1, .f32⟩
  | 9 => ⟨S8x512x512, .f32⟩
  | 10 => ⟨S_, .f32⟩
  | 11 => ⟨S8x512x512, .f32⟩
  | 12 => ⟨S8x512x512, .f32⟩
  | 13 => ⟨S_, .f32⟩
  | 14 => ⟨S8x512x512, .f32⟩
  | 15 => ⟨S8x512x512, .f32⟩
  | 16 => ⟨S_, .f32⟩
  | 17 => ⟨S_, .f32⟩
  | 18 => ⟨S_, .f32⟩
  | 19 => ⟨S8x512x512, .f32⟩
  | 20 => ⟨S8x512x512, .f32⟩
  | 21 => ⟨S_, .f32⟩
  | 22 => ⟨S8x512x512, .f32⟩
  | 23 => ⟨S8x512x512, .f32⟩
  | 24 => ⟨S8x512x512x1, .f32⟩
  | 25 => ⟨S8x512x512, .f32⟩
  | 26 => ⟨S_, .f32⟩
  | 27 => ⟨S8x512x512, .f32⟩
  | 28 => ⟨S8x512x512, .f32⟩
  | 29 => ⟨S_, .f32⟩
  | 30 => ⟨S8x512x512, .f32⟩
  | 31 => ⟨S8x512x512, .f32⟩
  | 32 => ⟨S_, .f32⟩
  | 33 => ⟨S_, .f32⟩
  | 34 => ⟨S_, .f32⟩
  | 35 => ⟨S8x512x512, .f32⟩
  | 36 => ⟨S8x512x512, .f32⟩
  | 37 => ⟨S_, .f32⟩
  | 38 => ⟨S8x512x512, .f32⟩
  | 39 => ⟨S8x512x512, .f32⟩
  | 40 => ⟨S8x512x512, .f32⟩
  | 41 => ⟨S8x512x512, .i32⟩
  | 42 => ⟨S8x512x512, .f32⟩
  | 43 => ⟨S8x512x512, .i32⟩
  | 44 => ⟨S_, .f32⟩
  | 45 => ⟨S8x16x515x515, .f32⟩
  | 46 => ⟨S8, .i32⟩
  | 47 => ⟨S8x1x1, .i32⟩
  | 48 => ⟨S8x512x512x16, .f32⟩
  | 49 => ⟨S_, .i32⟩
  | 50 => ⟨S8x512x512, .i32⟩
  | 51 => ⟨S8x512x512, .i32⟩
  | 52 => ⟨S8x512x512, .f32⟩
  | 53 => ⟨S8x512x512, .f32⟩
  | 54 => ⟨S8x512x512, .f32⟩
  | 55 => ⟨S_, .f32⟩
  | 56 => ⟨S8x512x512, .f32⟩
  | 57 => ⟨S8x512x512, .f32⟩
  | 58 => ⟨S_, .f32⟩
  | 59 => ⟨S8x512x512, .f32⟩
  | 60 => ⟨S8x512x512, .f32⟩
  | 61 => ⟨S_, .i32⟩
  | 62 => ⟨S8x512x512, .i32⟩
  | 63 => ⟨S8x512x512, .i32⟩
  | 64 => ⟨S8x512x512, .f32⟩
  | 65 => ⟨S8x512x512, .f32⟩
  | 66 => ⟨S8x512x512, .f32⟩
  | 67 => ⟨S_, .f32⟩
  | 68 => ⟨S8x512x512, .f32⟩
  | 69 => ⟨S8x512x512, .f32⟩
  | 70 => ⟨S_, .f32⟩
  | 71 => ⟨S8x512x512, .f32⟩
  | 72 => ⟨S8x512x512, .f32⟩
  | 73 => ⟨S8x512x512, .f32⟩
  | 74 => ⟨S8x512x512x1, .f32⟩
  | 75 => ⟨S_, .i32⟩
  | 76 => ⟨S8x512x512, .i32⟩
  | 77 => ⟨S8x512x512, .i32⟩
  | 78 => ⟨S_, .i32⟩
  | 79 => ⟨S8x512x512, .i32⟩
  | 80 => ⟨S8x512x512, .i32⟩
  | 81 => ⟨S8x512x512x16, .f32⟩
  | 82 => ⟨S8x512x512x16, .f32⟩
  | 83 => ⟨S_, .i32⟩
  | 84 => ⟨S8x1x1, .i32⟩
  | 85 => ⟨S8x1x1, .i1⟩
  | 86 => ⟨S_, .i32⟩
  | 87 => ⟨S8x1x1, .i32⟩
  | 88 => ⟨S8x1x1, .i32⟩
  | 89 => ⟨S8x1x1, .i32⟩
  | 90 => ⟨S_, .i32⟩
  | 91 => ⟨S8x512x512, .i32⟩
  | 92 => ⟨S8x512x512, .i1⟩
  | 93 => ⟨S_, .i32⟩
  | 94 => ⟨S8x512x512, .i32⟩
  | 95 => ⟨S8x512x512, .i32⟩
  | 96 => ⟨S8x512x512, .i32⟩
  | 97 => ⟨S_, .i32⟩
  | 98 => ⟨S8x512x512, .i32⟩
  | 99 => ⟨S8x512x512, .i1⟩
  | 100 => ⟨S_, .i32⟩
  | 101 => ⟨S8x512x512, .i32⟩
  | 102 => ⟨S8x512x512, .i32⟩
  | 103 => ⟨S8x512x512, .i32⟩
  | 104 => ⟨S8x512x512, .i32⟩
  | 105 => ⟨S8x512x512x1, .i32⟩
  | 106 => ⟨S8x512x512x1, .i32⟩
  | 107 => ⟨S8x512x512x1, .i32⟩
  | 108 => ⟨S8x512x512x3, .i32⟩
  | 109 => ⟨S8x16x515x515, .f32⟩
  | 110 => ⟨S_, .i32⟩
  | 111 => ⟨S8x512x512, .i32⟩
  | 112 => ⟨S8x512x512, .i32⟩
  | 113 => ⟨S8x512x512, .f32⟩
  | 114 => ⟨S8x512x512, .f32⟩
  | 115 => ⟨S8x512x512, .f32⟩
  | 116 => ⟨S_, .f32⟩
  | 117 => ⟨S8x512x512, .f32⟩
  | 118 => ⟨S8x512x512, .f32⟩
  | 119 => ⟨S_, .f32⟩
  | 120 => ⟨S8x512x512, .f32⟩
  | 121 => ⟨S8x512x512, .f32⟩
  | 122 => ⟨S8x512x512, .f32⟩
  | 123 => ⟨S8x512x512x1, .f32⟩
  | 124 => ⟨S_, .i32⟩
  | 125 => ⟨S8x512x512, .i32⟩
  | 126 => ⟨S8x512x512, .i32⟩
  | 127 => ⟨S_, .i32⟩
  | _ => ⟨S8x16x512x512, .f32⟩

abbrev hbmTy0_1 (i : Nat) : BufTy := match i % 128 with
  | 0 => ⟨S8x512x512, .i32⟩
  | 1 => ⟨S8x512x512, .i32⟩
  | 2 => ⟨S8x512x512x16, .f32⟩
  | 3 => ⟨S8x512x512x16, .f32⟩
  | 4 => ⟨S_, .i32⟩
  | 5 => ⟨S8x1x1, .i32⟩
  | 6 => ⟨S8x1x1, .i1⟩
  | 7 => ⟨S_, .i32⟩
  | 8 => ⟨S8x1x1, .i32⟩
  | 9 => ⟨S8x1x1, .i32⟩
  | 10 => ⟨S8x1x1, .i32⟩
  | 11 => ⟨S_, .i32⟩
  | 12 => ⟨S8x512x512, .i32⟩
  | 13 => ⟨S8x512x512, .i1⟩
  | 14 => ⟨S_, .i32⟩
  | 15 => ⟨S8x512x512, .i32⟩
  | 16 => ⟨S8x512x512, .i32⟩
  | 17 => ⟨S8x512x512, .i32⟩
  | 18 => ⟨S_, .i32⟩
  | 19 => ⟨S8x512x512, .i32⟩
  | 20 => ⟨S8x512x512, .i1⟩
  | 21 => ⟨S_, .i32⟩
  | 22 => ⟨S8x512x512, .i32⟩
  | 23 => ⟨S8x512x512, .i32⟩
  | 24 => ⟨S8x512x512, .i32⟩
  | 25 => ⟨S8x512x512, .i32⟩
  | 26 => ⟨S8x512x512x1, .i32⟩
  | 27 => ⟨S8x512x512x1, .i32⟩
  | 28 => ⟨S8x512x512x1, .i32⟩
  | 29 => ⟨S8x512x512x3, .i32⟩
  | 30 => ⟨S8x16x515x515, .f32⟩
  | 31 => ⟨S_, .i32⟩
  | 32 => ⟨S8x512x512, .i32⟩
  | 33 => ⟨S8x512x512, .i32⟩
  | 34 => ⟨S8x512x512, .f32⟩
  | 35 => ⟨S8x512x512, .f32⟩
  | 36 => ⟨S8x512x512, .f32⟩
  | 37 => ⟨S_, .f32⟩
  | 38 => ⟨S8x512x512, .f32⟩
  | 39 => ⟨S8x512x512, .f32⟩
  | 40 => ⟨S_, .f32⟩
  | 41 => ⟨S8x512x512, .f32⟩
  | 42 => ⟨S8x512x512, .f32⟩
  | 43 => ⟨S_, .i32⟩
  | 44 => ⟨S8x512x512, .i32⟩
  | 45 => ⟨S8x512x512, .i32⟩
  | 46 => ⟨S8x512x512, .f32⟩
  | 47 => ⟨S8x512x512, .f32⟩
  | 48 => ⟨S8x512x512, .f32⟩
  | 49 => ⟨S_, .f32⟩
  | 50 => ⟨S8x512x512, .f32⟩
  | 51 => ⟨S8x512x512, .f32⟩
  | 52 => ⟨S_, .f32⟩
  | 53 => ⟨S8x512x512, .f32⟩
  | 54 => ⟨S8x512x512, .f32⟩
  | 55 => ⟨S8x512x512, .f32⟩
  | 56 => ⟨S8x512x512x1, .f32⟩
  | 57 => ⟨S_, .i32⟩
  | 58 => ⟨S8x512x512, .i32⟩
  | 59 => ⟨S8x512x512, .i32⟩
  | 60 => ⟨S_, .i32⟩
  | 61 => ⟨S8x512x512, .i32⟩
  | 62 => ⟨S8x512x512, .i32⟩
  | 63 => ⟨S8x512x512x16, .f32⟩
  | 64 => ⟨S8x512x512x16, .f32⟩
  | 65 => ⟨S_, .i32⟩
  | 66 => ⟨S8x1x1, .i32⟩
  | 67 => ⟨S8x1x1, .i1⟩
  | 68 => ⟨S_, .i32⟩
  | 69 => ⟨S8x1x1, .i32⟩
  | 70 => ⟨S8x1x1, .i32⟩
  | 71 => ⟨S8x1x1, .i32⟩
  | 72 => ⟨S_, .i32⟩
  | 73 => ⟨S8x512x512, .i32⟩
  | 74 => ⟨S8x512x512, .i1⟩
  | 75 => ⟨S_, .i32⟩
  | 76 => ⟨S8x512x512, .i32⟩
  | 77 => ⟨S8x512x512, .i32⟩
  | 78 => ⟨S8x512x512, .i32⟩
  | 79 => ⟨S_, .i32⟩
  | 80 => ⟨S8x512x512, .i32⟩
  | 81 => ⟨S8x512x512, .i1⟩
  | 82 => ⟨S_, .i32⟩
  | 83 => ⟨S8x512x512, .i32⟩
  | 84 => ⟨S8x512x512, .i32⟩
  | 85 => ⟨S8x512x512, .i32⟩
  | 86 => ⟨S8x512x512, .i32⟩
  | 87 => ⟨S8x512x512x1, .i32⟩
  | 88 => ⟨S8x512x512x1, .i32⟩
  | 89 => ⟨S8x512x512x1, .i32⟩
  | 90 => ⟨S8x512x512x3, .i32⟩
  | 91 => ⟨S8x16x515x515, .f32⟩
  | 92 => ⟨S_, .i32⟩
  | 93 => ⟨S8x512x512, .i32⟩
  | 94 => ⟨S8x512x512, .i32⟩
  | 95 => ⟨S8x512x512, .f32⟩
  | 96 => ⟨S8x512x512, .f32⟩
  | 97 => ⟨S8x512x512, .f32⟩
  | 98 => ⟨S_, .f32⟩
  | 99 => ⟨S8x512x512, .f32⟩
  | 100 => ⟨S8x512x512, .f32⟩
  | 101 => ⟨S_, .f32⟩
  | 102 => ⟨S8x512x512, .f32⟩
  | 103 => ⟨S8x512x512, .f32⟩
  | 104 => ⟨S8x512x512, .f32⟩
  | 105 => ⟨S8x512x512x1, .f32⟩
  | 106 => ⟨S_, .i32⟩
  | 107 => ⟨S8x512x512, .i32⟩
  | 108 => ⟨S8x512x512, .i32⟩
  | 109 => ⟨S_, .i32⟩
  | 110 => ⟨S8x512x512, .i32⟩
  | 111 => ⟨S8x512x512, .i32⟩
  | 112 => ⟨S8x512x512x16, .f32⟩
  | 113 => ⟨S8x512x512x16, .f32⟩
  | 114 => ⟨S_, .i32⟩
  | 115 => ⟨S8x1x1, .i32⟩
  | 116 => ⟨S8x1x1, .i1⟩
  | 117 => ⟨S_, .i32⟩
  | 118 => ⟨S8x1x1, .i32⟩
  | 119 => ⟨S8x1x1, .i32⟩
  | 120 => ⟨S8x1x1, .i32⟩
  | 121 => ⟨S_, .i32⟩
  | 122 => ⟨S8x512x512, .i32⟩
  | 123 => ⟨S8x512x512, .i1⟩
  | 124 => ⟨S_, .i32⟩
  | 125 => ⟨S8x512x512, .i32⟩
  | 126 => ⟨S8x512x512, .i32⟩
  | 127 => ⟨S8x512x512, .i32⟩
  | _ => ⟨S8x16x512x512, .f32⟩

abbrev hbmTy0_2 (i : Nat) : BufTy := match i % 128 with
  | 0 => ⟨S_, .i32⟩
  | 1 => ⟨S8x512x512, .i32⟩
  | 2 => ⟨S8x512x512, .i1⟩
  | 3 => ⟨S_, .i32⟩
  | 4 => ⟨S8x512x512, .i32⟩
  | 5 => ⟨S8x512x512, .i32⟩
  | 6 => ⟨S8x512x512, .i32⟩
  | 7 => ⟨S8x512x512, .i32⟩
  | 8 => ⟨S8x512x512x1, .i32⟩
  | 9 => ⟨S8x512x512x1, .i32⟩
  | 10 => ⟨S8x512x512x1, .i32⟩
  | 11 => ⟨S8x512x512x3, .i32⟩
  | 12 => ⟨S8x16x515x515, .f32⟩
  | 13 => ⟨S8x16x512x512, .f32⟩
  | _ => ⟨S8x16x512x512, .f32⟩

abbrev hbmTy (i : Nat) : BufTy := match i / 128 with
  | 0 => hbmTy0_0 i
  | 1 => hbmTy0_1 i
  | 2 => hbmTy0_2 i
  | _ => ⟨S8x16x512x512, .f32⟩

abbrev bufTy : (tb : Table) → Fin (tcTables nBuf tb) → BufTy
  | .hbm, ⟨i, _⟩ => hbmTy i
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_cst_4 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_cst_6 : Ref sig .tc := ⟨.hbm, 29, rfl⟩
abbrev main_v15 : Ref sig .tc := ⟨.hbm, 30, rfl⟩
abbrev main_v16 : Ref sig .tc := ⟨.hbm, 31, rfl⟩
abbrev main_cst_7 : Ref sig .tc := ⟨.hbm, 32, rfl⟩
abbrev main_cst_8 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_9 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_10 : Ref sig .tc := ⟨.hbm, 55, rfl⟩
abbrev main_v31 : Ref sig .tc := ⟨.hbm, 56, rfl⟩
abbrev main_v32 : Ref sig .tc := ⟨.hbm, 57, rfl⟩
abbrev main_call2_cst : Ref sig .tc := ⟨.hbm, 58, rfl⟩
abbrev main_call2_v0 : Ref sig .tc := ⟨.hbm, 59, rfl⟩
abbrev main_v33 : Ref sig .tc := ⟨.hbm, 60, rfl⟩
abbrev main_c_11 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_12 : Ref sig .tc := ⟨.hbm, 67, rfl⟩
abbrev main_v39 : Ref sig .tc := ⟨.hbm, 68, rfl⟩
abbrev main_v40 : Ref sig .tc := ⟨.hbm, 69, rfl⟩
abbrev main_call3_cst : Ref sig .tc := ⟨.hbm, 70, rfl⟩
abbrev main_call3_v0 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_13 : Ref sig .tc := ⟨.hbm, 75, rfl⟩
abbrev main_v44 : Ref sig .tc := ⟨.hbm, 76, rfl⟩
abbrev main_v45 : Ref sig .tc := ⟨.hbm, 77, rfl⟩
abbrev main_c_14 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_15 : Ref sig .tc := ⟨.hbm, 83, rfl⟩
abbrev main_v50 : Ref sig .tc := ⟨.hbm, 84, rfl⟩
abbrev main_v51 : Ref sig .tc := ⟨.hbm, 85, rfl⟩
abbrev main_c_16 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_17 : Ref sig .tc := ⟨.hbm, 90, rfl⟩
abbrev main_v55 : Ref sig .tc := ⟨.hbm, 91, rfl⟩
abbrev main_v56 : Ref sig .tc := ⟨.hbm, 92, rfl⟩
abbrev main_c_18 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_c_19 : Ref sig .tc := ⟨.hbm, 97, rfl⟩
abbrev main_v60 : Ref sig .tc := ⟨.hbm, 98, rfl⟩
abbrev main_v61 : Ref sig .tc := ⟨.hbm, 99, rfl⟩
abbrev main_c_20 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_21 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_22 : Ref sig .tc := ⟨.hbm, 116, rfl⟩
abbrev main_v76 : Ref sig .tc := ⟨.hbm, 117, rfl⟩
abbrev main_v77 : Ref sig .tc := ⟨.hbm, 118, rfl⟩
abbrev main_call4_cst : Ref sig .tc := ⟨.hbm, 119, rfl⟩
abbrev main_call4_v0 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_23 : Ref sig .tc := ⟨.hbm, 124, rfl⟩
abbrev main_v81 : Ref sig .tc := ⟨.hbm, 125, rfl⟩
abbrev main_v82 : Ref sig .tc := ⟨.hbm, 126, rfl⟩
abbrev main_c_24 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_25 : Ref sig .tc := ⟨.hbm, 132, rfl⟩
abbrev main_v87 : Ref sig .tc := ⟨.hbm, 133, rfl⟩
abbrev main_v88 : Ref sig .tc := ⟨.hbm, 134, rfl⟩
abbrev main_c_26 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_c_27 : Ref sig .tc := ⟨.hbm, 139, rfl⟩
abbrev main_v92 : Ref sig .tc := ⟨.hbm, 140, rfl⟩
abbrev main_v93 : Ref sig .tc := ⟨.hbm, 141, rfl⟩
abbrev main_c_28 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_c_29 : Ref sig .tc := ⟨.hbm, 146, rfl⟩
abbrev main_v97 : Ref sig .tc := ⟨.hbm, 147, rfl⟩
abbrev main_v98 : Ref sig .tc := ⟨.hbm, 148, rfl⟩
abbrev main_c_30 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_c_31 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_32 : Ref sig .tc := ⟨.hbm, 165, rfl⟩
abbrev main_v113 : Ref sig .tc := ⟨.hbm, 166, rfl⟩
abbrev main_v114 : Ref sig .tc := ⟨.hbm, 167, rfl⟩
abbrev main_call5_cst : Ref sig .tc := ⟨.hbm, 168, rfl⟩
abbrev main_call5_v0 : Ref sig .tc := ⟨.hbm, 169, rfl⟩
abbrev main_v115 : Ref sig .tc := ⟨.hbm, 170, rfl⟩
abbrev main_c_33 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_cst_34 : Ref sig .tc := ⟨.hbm, 177, rfl⟩
abbrev main_v121 : Ref sig .tc := ⟨.hbm, 178, rfl⟩
abbrev main_v122 : Ref sig .tc := ⟨.hbm, 179, rfl⟩
abbrev main_call6_cst : Ref sig .tc := ⟨.hbm, 180, rfl⟩
abbrev main_call6_v0 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_c_35 : Ref sig .tc := ⟨.hbm, 185, rfl⟩
abbrev main_v126 : Ref sig .tc := ⟨.hbm, 186, rfl⟩
abbrev main_v127 : Ref sig .tc := ⟨.hbm, 187, rfl⟩
abbrev main_c_36 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_c_37 : Ref sig .tc := ⟨.hbm, 193, rfl⟩
abbrev main_v132 : Ref sig .tc := ⟨.hbm, 194, rfl⟩
abbrev main_v133 : Ref sig .tc := ⟨.hbm, 195, rfl⟩
abbrev main_c_38 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_c_39 : Ref sig .tc := ⟨.hbm, 200, rfl⟩
abbrev main_v137 : Ref sig .tc := ⟨.hbm, 201, rfl⟩
abbrev main_v138 : Ref sig .tc := ⟨.hbm, 202, rfl⟩
abbrev main_c_40 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_c_41 : Ref sig .tc := ⟨.hbm, 207, rfl⟩
abbrev main_v142 : Ref sig .tc := ⟨.hbm, 208, rfl⟩
abbrev main_v143 : Ref sig .tc := ⟨.hbm, 209, rfl⟩
abbrev main_c_42 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_c_43 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_cst_44 : Ref sig .tc := ⟨.hbm, 226, rfl⟩
abbrev main_v158 : Ref sig .tc := ⟨.hbm, 227, rfl⟩
abbrev main_v159 : Ref sig .tc := ⟨.hbm, 228, rfl⟩
abbrev main_call7_cst : Ref sig .tc := ⟨.hbm, 229, rfl⟩
abbrev main_call7_v0 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_c_45 : Ref sig .tc := ⟨.hbm, 234, rfl⟩
abbrev main_v163 : Ref sig .tc := ⟨.hbm, 235, rfl⟩
abbrev main_v164 : Ref sig .tc := ⟨.hbm, 236, rfl⟩
abbrev main_c_46 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_c_47 : Ref sig .tc := ⟨.hbm, 242, rfl⟩
abbrev main_v169 : Ref sig .tc := ⟨.hbm, 243, rfl⟩
abbrev main_v170 : Ref sig .tc := ⟨.hbm, 244, rfl⟩
abbrev main_c_48 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_c_49 : Ref sig .tc := ⟨.hbm, 249, rfl⟩
abbrev main_v174 : Ref sig .tc := ⟨.hbm, 250, rfl⟩
abbrev main_v175 : Ref sig .tc := ⟨.hbm, 251, rfl⟩
abbrev main_c_50 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_c_51 : Ref sig .tc := ⟨.hbm, 256, rfl⟩
abbrev main_v179 : Ref sig .tc := ⟨.hbm, 257, rfl⟩
abbrev main_v180 : Ref sig .tc := ⟨.hbm, 258, rfl⟩
abbrev main_c_52 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩

abbrev nD : Nat := 1
abbrev τ : Topo := Topo.v7x

variable {F : FTy → Type} [FloatOps F]

class Facts₀ : Prop where
  bcast_S_S8x512x512x2 : S_.BroadcastsInDim S8x512x512x2 (![] : Fin 0 → Fin S8x512x512x2.rank)
  slices_S8x512x512x2_S8x512x512x1_0_0_0_0 : S8x512x512x2.Slices ![0, 0, 0, 0] S8x512x512x1
  shapeCasts_S8x512x512x1_S8x512x512 : S8x512x512x1.ShapeCasts S8x512x512
  bcast_S_S8x512x512 : S_.BroadcastsInDim S8x512x512 (![] : Fin 0 → Fin S8x512x512.rank)
  slices_S8x512x512x2_S8x512x512x1_0_0_0_1 : S8x512x512x2.Slices ![0, 0, 0, 1] S8x512x512x1
  bcast_S_S8x16x515x515 : S_.BroadcastsInDim S8x16x515x515 (![] : Fin 0 → Fin S8x16x515x515.rank)
  bcast_S8_S8x1x1_0 : S8.BroadcastsInDim S8x1x1 (![0] : Fin 1 → Fin S8x1x1.rank)
  transposes_S8x16x512x512_S8x512x512x16_0_2_3_1 : S8x16x512x512.Transposes [0, 2, 3, 1] S8x512x512x16
  bcast_S8x512x512_S8x512x512x1_0_1_2 : S8x512x512.BroadcastsInDim S8x512x512x1 (![0, 1, 2] : Fin 3 → Fin S8x512x512x1.rank)
  bcast_S8x512x512x1_S8x512x512x16_0_1_2_3 : S8x512x512x1.BroadcastsInDim S8x512x512x16 (![0, 1, 2, 3] : Fin 4 → Fin S8x512x512x16.rank)
  bcast_S_S8x1x1 : S_.BroadcastsInDim S8x1x1 (![] : Fin 0 → Fin S8x1x1.rank)
  bcast_S8x1x1_S8x512x512_0_1_2 : S8x1x1.BroadcastsInDim S8x512x512 (![0, 1, 2] : Fin 3 → Fin S8x512x512.rank)
  concatenates_S8x512x512x1_S8x512x512x1_S8x512x512x1_S8x512x512x3_d3 : Shape.Concatenates [S8x512x512x1, S8x512x512x1, S8x512x512x1] S8x512x512x3 3
  slices_S8x16x515x515_S8x16x512x512_0_0_1_1 : S8x16x515x515.Slices ![0, 0, 1, 1] S8x16x512x512
  scatter_S8x16x515x515_S8x512x512x3_S8x512x512x16_3_023_023_3_wf : ScatterDims.WF S8x16x515x515 S8x512x512x3 S8x512x512x16 [3] [0, 2, 3] [0, 2, 3] 3

variable [Facts₀]

def scatter_S8x16x515x515_S8x512x512x3_S8x512x512x16_3_023_023_3 : ScatterDims S8x16x515x515 S8x512x512x3 S8x512x512x16 where
  updateWindowDims := [3]
  insertedWindowDims := [0, 2, 3]
  scatterDimsToOperandDims := [0, 2, 3]
  indexVectorDim := 3
  wf := scatter_S8x16x515x515_S8x512x512x3_S8x512x512x16_3_023_023_3_wf

class Facts : Prop extends Facts₀ where

variable [Facts]
-- ==== Proof.KOutBits.lean ====
/-
  The inverse bilinear splat, kernel side: what the body of the one pallas region leaves in each of its three
  output staging buffers, as a function of the three input blocks it loads.

  The region runs over the grid (batch b, row tile hb) of 8 × 8 points. At a point the body reads the block
  x[b, :, 64·hb .. 64·hb+63, :] and the matching 64 × 512 blocks of the two coordinate planes, and writes, for
  each of the four corners k = (di, dj) of the bilinear footprint, one slab of the weighted values
  (64 × 512 × 16), one slab of clamped target rows and one of clamped target columns (64 × 512 each).
  Every store is a whole slab [k, 0, :, :, (:)], so the four stores into one buffer tile it, and the buffer's
  contents afterwards are the overlay of the four payloads, each a pure function of the input blocks.
-/
import proofs.«114343_j3066606649873_1_alg».proof.Proof.Gen.Kernel.Launch
import proofs.«114343_j3066606649873_1_alg».proof.Proof.Gen.Kernel.Skeleton
import proofs.«114343_j3066606649873_1_alg».proof.Proof.Gen.Kernel.Points
import Idealize.ShloMosaic.Lib.Pipeline.FrameBody
import Idealize.ShloMosaic.Lib.Pipeline.FrameSuffix

set_option maxRecDepth 16384

noncomputable section

namespace Cert.Kernel.Frame

open Idealize.ShloMosaic Idealize.ShloMosaic.TcCoe
open Idealize.SL Idealize.SL.RA Idealize.SL.BI Idealize.SL.Sem
open Idealize.ShloMosaic.Rounds
open Idealize.ShloMosaic.Pipeline (Dat)
open Cert.Kernel Cert.Kernel.Gen
open Cert.Kernel.Facts₀ Cert.Kernel.Facts

variable {F : FTy → Type} [FloatOps F]

variable (m : (ℓ : Loc nD τ sig) → Buf (Elt F) ℓ)

/-! ## The arrays as the region finds them -/

/-- Core `c`'s buffer contents when the region is entered: the launch contents after the four host operations
    that cut the two coordinate planes out of the grid array. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body loads and stores through -/

/-- The whole value block. -/
abbrev rX : Rect S1x16x64x512 := Rect.unit (s := S1x16x64x512) ![0, 0, 0, 0] S1x16x64x512.size Facts₀.inb_S1x16x64x512_S1x16x64x512_0_0_0_0
/-- The whole coordinate block. -/
abbrev rG : Rect S1x64x512 := Rect.unit (s := S1x64x512) ![0, 0, 0] S1x64x512.size Facts₀.inb_S1x64x512_S1x64x512_0_0_0
/-- Slab `k` of the weighted-values buffer. -/
abbrev rU0 : Rect S4x1x64x512x16 := Rect.unit (s := S4x1x64x512x16) ![0, 0, 0, 0, 0] S1x1x64x512x16.size Facts₀.inb_S4x1x64x512x16_S1x1x64x512x16_0_0_0_0_0
abbrev rU1 : Rect S4x1x64x512x16 := Rect.unit (s := S4x1x64x512x16) ![1, 0, 0, 0, 0] S1x1x64x512x16.size Facts₀.inb_S4x1x64x512x16_S1x1x64x512x16_1_0_0_0_0
abbrev rU2 : Rect S4x1x64x512x16 := Rect.unit (s := S4x1x64x512x16) ![2, 0, 0, 0, 0] S1x1x64x512x16.size Facts₀.inb_S4x1x64x512x16_S1x1x64x512x16_2_0_0_0_0
abbrev rU3 : Rect S4x1x64x512x16 := Rect.unit (s := S4x1x64x512x16) ![3, 0, 0, 0, 0] S1x1x64x512x16.size Facts₀.inb_S4x1x64x512x16_S1x1x64x512x16_3_0_0_0_0
/-- Slab `k` of a target-index buffer. -/
abbrev rI0 : Rect S4x1x64x512 := Rect.unit (s := S4x1x64x512) ![0, 0, 0, 0] S1x1x64x512.size Facts₀.inb_S4x1x64x512_S1x1x64x512_0_0_0_0
abbrev rI1 : Rect S4x1x64x512 := Rect.unit (s := S4x1x64x512) ![1, 0, 0, 0] S1x1x64x512.size Facts₀.inb_S4x1x64x512_S1x1x64x512_1_0_0_0
abbrev rI2 : Rect S4x1x64x512 := Rect.unit (s := S4x1x64x512) ![2, 0, 0, 0] S1x1x64x512.size Facts₀.inb_S4x1x64x512_S1x1x64x512_2_0_0_0
abbrev rI3 : Rect S4x1x64x512 := Rect.unit (s := S4x1x64x512) ![3, 0, 0, 0] S1x1x64x512.size Facts₀.inb_S4x1x64x512_S1x1x64x512_3_0_0_0

/-! ## The values the body computes from its three loads

  `gi`, `gj`: the clipped pixel coordinates; `fi`, `fj`: their integer cells; `xt`: the value block with the
  channel axis moved last. The later names are the shifted cells, the in-range masks and the one-axis weights,
  in the order the body computes them. -/

section Values
variable (x0 : Vec F S1x16x64x512 .f32) (x1 x2 : Vec F S1x64x512 .f32)

abbrev gi : FVec F S64x512 .f32 := k0_pay2 (View.ld x1 rG)
abbrev gj : FVec F S64x512 .f32 := k0_pay3 (View.ld x2 rG)
abbrev fi : IVec S64x512 32 := k0_pay4 (F := F) (View.ld x1 rG)
abbrev fj : IVec S64x512 32 := k0_pay5 (F := F) (View.ld x2 rG)
abbrev xt : FVec F S64x512x16 .f32 := k0_pay6 (View.ld x0 rX)
/-- The all-ones word: −1 as a signed 32-bit integer. -/
abbrev cm1 : BitVec 32 := 4294967295#32

/-- Row cell − 1, its in-range mask, the row weight at `di = 0`; column cell − 1. -/
abbrev oiA : IVec S64x512 32 := k0_pay7 (fi x1) cm1
abbrev viA : IVec S64x512 1 := k0_pay8 (fi x1) cm1
abbrev wiA : FVec F S64x512 .f32 := k0_pay9 (gi x1) (fi x1)
abbrev ojA : IVec S64x512 32 := k0_pay10 (fj x2)
/-- Column cell, and the weighted values of corner (0, 1). -/
abbrev ojB : IVec S64x512 32 := k0_pay14 (fj x2)
abbrev u1 : FVec F S64x512x16 .f32 := k0_pay15 (gj x2) (fj x2) (xt x0) (viA x1) (wiA x1)
/-- Row cell, its in-range mask, the row weight at `di = 1`; column cell − 1 again. -/
abbrev oiB : IVec S64x512 32 := k0_pay19 (fi x1)
abbrev viB : IVec S64x512 1 := k0_pay20 (fi x1)
abbrev wiB : FVec F S64x512 .f32 := k0_pay21 (gi x1) (fi x1)
abbrev ojC : IVec S64x512 32 := k0_pay22 (fj x2)
end Values

/-! ## What the body leaves in each output buffer -/

/-- The weighted-values buffer after the body: its four slab stores, last first. -/
def out0_3 (x0 : Vec F S1x16x64x512 .f32) (x1 x2 : Vec F S1x64x512 .f32) : Vec F S4x1x64x512x16 .f32 :=
  View.canon [⟨rU3, k0_pay28 (gj x2) (fj x2) (xt x0) (viB x1) (wiB x1)⟩,
    ⟨rU2, k0_pay23 (gj x2) (fj x2) (xt x0) (viB x1) (wiB x1) (ojC x2)⟩,
    ⟨rU1, k0_pay16 (u1 x0 x1 x2)⟩,
    ⟨rU0, k0_pay11 (gi x1) (gj x2) (fi x1) (fj x2) (xt x0) cm1⟩]

/-- The target-row buffer after the body. -/
def out0_4 (x1 : Vec F S1x64x512 .f32) : Vec F S4x1x64x512 .i32 :=
  View.canon [⟨rI3, k0_pay29 (oiB x1)⟩, ⟨rI2, k0_pay24 (oiB x1)⟩, ⟨rI1, k0_pay17 (oiA x1)⟩, ⟨rI0, k0_pay12 (oiA x1)⟩]

/-- The target-column buffer after the body. -/
def out0_5 (x2 : Vec F S1x64x512 .f32) : Vec F S4x1x64x512 .i32 :=
  View.canon [⟨rI3, k0_pay1 (k0_pay27 (fj x2)) 511#32 k0_pay30⟩, ⟨rI2, k0_pay26 (k0_pay25 (ojC x2))⟩,
    ⟨rI1, k0_pay18 (ojB x2)⟩, ⟨rI0, k0_pay13 (ojA x2)⟩]

/-! ## The pipeline's proof data -/

/-- The proof data of the one pipeline on core `c`: the arrays as the region finds them; after the body at grid
    point `t` each input buffer still holds its block and each output buffer the overlay of its four slabs, computed
    from the input blocks at `t`; the invariant is the region's scoped rest, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 1 t)
    | ⟨5, _⟩ => out0_5 (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]
theorem after0_4 (c : Dev nD) (t : Fin cfg0.N) : (dats m 0 c).after 4 t = out0_4 (iblk m c 1 t) := by dsimp only [dats]
theorem after0_5 (c : Dev nD) (t : Fin cfg0.N) : (dats m 0 c).after 5 t = out0_5 (iblk m c 2 t) := by dsimp only [dats]

end Cert.Kernel.Frame

end
-- ==== Proof.KFrameBits.lean ====
/-
  The inverse bilinear splat, kernel side: the frame of the program — its run terminates and leaves the two
  argument arrays (the values x and the grid of target coordinates) as it found them.

  The program is: four host operations that cut the two coordinate planes out of the grid array; one pallas
  region over the 8 × 8 grid (batch b, row tile hb); thirty-two host operations that wrap negative target
  indices, join the three index planes, scatter-add the weighted values into a zero array and move the channel
  axis back. At a grid point the region's body reads three staged blocks — x[b, :, 64·hb .. 64·hb+63, :] and
  the matching 64 × 512 blocks of the two planes — and fills three staged output blocks, each by four whole-slab
  stores, one per corner of the bilinear footprint. So after the body each output buffer is the overlay of its
  four slabs (KOut's out0_3, out0_4, out0_5), a function of the three input blocks alone, and each input buffer
  still holds its block. Neither argument array is an output of the region or a result of a host operation,
  which is the frame claim.
-/
import proofs.«114343_j3066606649873_1_alg».proof.Proof.KOutBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The four slicing operations before the region each write their own result buffer; none allocates. -/
theorem hostOps0_fresh : (hostOps0 : List (HloOp τ sig (Elt F))).Forall fun op => op.fresh = ∅ := by
  simp only [List.Forall]; repeat' constructor
/-- Nor does any of the thirty-two operations after it, the three-operand concatenate included. -/
theorem hostOps1_fresh : (hostOps1 : List (HloOp τ sig (Elt F))).Forall fun op => op.fresh = ∅ := by
  simp only [List.Forall]; repeat' constructor

/-- The program is the slicing operations, the region, the operations after it: up to the region it leaves
    each buffer at `V`, and goes on with the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only: the region's six arrays and the
    buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa only [List.mem_cons, List.mem_nil_iff, or_false] using hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  obtain rfl : ops = hostOps1 := by simpa only [List.mem_cons, List.mem_nil_iff, or_false] using hops
  exact (List.forall_iff_forall_mem.mp hostOps1_fresh) op hop

/-- "No operation after the region writes the buffer `b`", for a literal `b`: each of the thirty-two writes its
    own result buffer only, and `b` is none of those. -/
local macro "tail_skips" : tactic => `(tactic| (
  simp only [hostOps1, List.flatten_cons, List.flatten_nil, List.append_nil, List.Forall,
    StableHlo.nullary_writes, StableHlo.unary_writes, StableHlo.binary_writes, StableHlo.ternary_writes,
    StableHlo.nary_writes, Finset.mem_singleton]
  repeat' apply And.intro
  all_goals exact StableHlo.devRef_ne_of_ne (by decide)))

/-- None of the region's six arrays is a result of an operation after the region (the three outputs are
    operands there, never results). -/
theorem tail_skips_arr (w : Fin 6) : (hostOps1 : List (HloOp τ sig (Elt F))).Forall fun op =>
    Proc.devRef .tc (Pipeline.arrRef spec0 w) ∉ op.writes := by
  fin_cases w <;> tail_skips

/-- So the operations after the region leave every array of the region as the region's write-backs left it. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl : ops = hostOps1 := by simpa only [List.mem_cons, List.mem_nil_iff, or_false] using hops
  exact (List.forall_iff_forall_mem.mp (tail_skips_arr w)) op hop

/-- "No slicing operation before the region writes the buffer `b`", for a literal `b`. -/
local macro "head_skips" : tactic => `(tactic| (
  simp only [hostOps0, List.flatten_cons, List.flatten_nil, List.append_nil, List.Forall,
    StableHlo.unary_writes, StableHlo.reshape_writes, Finset.mem_singleton]
  repeat' apply And.intro
  all_goals exact StableHlo.devRef_ne_of_ne (by decide)))

/-- The region finds the value array x as launched: the slicing operations read only the grid array. -/
theorem V_main_arg0 (c : Dev nD) : V m c main_arg0 = m ((c : Thread nD τ).loc main_arg0) :=
  StableHlo.after_of_forall_not_mem (b := Proc.devRef .tc main_arg0) _ _ (List.forall_iff_forall_mem.mp (by head_skips))

/-- And the grid array as launched: the slicing operations read it and write their own results. -/
theorem V_main_arg1 (c : Dev nD) : V m c main_arg1 = m ((c : Thread nD τ).loc main_arg1) :=
  StableHlo.after_of_forall_not_mem (b := Proc.devRef .tc main_arg1) _ _ (List.forall_iff_forall_mem.mp (by head_skips))

/-! ## The stores into each output buffer tile it -/

/-- Four slabs [k, 0, :, :, :], k = 0..3, whatever their payloads, cover the weighted-values buffer. -/
theorem cover0_3 (p3 p2 p1 p0 : Vec F S1x1x64x512x16 .f32) (y : S4x1x64x512x16.Idx) :
    ∃ pc ∈ ([⟨rU3, p3⟩, ⟨rU2, p2⟩, ⟨rU1, p1⟩, ⟨rU0, p0⟩] : List (View.Piece (Elt F) S4x1x64x512x16 .f32)), y ∈ pc.1.set :=
  View.cover_of_tiled [⟨rU3, p3⟩, ⟨rU2, p2⟩, ⟨rU1, p1⟩, ⟨rU0, p0⟩] S1x1x64x512x16.size (by rfl) y

/-- Four slabs [k, 0, :, :] cover a target-index buffer. -/
theorem cover0_45 (p3 p2 p1 p0 : Vec F S1x1x64x512 .i32) (y : S4x1x64x512.Idx) :
    ∃ pc ∈ ([⟨rI3, p3⟩, ⟨rI2, p2⟩, ⟨rI1, p1⟩, ⟨rI0, p0⟩] : List (View.Piece (Elt F) S4x1x64x512 .i32)), y ∈ pc.1.set :=
  View.cover_of_tiled [⟨rI3, p3⟩, ⟨rI2, p2⟩, ⟨rI1, p1⟩, ⟨rI0, p0⟩] S1x1x64x512.size (by rfl) y

/-! ## The body at one grid point -/

set_option maxHeartbeats 4000000 in
/-- The kernel body on six whole staging buffers — the three inputs' reading x0, x1, x2, the three outputs' holding
    anything — runs to the end with the inputs' buffers as they were, the weighted-values buffer at the overlay of its
    four slabs `out0_3 x0 x1 x2`, the target-row buffer at `out0_4 x1` and the target-column buffer at `out0_5 x2`.
    (The body loads each output slab before it stores it; those loaded values are never used.) -/
theorem sound_kernel (c : Dev nD) (E : Set ℕ) (i : grid0.Coords)
    (arg2 : Memref sig .tc .vmem S1x16x64x512 .f32) (harg2 : arg2.IsWhole)
    (arg3 : Memref sig .tc .vmem S1x64x512 .f32) (harg3 : arg3.IsWhole)
    (arg4 : Memref sig .tc .vmem S1x64x512 .f32) (harg4 : arg4.IsWhole)
    (arg5 : Memref sig .tc .vmem S4x1x64x512x16 .f32) (harg5 : arg5.IsWhole)
    (arg6 : Memref sig .tc .vmem S4x1x64x512 .i32) (harg6 : arg6.IsWhole)
    (arg7 : Memref sig .tc .vmem S4x1x64x512 .i32) (harg7 : arg7.IsWhole)
    (x0 : Vec F S1x16x64x512 .f32) (x1 x2 : Vec F S1x64x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x1)
            ∗ owns (c : Thread nD τ) arg7 fullShare (out0_5 x2)) -∗ K ⟨⟩))
      ⊢ wp frame (wpE (defs₀ (F := F)) Variants.none c none) E
          (cc0__prep_kernel i arg2 harg2 arg3 harg3 arg4 harg4 arg5 harg5 arg6 harg6 arg7 harg7) K := by
  simp only [cc0__prep_kernel_eq_skeleton]; unfold cc0__prep_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _ _ _ _)
  isplitl [H4]
  · iexists _; isplitr
    swap; · iexact H4
    ipureintro
    exact View.read_writes_eq_canon _ _ _ (cover0_45 _ _ _ _)
  iexists _; isplitr
  swap; · iexact H5
  ipureintro
  exact View.read_writes_eq_canon _ _ _ (cover0_45 _ _ _ _)

/-! ## The inputs' staging buffers when the body runs -/

/-- The value block x[b, :, 64·hb.., :] is in its staging buffer when the body runs at point t, whether the
    pipeline fetched it there or the block index did not move since the point before. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
/-- The same for the block of the row-coordinate plane, -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
/-- and of the column-coordinate plane. -/
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

/-! ## The body obligation -/

/-- What the body is called with at point t: the invariant, the core's tallies, and the six current staging
    buffers at what they then hold, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the three inputs' buffers hold their blocks, the outputs' anything; the invariant and
    the tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the TensorCores terminates, with
    each of the region's six arrays at what the write-backs of the proof data leave in it and every other unscoped
    buffer as the thirty-two operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The value array x is the first window's array, an input: no write-back touches it, so it ends at its
    region-entry contents, which are the launch contents. -/
theorem arr_main_arg0 (c : Dev nD) : (dats m 0 c).arrAt 0 cfg0.N = m ((c : Thread nD τ).loc main_arg0) :=
  ((dats m 0 c).arrAt_in 0 rfl cfg0.N).trans ((A_eq m c 0).trans (V_main_arg0 m c))

/-- Read after the operations that follow the region, x is still as launched: none of them writes it. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by tail_skips))]
  exact (Pipeline.withArrays_arr spec0 launch0.win.arr_inj c (V0 m c) _ 0).trans (arr_main_arg0 m c)

/-- The grid array is no window's array (only its two planes are staged) and no operation after the region
    writes it: it ends at its region-entry contents, the launch contents. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by tail_skips)),
    Pipeline.withArrays_of_ne _ c (V0 m c) _ main_arg1 (by exact (by decide : ∀ w, Pipeline.arrRef spec0 w ≠ main_arg1))]
  exact V_main_arg1 m c

/-- THE FRAME, at any float family: the program terminates and both argument arrays end as launched — x by the
    first clause of the run's post (it is a staged input), the grid array by the second (it bypasses the region). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (arr_main_arg0 m c),
     ((h c).2 main_arg1 (Pipeline.mem_restRefs_of main_arg1 (by decide) (by decide))).trans (W_main_arg1 m c)⟩) (run_main m ρ)

end Cert.Kernel.Frame

end
-- ==== Proof.KOut.lean ====
/-
  The inverse bilinear splat, kernel side: what the body of the one pallas region leaves in each of its three
  output staging buffers, as a function of the three input blocks it loads.

  The region runs over the grid (batch b, row tile hb) of 8 × 8 points. At a point the body reads the block
  x[b, :, 64·hb .. 64·hb+63, :] and the matching 64 × 512 blocks of the two coordinate planes, and writes, for
  each of the four corners k = (di, dj) of the bilinear footprint, one slab of the weighted values
  (64 × 512 × 16), one slab of clamped target rows and one of clamped target columns (64 × 512 each).
  Every store is a whole slab [k, 0, :, :, (:)], so the four stores into one buffer tile it, and the buffer's
  contents afterwards are the overlay of the four payloads, each a pure function of the input blocks.
-/
import proofs.«114343_j3066606649873_1_alg».proof.Proof.Gen.KernelIdeal.Launch
import proofs.«114343_j3066606649873_1_alg».proof.Proof.Gen.KernelIdeal.Skeleton
import proofs.«114343_j3066606649873_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Frame

open Idealize.ShloMosaic Idealize.ShloMosaic.TcCoe
open Idealize.SL Idealize.SL.RA Idealize.SL.BI Idealize.SL.Sem
open Idealize.ShloMosaic.Rounds
open Idealize.ShloMosaic.Pipeline (Dat)
open Cert.KernelIdeal Cert.KernelIdeal.Gen
open Cert.KernelIdeal.Facts₀ Cert.KernelIdeal.Facts

variable {F : FTy → Type} [FloatOps F]

variable (m : (ℓ : Loc nD τ sig) → Buf (Elt F) ℓ)

/-! ## The arrays as the region finds them -/

/-- Core `c`'s buffer contents when the region is entered: the launch contents after the four host operations
    that cut the two coordinate planes out of the grid array. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body loads and stores through -/

/-- The whole value block. -/
abbrev rX : Rect S1x16x64x512 := Rect.unit (s := S1x16x64x512) ![0, 0, 0, 0] S1x16x64x512.size Facts₀.inb_S1x16x64x512_S1x16x64x512_0_0_0_0
/-- The whole coordinate block. -/
abbrev rG : Rect S1x64x512 := Rect.unit (s := S1x64x512) ![0, 0, 0] S1x64x512.size Facts₀.inb_S1x64x512_S1x64x512_0_0_0
/-- Slab `k` of the weighted-values buffer. -/
abbrev rU0 : Rect S4x1x64x512x16 := Rect.unit (s := S4x1x64x512x16) ![0, 0, 0, 0, 0] S1x1x64x512x16.size Facts₀.inb_S4x1x64x512x16_S1x1x64x512x16_0_0_0_0_0
abbrev rU1 : Rect S4x1x64x512x16 := Rect.unit (s := S4x1x64x512x16) ![1, 0, 0, 0, 0] S1x1x64x512x16.size Facts₀.inb_S4x1x64x512x16_S1x1x64x512x16_1_0_0_0_0
abbrev rU2 : Rect S4x1x64x512x16 := Rect.unit (s := S4x1x64x512x16) ![2, 0, 0, 0, 0] S1x1x64x512x16.size Facts₀.inb_S4x1x64x512x16_S1x1x64x512x16_2_0_0_0_0
abbrev rU3 : Rect S4x1x64x512x16 := Rect.unit (s := S4x1x64x512x16) ![3, 0, 0, 0, 0] S1x1x64x512x16.size Facts₀.inb_S4x1x64x512x16_S1x1x64x512x16_3_0_0_0_0
/-- Slab `k` of a target-index buffer. -/
abbrev rI0 : Rect S4x1x64x512 := Rect.unit (s := S4x1x64x512) ![0, 0, 0, 0] S1x1x64x512.size Facts₀.inb_S4x1x64x512_S1x1x64x512_0_0_0_0
abbrev rI1 : Rect S4x1x64x512 := Rect.unit (s := S4x1x64x512) ![1, 0, 0, 0] S1x1x64x512.size Facts₀.inb_S4x1x64x512_S1x1x64x512_1_0_0_0
abbrev rI2 : Rect S4x1x64x512 := Rect.unit (s := S4x1x64x512) ![2, 0, 0, 0] S1x1x64x512.size Facts₀.inb_S4x1x64x512_S1x1x64x512_2_0_0_0
abbrev rI3 : Rect S4x1x64x512 := Rect.unit (s := S4x1x64x512) ![3, 0, 0, 0] S1x1x64x512.size Facts₀.inb_S4x1x64x512_S1x1x64x512_3_0_0_0

/-! ## The values the body computes from its three loads

  `gi`, `gj`: the clipped pixel coordinates; `fi`, `fj`: their integer cells; `xt`: the value block with the
  channel axis moved last. The later names are the shifted cells, the in-range masks and the one-axis weights,
  in the order the body computes them. -/

section Values
variable (x0 : Vec F S1x16x64x512 .f32) (x1 x2 : Vec F S1x64x512 .f32)

abbrev gi : FVec F S64x512 .f32 := k0_pay2 (View.ld x1 rG)
abbrev gj : FVec F S64x512 .f32 := k0_pay3 (View.ld x2 rG)
abbrev fi : IVec S64x512 32 := k0_pay4 (F := F) (View.ld x1 rG)
abbrev fj : IVec S64x512 32 := k0_pay5 (F := F) (View.ld x2 rG)
abbrev xt : FVec F S64x512x16 .f32 := k0_pay6 (View.ld x0 rX)
/-- The all-ones word: −1 as a signed 32-bit integer. -/
abbrev cm1 : BitVec 32 := 4294967295#32

/-- Row cell − 1, its in-range mask, the row weight at `di = 0`; column cell − 1. -/
abbrev oiA : IVec S64x512 32 := k0_pay7 (fi x1) cm1
abbrev viA : IVec S64x512 1 := k0_pay8 (fi x1) cm1
abbrev wiA : FVec F S64x512 .f32 := k0_pay9 (gi x1) (fi x1)
abbrev ojA : IVec S64x512 32 := k0_pay10 (fj x2)
/-- Column cell, and the weighted values of corner (0, 1). -/
abbrev ojB : IVec S64x512 32 := k0_pay14 (fj x2)
abbrev u1 : FVec F S64x512x16 .f32 := k0_pay15 (gj x2) (fj x2) (xt x0) (viA x1) (wiA x1)
/-- Row cell, its in-range mask, the row weight at `di = 1`; column cell − 1 again. -/
abbrev oiB : IVec S64x512 32 := k0_pay19 (fi x1)
abbrev viB : IVec S64x512 1 := k0_pay20 (fi x1)
abbrev wiB : FVec F S64x512 .f32 := k0_pay21 (gi x1) (fi x1)
abbrev ojC : IVec S64x512 32 := k0_pay22 (fj x2)
end Values

/-! ## What the body leaves in each output buffer -/

/-- The weighted-values buffer after the body: its four slab stores, last first. -/
def out0_3 (x0 : Vec F S1x16x64x512 .f32) (x1 x2 : Vec F S1x64x512 .f32) : Vec F S4x1x64x512x16 .f32 :=
  View.canon [⟨rU3, k0_pay28 (gj x2) (fj x2) (xt x0) (viB x1) (wiB x1)⟩,
    ⟨rU2, k0_pay23 (gj x2) (fj x2) (xt x0) (viB x1) (wiB x1) (ojC x2)⟩,
    ⟨rU1, k0_pay16 (u1 x0 x1 x2)⟩,
    ⟨rU0, k0_pay11 (gi x1) (gj x2) (fi x1) (fj x2) (xt x0) cm1⟩]

/-- The target-row buffer after the body. -/
def out0_4 (x1 : Vec F S1x64x512 .f32) : Vec F S4x1x64x512 .i32 :=
  View.canon [⟨rI3, k0_pay29 (oiB x1)⟩, ⟨rI2, k0_pay24 (oiB x1)⟩, ⟨rI1, k0_pay17 (oiA x1)⟩, ⟨rI0, k0_pay12 (oiA x1)⟩]

/-- The target-column buffer after the body. -/
def out0_5 (x2 : Vec F S1x64x512 .f32) : Vec F S4x1x64x512 .i32 :=
  View.canon [⟨rI3, k0_pay1 (k0_pay27 (fj x2)) 511#32 k0_pay30⟩, ⟨rI2, k0_pay26 (k0_pay25 (ojC x2))⟩,
    ⟨rI1, k0_pay18 (ojB x2)⟩, ⟨rI0, k0_pay13 (ojA x2)⟩]

/-! ## The pipeline's proof data -/

/-- The proof data of the one pipeline on core `c`: the arrays as the region finds them; after the body at grid
    point `t` each input buffer still holds its block and each output buffer the overlay of its four slabs, computed
    from the input blocks at `t`; the invariant is the region's scoped rest, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 1 t)
    | ⟨5, _⟩ => out0_5 (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]
theorem after0_4 (c : Dev nD) (t : Fin cfg0.N) : (dats m 0 c).after 4 t = out0_4 (iblk m c 1 t) := by dsimp only [dats]
theorem after0_5 (c : Dev nD) (t : Fin cfg0.N) : (dats m 0 c).after 5 t = out0_5 (iblk m c 2 t) := by dsimp only [dats]

end Cert.KernelIdeal.Frame

end
-- ==== Proof.KFrame.lean ====
/-
  The inverse bilinear splat, kernel side: the frame of the program — its run terminates and leaves the two
  argument arrays (the values x and the grid of target coordinates) as it found them.

  The program is: four host operations that cut the two coordinate planes out of the grid array; one pallas
  region over the 8 × 8 grid (batch b, row tile hb); thirty-two host operations that wrap negative target
  indices, join the three index planes, scatter-add the weighted values into a zero array and move the channel
  axis back. At a grid point the region's body reads three staged blocks — x[b, :, 64·hb .. 64·hb+63, :] and
  the matching 64 × 512 blocks of the two planes — and fills three staged output blocks, each by four whole-slab
  stores, one per corner of the bilinear footprint. So after the body each output buffer is the overlay of its
  four slabs (KOut's out0_3, out0_4, out0_5), a function of the three input blocks alone, and each input buffer
  still holds its block. Neither argument array is an output of the region or a result of a host operation,
  which is the frame claim.
-/
import proofs.«114343_j3066606649873_1_alg».proof.Proof.KOut
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The four slicing operations before the region each write their own result buffer; none allocates. -/
theorem hostOps0_fresh : (hostOps0 : List (HloOp τ sig (Elt F))).Forall fun op => op.fresh = ∅ := by
  simp only [List.Forall]; repeat' constructor
/-- Nor does any of the thirty-two operations after it, the three-operand concatenate included. -/
theorem hostOps1_fresh : (hostOps1 : List (HloOp τ sig (Elt F))).Forall fun op => op.fresh = ∅ := by
  simp only [List.Forall]; repeat' constructor

/-- The program is the slicing operations, the region, the operations after it: up to the region it leaves
    each buffer at `V`, and goes on with the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only: the region's six arrays and the
    buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa only [List.mem_cons, List.mem_nil_iff, or_false] using hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  obtain rfl : ops = hostOps1 := by simpa only [List.mem_cons, List.mem_nil_iff, or_false] using hops
  exact (List.forall_iff_forall_mem.mp hostOps1_fresh) op hop

/-- "No operation after the region writes the buffer `b`", for a literal `b`: each of the thirty-two writes its
    own result buffer only, and `b` is none of those. -/
local macro "tail_skips" : tactic => `(tactic| (
  simp only [hostOps1, List.flatten_cons, List.flatten_nil, List.append_nil, List.Forall,
    StableHlo.nullary_writes, StableHlo.unary_writes, StableHlo.binary_writes, StableHlo.ternary_writes,
    StableHlo.nary_writes, Finset.mem_singleton]
  repeat' apply And.intro
  all_goals exact StableHlo.devRef_ne_of_ne (by decide)))

/-- None of the region's six arrays is a result of an operation after the region (the three outputs are
    operands there, never results). -/
theorem tail_skips_arr (w : Fin 6) : (hostOps1 : List (HloOp τ sig (Elt F))).Forall fun op =>
    Proc.devRef .tc (Pipeline.arrRef spec0 w) ∉ op.writes := by
  fin_cases w <;> tail_skips

/-- So the operations after the region leave every array of the region as the region's write-backs left it. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl : ops = hostOps1 := by simpa only [List.mem_cons, List.mem_nil_iff, or_false] using hops
  exact (List.forall_iff_forall_mem.mp (tail_skips_arr w)) op hop

/-- "No slicing operation before the region writes the buffer `b`", for a literal `b`. -/
local macro "head_skips" : tactic => `(tactic| (
  simp only [hostOps0, List.flatten_cons, List.flatten_nil, List.append_nil, List.Forall,
    StableHlo.unary_writes, StableHlo.reshape_writes, Finset.mem_singleton]
  repeat' apply And.intro
  all_goals exact StableHlo.devRef_ne_of_ne (by decide)))

/-- The region finds the value array x as launched: the slicing operations read only the grid array. -/
theorem V_main_arg0 (c : Dev nD) : V m c main_arg0 = m ((c : Thread nD τ).loc main_arg0) :=
  StableHlo.after_of_forall_not_mem (b := Proc.devRef .tc main_arg0) _ _ (List.forall_iff_forall_mem.mp (by head_skips))

/-- And the grid array as launched: the slicing operations read it and write their own results. -/
theorem V_main_arg1 (c : Dev nD) : V m c main_arg1 = m ((c : Thread nD τ).loc main_arg1) :=
  StableHlo.after_of_forall_not_mem (b := Proc.devRef .tc main_arg1) _ _ (List.forall_iff_forall_mem.mp (by head_skips))

/-! ## The stores into each output buffer tile it -/

/-- Four slabs [k, 0, :, :, :], k = 0..3, whatever their payloads, cover the weighted-values buffer. -/
theorem cover0_3 (p3 p2 p1 p0 : Vec F S1x1x64x512x16 .f32) (y : S4x1x64x512x16.Idx) :
    ∃ pc ∈ ([⟨rU3, p3⟩, ⟨rU2, p2⟩, ⟨rU1, p1⟩, ⟨rU0, p0⟩] : List (View.Piece (Elt F) S4x1x64x512x16 .f32)), y ∈ pc.1.set :=
  View.cover_of_tiled [⟨rU3, p3⟩, ⟨rU2, p2⟩, ⟨rU1, p1⟩, ⟨rU0, p0⟩] S1x1x64x512x16.size (by rfl) y

/-- Four slabs [k, 0, :, :] cover a target-index buffer. -/
theorem cover0_45 (p3 p2 p1 p0 : Vec F S1x1x64x512 .i32) (y : S4x1x64x512.Idx) :
    ∃ pc ∈ ([⟨rI3, p3⟩, ⟨rI2, p2⟩, ⟨rI1, p1⟩, ⟨rI0, p0⟩] : List (View.Piece (Elt F) S4x1x64x512 .i32)), y ∈ pc.1.set :=
  View.cover_of_tiled [⟨rI3, p3⟩, ⟨rI2, p2⟩, ⟨rI1, p1⟩, ⟨rI0, p0⟩] S1x1x64x512.size (by rfl) y

/-! ## The body at one grid point -/

set_option maxHeartbeats 4000000 in
/-- The kernel body on six whole staging buffers — the three inputs' reading x0, x1, x2, the three outputs' holding
    anything — runs to the end with the inputs' buffers as they were, the weighted-values buffer at the overlay of its
    four slabs `out0_3 x0 x1 x2`, the target-row buffer at `out0_4 x1` and the target-column buffer at `out0_5 x2`.
    (The body loads each output slab before it stores it; those loaded values are never used.) -/
theorem sound_kernel (c : Dev nD) (E : Set ℕ) (i : grid0.Coords)
    (arg2 : Memref sig .tc .vmem S1x16x64x512 .f32) (harg2 : arg2.IsWhole)
    (arg3 : Memref sig .tc .vmem S1x64x512 .f32) (harg3 : arg3.IsWhole)
    (arg4 : Memref sig .tc .vmem S1x64x512 .f32) (harg4 : arg4.IsWhole)
    (arg5 : Memref sig .tc .vmem S4x1x64x512x16 .f32) (harg5 : arg5.IsWhole)
    (arg6 : Memref sig .tc .vmem S4x1x64x512 .i32) (harg6 : arg6.IsWhole)
    (arg7 : Memref sig .tc .vmem S4x1x64x512 .i32) (harg7 : arg7.IsWhole)
    (x0 : Vec F S1x16x64x512 .f32) (x1 x2 : Vec F S1x64x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x1)
            ∗ owns (c : Thread nD τ) arg7 fullShare (out0_5 x2)) -∗ K ⟨⟩))
      ⊢ wp frame (wpE (defs₀ (F := F)) Variants.none c none) E
          (cc0__prep_kernel i arg2 harg2 arg3 harg3 arg4 harg4 arg5 harg5 arg6 harg6 arg7 harg7) K := by
  simp only [cc0__prep_kernel_eq_skeleton]; unfold cc0__prep_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _ _ _ _)
  isplitl [H4]
  · iexists _; isplitr
    swap; · iexact H4
    ipureintro
    exact View.read_writes_eq_canon _ _ _ (cover0_45 _ _ _ _)
  iexists _; isplitr
  swap; · iexact H5
  ipureintro
  exact View.read_writes_eq_canon _ _ _ (cover0_45 _ _ _ _)

/-! ## The inputs' staging buffers when the body runs -/

/-- The value block x[b, :, 64·hb.., :] is in its staging buffer when the body runs at point t, whether the
    pipeline fetched it there or the block index did not move since the point before. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
/-- The same for the block of the row-coordinate plane, -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
/-- and of the column-coordinate plane. -/
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

/-! ## The body obligation -/

/-- What the body is called with at point t: the invariant, the core's tallies, and the six current staging
    buffers at what they then hold, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the three inputs' buffers hold their blocks, the outputs' anything; the invariant and
    the tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the TensorCores terminates, with
    each of the region's six arrays at what the write-backs of the proof data leave in it and every other unscoped
    buffer as the thirty-two operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The value array x is the first window's array, an input: no write-back touches it, so it ends at its
    region-entry contents, which are the launch contents. -/
theorem arr_main_arg0 (c : Dev nD) : (dats m 0 c).arrAt 0 cfg0.N = m ((c : Thread nD τ).loc main_arg0) :=
  ((dats m 0 c).arrAt_in 0 rfl cfg0.N).trans ((A_eq m c 0).trans (V_main_arg0 m c))

/-- Read after the operations that follow the region, x is still as launched: none of them writes it. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by tail_skips))]
  exact (Pipeline.withArrays_arr spec0 launch0.win.arr_inj c (V0 m c) _ 0).trans (arr_main_arg0 m c)

/-- The grid array is no window's array (only its two planes are staged) and no operation after the region
    writes it: it ends at its region-entry contents, the launch contents. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by tail_skips)),
    Pipeline.withArrays_of_ne _ c (V0 m c) _ main_arg1 (by exact (by decide : ∀ w, Pipeline.arrRef spec0 w ≠ main_arg1))]
  exact V_main_arg1 m c

/-- THE FRAME, at any float family: the program terminates and both argument arrays end as launched — x by the
    first clause of the run's post (it is a staged input), the grid array by the second (it bypasses the region). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (arr_main_arg0 m c),
     ((h c).2 main_arg1 (Pipeline.mem_restRefs_of main_arg1 (by decide) (by decide))).trans (W_main_arg1 m c)⟩) (run_main m ρ)

end Cert.KernelIdeal.Frame

end
-- ==== Proof.KRun.lean ====
/-
  The inverse bilinear splat, kernel side: the program's run read at its result.

  The result buffer (the splatted values with the channel axis moved back, f32[8,16,512,512]) is the last of the
  thirty-two host operations after the region; it is no array of the region, so the run leaves it at what those
  operations compute from the region's six arrays as the write-backs left them and from the other buffers as the
  region found them. The two argument arrays end as launched.
-/
import proofs.«114343_j3066606649873_1_alg».proof.Proof.KFrame

set_option maxRecDepth 16384

noncomputable section

namespace Cert.KernelIdeal.Frame

open Idealize.ShloMosaic Idealize.ShloMosaic.TcCoe
open Idealize.SL Idealize.SL.Sem
open Cert.KernelIdeal Cert.KernelIdeal.Gen
open Cert.KernelIdeal.Facts₀ Cert.KernelIdeal.Facts

variable {F : FTy → Type} [FloatOps F]

variable (m : (ℓ : Loc nD τ sig) → Buf (Elt F) ℓ) (ρ : Dev nD → PrngReg)

/-- From any memory with zero counters the program terminates; the result buffer then holds what the operations
    after the region leave in it (it bypasses the region: the second clause of the run's post), the value array x
    its launch contents (a staged input: the first clause) and the grid array its launch contents (the second). -/
theorem run_value : θ_run defs (onTc (τ := τ) (main (F := F))) ⟨m, fun _ => 0, ρ⟩ (fun r => ∀ c : Dev nD,
      r.2.mem ((c.tc : Thread nD τ).loc main_v29) = Pipeline.afterTail₀ cfgs (dats m) 0 (V0 m) [hostOps1] c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v29 (Pipeline.mem_restRefs_of main_v29 (by decide) (by decide)),
     ((h c).1 0).trans (arr_main_arg0 m c),
     ((h c).2 main_arg1 (Pipeline.mem_restRefs_of main_arg1 (by decide) (by decide))).trans (W_main_arg1 m c)⟩) (run_main m ρ)

end Cert.KernelIdeal.Frame

end
-- ==== Proof.Spec.lean ====
/-
  The inverse bilinear splat, as mathematics.

  A source pixel (b, h, w) carries two coordinates g_i, g_j in the grid array. Each is mapped to a pixel
  coordinate  coord g = min 513 (max 0 ((g + 1) · ½ · 512 + 1)),  whose integer cell is  cell g = ⌊coord g⌋,
  a signed 32-bit word between 0 and 513. The pixel splats its 16 channel values x[b, :, h, w] onto the four
  cells (cell g_i + di − 1, cell g_j + dj − 1), di, dj ∈ {0, 1}, of the 512 × 512 output plane of batch b, with the
  bilinear weight  wgt g_i di · wgt g_j dj,  where  wgt g d = max (1 − |coord g − (cell g + d)|) 0.  A target cell
  outside the plane receives nothing. The result at (b, c, p, q) is the sum over the four corners and over all
  source pixels (h, w) of batch b whose corner lands on (p, q).

  This file fixes that function (`Spec`), the scalar pieces both programs are read down to, and the arrays the
  kernel's region hands to the scatter that follows it (`updK`, `rowK`, `colK`).
-/
import Idealize.ShloMosaic.PureOps.Ideal
import Idealize.ShloMosaic.Lib.ValueIdx

noncomputable section

open scoped BigOperators

namespace Cert.Splat

open Idealize.ShloMosaic Idealize.ShloMosaic.ValueIdx

/-! ## Shapes -/

/-- The values' and the result's shape: batch, channel, row, column. -/
abbrev SX : Shape := ⟨4, ![8, 16, 512, 512]⟩
/-- The grid array's shape: batch, row, column, coordinate. -/
abbrev SG : Shape := ⟨4, ![8, 512, 512, 2]⟩

/-! ## One coordinate -/

/-- The literals, as the extended reals their binary words denote: 1, ½, 512, 0, 513. -/
abbrev c1 : EReal := Ideal.ofBits .f32 0x3F800000#32
abbrev chalf : EReal := Ideal.ofBits .f32 0x3F000000#32
abbrev c512 : EReal := Ideal.ofBits .f32 0x44000000#32
abbrev c0 : EReal := Ideal.ofBits .f32 0x00000000#32
abbrev c513 : EReal := Ideal.ofBits .f32 0x44004000#32

/-- The clipped pixel coordinate of a grid coordinate. -/
def coord (g : EReal) : EReal := min c513 (max c0 ((g + c1) * chalf * c512 + c1))

/-- Its integer cell, as a signed 32-bit word. -/
def cell (g : EReal) : BitVec 32 := Ideal.fptosi 32 (Ideal.liftRound Int.floor (coord g))

/-- A signed word as an extended real. -/
abbrev ofWord (b : BitVec 32) : EReal := ((b.toInt : ℝ) : EReal)

/-- The one-axis bilinear weight toward the cell `a` further on (`a` is the word 0 or 1). -/
def wgt (g : EReal) (a : BitVec 32) : EReal :=
  max (c1 - (max (coord g - ofWord (IntOp.addi (cell g) a)) (-(coord g - ofWord (IntOp.addi (cell g) a))))) c0

/-- The target cell on one axis: the cell moved by the word `s` (−1 or 0). -/
def tcell (g : EReal) (s : BitVec 32) : BitVec 32 := IntOp.addi (cell g) s

/-- One bit: the target lies in the plane, 0 ≤ t ≤ 511 as signed words. -/
def inPlane (t : BitVec 32) : BitVec 1 := IntOp.andi (IntOp.cmpi .sge t 0#32) (IntOp.cmpi .sle t 511#32)

/-- The target clamped into the plane. -/
def clampW (t : BitVec 32) : BitVec 32 := IntOp.minsi 511#32 (IntOp.maxsi 0#32 t)

/-! ## The four corners -/

/-- The all-ones word: −1. -/
abbrev wm1 : BitVec 32 := 4294967295#32

/-- Corner `k = 2·di + dj`: the row shift `di − 1` and the column shift `dj − 1` as words, -/
def sI (k : Fin 4) : BitVec 32 := if k.val < 2 then wm1 else 0#32
def sJ (k : Fin 4) : BitVec 32 := if k.val % 2 = 0 then wm1 else 0#32
/-- and `di`, `dj` themselves as words. -/
def aI (k : Fin 4) : BitVec 32 := if k.val < 2 then 0#32 else 1#32
def aJ (k : Fin 4) : BitVec 32 := if k.val % 2 = 0 then 0#32 else 1#32

/-! ## What the kernel's region hands to the scatter

  `GI`, `GJ` are the two coordinate planes (batch, row, column), `X` the values. -/

abbrev SP : Shape := ⟨3, ![8, 512, 512]⟩
abbrev SU : Shape := ⟨5, ![4, 8, 512, 512, 16]⟩
abbrev SI : Shape := ⟨4, ![4, 8, 512, 512]⟩

/-- The weighted values: x · (w_i · w_j where the corner's target lies in the plane, 0 where it does not). -/
def updK (X : SX.Idx → EReal) (GI GJ : SP.Idx → EReal) (j : SU.Idx) : EReal :=
  X (ix4 (j 1) (j 4) (j 2) (j 3)) *
    Scalar.select (IntOp.andi (inPlane (tcell (GI (ix3 (j 1) (j 2) (j 3))) (sI (j 0)))) (inPlane (tcell (GJ (ix3 (j 1) (j 2) (j 3))) (sJ (j 0)))))
      (wgt (GI (ix3 (j 1) (j 2) (j 3))) (aI (j 0)) * wgt (GJ (ix3 (j 1) (j 2) (j 3))) (aJ (j 0))) c0

/-- The clamped target rows and columns. -/
def rowK (GI : SP.Idx → EReal) (j : SI.Idx) : BitVec 32 := clampW (tcell (GI (ix3 (j 1) (j 2) (j 3))) (sI (j 0)))
def colK (GJ : SP.Idx → EReal) (j : SI.Idx) : BitVec 32 := clampW (tcell (GJ (ix3 (j 1) (j 2) (j 3))) (sJ (j 0)))

/-- Coordinate plane `a` of the grid array (`a = 0`: rows, `a = 1`: columns). -/
def plane (G : SG.Idx → EReal) (a : Fin 2) : SP.Idx → EReal := fun i => G (ix4 (i 0) (i 1) (i 2) a)

/-! ## The splat -/

/-- Corner `k`'s contribution to the result at `i = (b, c, p, q)`: the sum over the source pixels (h, w) of
    batch `b` whose corner lands on (p, q) — as integers, cell + d = target + 1 on both axes — of the value times the
    bilinear weight. -/
def term (X : SX.Idx → EReal) (G : SG.Idx → EReal) (k : Fin 4) (i : SX.Idx) : EReal :=
  ∑ h : Fin 512, ∑ w : Fin 512,
    if (cell (G (ix4 (i 0) h w (0 : Fin 2)))).toInt + (aI k).toInt = ((i 2).val : ℤ) + 1
        ∧ (cell (G (ix4 (i 0) h w (1 : Fin 2)))).toInt + (aJ k).toInt = ((i 3).val : ℤ) + 1
    then X (ix4 (i 0) (i 1) h w) * (wgt (G (ix4 (i 0) h w (0 : Fin 2))) (aI k) * wgt (G (ix4 (i 0) h w (1 : Fin 2))) (aJ k))
    else 0

/-- The inverse bilinear splat of `X` along the grid `G`. -/
def Spec (X : SX.Idx → EReal) (G : SG.Idx → EReal) (i : SX.Idx) : EReal :=
  term X G 0 i + term X G 1 i + term X G 2 i + term X G 3 i

end Cert.Splat

end
-- ==== Proof.KArr3.lean ====
/-
  The weighted-values array after the region. Grid point (b, hb) writes back the slab rows 64·hb … 64·hb + 63 of
  batch b for all four corners; the blocks of the 64 grid points tile the array, and the body's payload at each
  element is the value x[b, c, h, w] times the corner's masked bilinear weight at pixel (b, h, w). So the whole array
  is one function of the values and the two coordinate planes as the region finds them.

  The order below: the body's layout steps read at coordinates; the clipped coordinate, its cell and the
  channel-last values at one pixel; each corner's payload at one element, first over any such vectors, then over
  the three loaded blocks (`blkK`); the staging buffer as the overlay of its four slabs; each input block read
  where the output block's index says; the cover of the array by the 64 blocks.
-/
import proofs.«114343_j3066606649873_1_alg».proof.Proof.KOut
import proofs.«114343_j3066606649873_1_alg».proof.Proof.Spec
import Idealize.ShloMosaic.Lib.Pipeline.Value
import Idealize.ShloMosaic.Lib.ValueLayout

set_option maxRecDepth 16384

noncomputable section

namespace Cert.KernelIdeal.KValue

open Idealize.ShloMosaic Idealize.ShloMosaic.TcCoe Idealize.ShloMosaic.ValueIdx
open Idealize.SL Idealize.SL.Sem
open Cert.KernelIdeal Cert.KernelIdeal.Gen Cert.KernelIdeal.Frame Cert.Splat

namespace Weighted

/-! ## The body's layout steps at explicit coordinates -/

section Layout
variable {α : Type}

/-- Moving the channel axis last: the value at (r, w, ch) is the operand's at (ch, r, w). -/
theorem chanLast_at (x : S16x64x512.Idx → α) (h : S16x64x512.Transposes [1, 2, 0] S64x512x16)
    (r : Fin 64) (w : Fin 512) (ch : Fin 16) :
    transpose S64x512x16 [1, 2, 0] x h (ix3 r w ch) = x (ix3 ch r w) :=
  transpose_apply _ x h _ _ fun b => match b with | ⟨0, _⟩ => rfl | ⟨1, _⟩ => rfl | ⟨2, _⟩ => rfl

/-- A trailing unit axis added: the value at (r, w, 0) is the operand's at (r, w). -/
theorem addTrail_at (x : S64x512.Idx → α) (h : S64x512.ShapeCasts S64x512x1)
    (r : Fin 64) (w : Fin 512) (u : Fin 1) :
    shapeCast S64x512x1 x h (ix3 r w u) = x (ix2 r w) :=
  shapeCast_apply x h _ _ (by
    have hu : u.val = 0 := by omega
    rw [Shape.rowMajor_val_three, Shape.rowMajor_val_two]
    show r.val * 512 + w.val = (r.val * 512 + w.val) * 1 + u.val
    omega)

/-- The one column repeated over the 16 channels. -/
theorem overChan_at (x : S64x512x1.Idx → α) (h : S64x512x1.Broadcasts S64x512x16)
    (r : Fin 64) (w : Fin 512) (ch : Fin 16) :
    broadcastTo S64x512x16 x h (ix3 r w ch) = x (ix3 r w (0 : Fin 1)) := by
  refine broadcastTo_apply x h (ix3 r w ch) (ix3 r w (0 : Fin 1)) fun ax => ?_
  match ax with
  | ⟨0, _⟩ => rfl
  | ⟨1, _⟩ => rfl
  | ⟨2, _⟩ => rfl

/-- Two leading unit axes added to a (row, column, channel) value. -/
theorem addLead2_at (x : S64x512x16.Idx → α) (h : S64x512x16.ShapeCasts S1x1x64x512x16)
    (u z : Fin 1) (r : Fin 64) (w : Fin 512) (ch : Fin 16) :
    shapeCast S1x1x64x512x16 x h (ix5 u z r w ch) = x (ix3 r w ch) :=
  shapeCast_apply x h _ _ (by
    have hu : u.val = 0 := by omega
    have hz : z.val = 0 := by omega
    rw [Shape.rowMajor_val_five, Shape.rowMajor_val_three]
    show (r.val * 512 + w.val) * 16 + ch.val = (((u.val * 1 + z.val) * 64 + r.val) * 512 + w.val) * 16 + ch.val
    omega)

end Layout

/-! ## The scalar pieces at one pixel -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The one-axis weight from a pixel coordinate `p` and its cell `f`, toward the cell `a` further on. -/
def wgtOf (p : EReal) (f a : BitVec 32) : EReal :=
  max (c1 - (max (p - ofWord (IntOp.addi f a)) (-(p - ofWord (IntOp.addi f a))))) c0

theorem wgt_eq (g : EReal) (a : BitVec 32) : wgt g a = wgtOf (coord g) (cell g) a := rfl

section Pixel
variable (x0 : Vec Ideal S1x16x64x512 .f32) (x1 x2 : Vec Ideal S1x64x512 .f32)
variable (r : Fin 64) (w : Fin 512) (ch : Fin 16)

/-- The clipped pixel coordinate of the row plane at pixel (r, w). -/
theorem gi_at : gi x1 (ix2 r w) = coord (x1 (ix3 (0 : Fin 1) r w)) := by
  unfold gi k0_pay2 coord
  rw [View.ld_unit_zero (S := S1x64x512) hz3]
  exact congrArg (fun g : EReal => min c513 (max c0 ((g + c1) * chalf * c512 + c1)))
    (shapeCast_1ab_ab_apply x1 _ r w)

theorem gj_at : gj x2 (ix2 r w) = coord (x2 (ix3 (0 : Fin 1) r w)) := by
  unfold gj k0_pay3 coord
  rw [View.ld_unit_zero (S := S1x64x512) hz3]
  exact congrArg (fun g : EReal => min c513 (max c0 ((g + c1) * chalf * c512 + c1)))
    (shapeCast_1ab_ab_apply x2 _ r w)

/-- Its integer cell. -/
theorem fi_at : fi x1 (ix2 r w) = cell (x1 (ix3 (0 : Fin 1) r w)) := by
  unfold fi k0_pay4 cell
  exact congrArg (fun g : EReal => Ideal.fptosi 32 (Ideal.liftRound Int.floor g)) (gi_at x1 r w)

theorem fj_at : fj x2 (ix2 r w) = cell (x2 (ix3 (0 : Fin 1) r w)) := by
  unfold fj k0_pay5 cell
  exact congrArg (fun g : EReal => Ideal.fptosi 32 (Ideal.liftRound Int.floor g)) (gj_at x2 r w)

/-- The value block with the channel axis last. -/
theorem xt_at : xt x0 (ix3 r w ch) = x0 (ix4 (0 : Fin 1) ch r w) := by
  unfold xt k0_pay6
  rw [View.ld_unit_zero (S := S1x16x64x512) hz4]
  exact (chanLast_at _ _ r w ch).trans (shapeCast_1abc_abc_apply x0 _ ch r w)

end Pixel

/-! ## The four corners' payloads at one element

  Over any clipped coordinates `gI`, `gJ`, cells `fI`, `fJ` and channel-last values `X`: the element
  (r, w, ch) of a corner's slab is the value times the masked product of the two one-axis weights. -/

section Corner
variable (gI gJ : FVec Ideal S64x512 .f32) (fI fJ : IVec S64x512 32) (X : FVec Ideal S64x512x16 .f32)
variable (u z : Fin 1) (r : Fin 64) (w : Fin 512) (ch : Fin 16)

/-- Corner (0, 0): both shifts −1, both weights toward the cell itself. -/
theorem corner0_at :
    k0_pay11 gI gJ fI fJ X cm1 (ix5 u z r w ch)
      = X (ix3 r w ch) * Scalar.select
          (IntOp.andi (inPlane (IntOp.addi (fI (ix2 r w)) wm1)) (inPlane (IntOp.addi (fJ (ix2 r w)) wm1)))
          (wgtOf (gI (ix2 r w)) (fI (ix2 r w)) 0#32 * wgtOf (gJ (ix2 r w)) (fJ (ix2 r w)) 0#32) c0 := by
  unfold k0_pay11
  refine (addLead2_at _ _ u z r w ch).trans ?_
  refine congrArg (fun e : EReal => X (ix3 r w ch) * e) ?_
  refine (overChan_at _ _ r w ch).trans ?_
  refine (addTrail_at _ _ r w (0 : Fin 1)).trans ?_
  rfl

/-- Corner (0, 1): row shift −1, column shift 0; the column weight toward the next cell. -/
theorem corner1_at :
    k0_pay16 (k0_pay15 gJ fJ X (k0_pay8 fI cm1) (k0_pay9 gI fI)) (ix5 u z r w ch)
      = X (ix3 r w ch) * Scalar.select
          (IntOp.andi (inPlane (IntOp.addi (fI (ix2 r w)) wm1)) (inPlane (IntOp.addi (fJ (ix2 r w)) 0#32)))
          (wgtOf (gI (ix2 r w)) (fI (ix2 r w)) 0#32 * wgtOf (gJ (ix2 r w)) (fJ (ix2 r w)) 1#32) c0 := by
  unfold k0_pay16 k0_pay15
  refine (addLead2_at _ _ u z r w ch).trans ?_
  refine congrArg (fun e : EReal => X (ix3 r w ch) * e) ?_
  refine (overChan_at _ _ r w ch).trans ?_
  refine (addTrail_at _ _ r w (0 : Fin 1)).trans ?_
  rfl

/-- Corner (1, 0): row shift 0, column shift −1; the row weight toward the next cell. -/
theorem corner2_at :
    k0_pay23 gJ fJ X (k0_pay20 fI) (k0_pay21 gI fI) (k0_pay22 fJ) (ix5 u z r w ch)
      = X (ix3 r w ch) * Scalar.select
          (IntOp.andi (inPlane (IntOp.addi (fI (ix2 r w)) 0#32)) (inPlane (IntOp.addi (fJ (ix2 r w)) wm1)))
          (wgtOf (gI (ix2 r w)) (fI (ix2 r w)) 1#32 * wgtOf (gJ (ix2 r w)) (fJ (ix2 r w)) 0#32) c0 := by
  unfold k0_pay23
  refine (addLead2_at _ _ u z r w ch).trans ?_
  refine congrArg (fun e : EReal => X (ix3 r w ch) * e) ?_
  refine (overChan_at _ _ r w ch).trans ?_
  refine (addTrail_at _ _ r w (0 : Fin 1)).trans ?_
  rfl

/-- Corner (1, 1): both shifts 0, both weights toward the next cell. -/
theorem corner3_at :
    k0_pay28 gJ fJ X (k0_pay20 fI) (k0_pay21 gI fI) (ix5 u z r w ch)
      = X (ix3 r w ch) * Scalar.select
          (IntOp.andi (inPlane (IntOp.addi (fI (ix2 r w)) 0#32)) (inPlane (IntOp.addi (fJ (ix2 r w)) 0#32)))
          (wgtOf (gI (ix2 r w)) (fI (ix2 r w)) 1#32 * wgtOf (gJ (ix2 r w)) (fJ (ix2 r w)) 1#32) c0 := by
  unfold k0_pay28
  refine (addLead2_at _ _ u z r w ch).trans ?_
  refine congrArg (fun e : EReal => X (ix3 r w ch) * e) ?_
  refine (overChan_at _ _ r w ch).trans ?_
  refine (addTrail_at _ _ r w (0 : Fin 1)).trans ?_
  rfl

end Corner

/-! ## A block of the weighted values, from the three input blocks -/

/-- Element (k, ·, r, w, ch) of the block the body leaves, from the value block `x0` and the two coordinate
    blocks `x1`, `x2`: the value at channel ch, pixel (r, w), times corner k's masked bilinear weight there. -/
def blkK (x0 : S1x16x64x512.Idx → EReal) (x1 x2 : S1x64x512.Idx → EReal)
    (k : Fin 4) (r : Fin 64) (w : Fin 512) (ch : Fin 16) : EReal :=
  x0 (ix4 (0 : Fin 1) ch r w) *
    Scalar.select (IntOp.andi (inPlane (tcell (x1 (ix3 (0 : Fin 1) r w)) (sI k))) (inPlane (tcell (x2 (ix3 (0 : Fin 1) r w)) (sJ k))))
      (wgt (x1 (ix3 (0 : Fin 1) r w)) (aI k) * wgt (x2 (ix3 (0 : Fin 1) r w)) (aJ k)) c0

section Slabs
variable (x0 : Vec Ideal S1x16x64x512 .f32) (x1 x2 : Vec Ideal S1x64x512 .f32)
variable (u z : Fin 1) (r : Fin 64) (w : Fin 512) (ch : Fin 16)

theorem slab0_at : k0_pay11 (gi x1) (gj x2) (fi x1) (fj x2) (xt x0) cm1 (ix5 u z r w ch) = blkK x0 x1 x2 0 r w ch := by
  refine (corner0_at (gi x1) (gj x2) (fi x1) (fj x2) (xt x0) u z r w ch).trans ?_
  rw [gi_at, gj_at, fi_at, fj_at, xt_at]
  rfl

theorem slab1_at : k0_pay16 (u1 x0 x1 x2) (ix5 u z r w ch) = blkK x0 x1 x2 1 r w ch := by
  refine (corner1_at (gi x1) (gj x2) (fi x1) (fj x2) (xt x0) u z r w ch).trans ?_
  rw [gi_at, gj_at, fi_at, fj_at, xt_at]
  rfl

theorem slab2_at : k0_pay23 (gj x2) (fj x2) (xt x0) (viB x1) (wiB x1) (ojC x2) (ix5 u z r w ch) = blkK x0 x1 x2 2 r w ch := by
  refine (corner2_at (gi x1) (gj x2) (fi x1) (fj x2) (xt x0) u z r w ch).trans ?_
  rw [gi_at, gj_at, fi_at, fj_at, xt_at]
  rfl

theorem slab3_at : k0_pay28 (gj x2) (fj x2) (xt x0) (viB x1) (wiB x1) (ix5 u z r w ch) = blkK x0 x1 x2 3 r w ch := by
  refine (corner3_at (gi x1) (gj x2) (fi x1) (fj x2) (xt x0) u z r w ch).trans ?_
  rw [gi_at, gj_at, fi_at, fj_at, xt_at]
  rfl

end Slabs

/-! ## The whole staging buffer after the body -/

/-- An index whose leading coordinate is `k` lies in slab `k`. -/
theorem mem_slab (off : Fin 5 → Nat) (inb : ∀ a, off a + S1x1x64x512x16.size a ≤ S4x1x64x512x16.size a)
    (y : S4x1x64x512x16.Idx) (h0 : off 0 = (y 0).val) (h : ∀ a : Fin 5, a ≠ 0 → off a = 0) :
    y ∈ (Rect.unit (s := S4x1x64x512x16) off S1x1x64x512x16.size inb).set := by
  rw [Rect.mem_set_unit]
  intro a
  match a with
  | ⟨0, _⟩ => show off 0 ≤ (y 0).val ∧ (y 0).val < off 0 + 1; omega
  | ⟨1, _⟩ => show off 1 ≤ (y 1).val ∧ (y 1).val < off 1 + 1; have h1 : (y 1).val < 1 := (y 1).isLt; have := h 1 (by decide); omega
  | ⟨2, _⟩ => show off 2 ≤ (y 2).val ∧ (y 2).val < off 2 + 64; have h2 : (y 2).val < 64 := (y 2).isLt; have := h 2 (by decide); omega
  | ⟨3, _⟩ => show off 3 ≤ (y 3).val ∧ (y 3).val < off 3 + 512; have h3 : (y 3).val < 512 := (y 3).isLt; have := h 3 (by decide); omega
  | ⟨4, _⟩ => show off 4 ≤ (y 4).val ∧ (y 4).val < off 4 + 16; have h4 : (y 4).val < 16 := (y 4).isLt; have := h 4 (by decide); omega

/-- Slab `k`'s element (·, ·, r, w, ch) sits in the buffer at (k, 0, r, w, ch). -/
theorem blkK_slab (x0 : S1x16x64x512.Idx → EReal) (x1 x2 : S1x64x512.Idx → EReal) (k : Fin 4)
    (off : Fin 5 → Nat) (inb : ∀ a, off a + S1x1x64x512x16.size a ≤ S4x1x64x512x16.size a)
    (h0 : off 0 = k.val) (h : ∀ a : Fin 5, a ≠ 0 → off a = 0)
    (u z : Fin 1) (r : Fin 64) (w : Fin 512) (ch : Fin 16) :
    blkK x0 x1 x2 k r w ch
      = (fun y : S4x1x64x512x16.Idx => blkK x0 x1 x2 (y 0) (y 2) (y 3) (y 4))
          ((Rect.unit (s := S4x1x64x512x16) off S1x1x64x512x16.size inb).emb (ix5 u z r w ch)) := by
  have e0 : (Rect.unit (s := S4x1x64x512x16) off S1x1x64x512x16.size inb).emb (ix5 u z r w ch) 0 = k :=
    Fin.ext (by show off 0 + 1 * u.val = k.val; omega)
  have e2 : (Rect.unit (s := S4x1x64x512x16) off S1x1x64x512x16.size inb).emb (ix5 u z r w ch) 2 = r :=
    Fin.ext (by show off 2 + 1 * r.val = r.val; have := h 2 (by decide); omega)
  have e3 : (Rect.unit (s := S4x1x64x512x16) off S1x1x64x512x16.size inb).emb (ix5 u z r w ch) 3 = w :=
    Fin.ext (by show off 3 + 1 * w.val = w.val; have := h 3 (by decide); omega)
  have e4 : (Rect.unit (s := S4x1x64x512x16) off S1x1x64x512x16.size inb).emb (ix5 u z r w ch) 4 = ch :=
    Fin.ext (by show off 4 + 1 * ch.val = ch.val; have := h 4 (by decide); omega)
  show _ = blkK x0 x1 x2 _ _ _ _
  rw [e0, e2, e3, e4]

/-- After the body the weighted-values buffer holds, at every index, `blkK` of the three input blocks: the four
    slab stores tile the buffer, and each slab's payload is `blkK` at that corner. -/
theorem out0_3_at (x0 : Vec Ideal S1x16x64x512 .f32) (x1 x2 : Vec Ideal S1x64x512 .f32) (y : S4x1x64x512x16.Idx) :
    out0_3 x0 x1 x2 y = blkK x0 x1 x2 (y 0) (y 2) (y 3) (y 4) := by
  unfold out0_3
  refine View.canon_apply_of_pieces (Val := Elt Ideal) (S := S4x1x64x512x16) (e := .f32) (fun y : S4x1x64x512x16.Idx => blkK x0 x1 x2 (y 0) (y 2) (y 3) (y 4)) _ ?_ y ?_
  · intro p hp
    simp only [List.mem_cons, List.not_mem_nil, or_false] at hp
    rcases hp with rfl | rfl | rfl | rfl
    · intro x
      obtain ⟨u, z, r, w, ch, rfl⟩ : ∃ u z r w ch, x = ix5 u z r w ch := ⟨x 0, x 1, x 2, x 3, x 4, eq_ix5 x⟩
      exact (slab3_at x0 x1 x2 u z r w ch).trans (blkK_slab x0 x1 x2 3 ![3, 0, 0, 0, 0] Facts₀.inb_S4x1x64x512x16_S1x1x64x512x16_3_0_0_0_0 rfl (by decide) u z r w ch)
    · intro x
      obtain ⟨u, z, r, w, ch, rfl⟩ : ∃ u z r w ch, x = ix5 u z r w ch := ⟨x 0, x 1, x 2, x 3, x 4, eq_ix5 x⟩
      exact (slab2_at x0 x1 x2 u z r w ch).trans (blkK_slab x0 x1 x2 2 ![2, 0, 0, 0, 0] Facts₀.inb_S4x1x64x512x16_S1x1x64x512x16_2_0_0_0_0 rfl (by decide) u z r w ch)
    · intro x
      obtain ⟨u, z, r, w, ch, rfl⟩ : ∃ u z r w ch, x = ix5 u z r w ch := ⟨x 0, x 1, x 2, x 3, x 4, eq_ix5 x⟩
      exact (slab1_at x0 x1 x2 u z r w ch).trans (blkK_slab x0 x1 x2 1 ![1, 0, 0, 0, 0] Facts₀.inb_S4x1x64x512x16_S1x1x64x512x16_1_0_0_0_0 rfl (by decide) u z r w ch)
    · intro x
      obtain ⟨u, z, r, w, ch, rfl⟩ : ∃ u z r w ch, x = ix5 u z r w ch := ⟨x 0, x 1, x 2, x 3, x 4, eq_ix5 x⟩
      exact (slab0_at x0 x1 x2 u z r w ch).trans (blkK_slab x0 x1 x2 0 ![0, 0, 0, 0, 0] Facts₀.inb_S4x1x64x512x16_S1x1x64x512x16_0_0_0_0_0 rfl (by decide) u z r w ch)
  · have hy : (y 0).val < 4 := (y 0).isLt
    rcases (show (y 0).val = 0 ∨ (y 0).val = 1 ∨ (y 0).val = 2 ∨ (y 0).val = 3 by omega) with h | h | h | h
    · exact ⟨_, List.mem_cons_of_mem _ (List.mem_cons_of_mem _ (List.mem_cons_of_mem _ List.mem_cons_self)),
        mem_slab ![0, 0, 0, 0, 0] Facts₀.inb_S4x1x64x512x16_S1x1x64x512x16_0_0_0_0_0 y h.symm (by decide)⟩
    · exact ⟨_, List.mem_cons_of_mem _ (List.mem_cons_of_mem _ List.mem_cons_self), mem_slab ![1, 0, 0, 0, 0] Facts₀.inb_S4x1x64x512x16_S1x1x64x512x16_1_0_0_0_0 y h.symm (by decide)⟩
    · exact ⟨_, List.mem_cons_of_mem _ List.mem_cons_self, mem_slab ![2, 0, 0, 0, 0] Facts₀.inb_S4x1x64x512x16_S1x1x64x512x16_2_0_0_0_0 y h.symm (by decide)⟩
    · exact ⟨_, List.mem_cons_self, mem_slab ![3, 0, 0, 0, 0] Facts₀.inb_S4x1x64x512x16_S1x1x64x512x16_3_0_0_0_0 y h.symm (by decide)⟩

/-! ## From blocks to the array

  Grid point t = (b, hb) holds the value block x[b, :, 64·hb .. 64·hb + 63, :], the matching blocks of the two
  coordinate planes, and writes back the block [:, b, 64·hb .. 64·hb + 63, :, :] of the weighted values. -/

/-- The block's element is the array function's element, once the three input blocks are read where the output's
    index says. -/
theorem blkK_eq_updK (x0 : S1x16x64x512.Idx → EReal) (x1 x2 : S1x64x512.Idx → EReal)
    (X : SX.Idx → EReal) (GI GJ : SP.Idx → EReal)
    (k : Fin 4) (r : Fin 64) (w : Fin 512) (ch : Fin 16) (i : SU.Idx)
    (hk : i 0 = k)
    (hX : x0 (ix4 (0 : Fin 1) ch r w) = X (ix4 (i 1) (i 4) (i 2) (i 3)))
    (hI : x1 (ix3 (0 : Fin 1) r w) = GI (ix3 (i 1) (i 2) (i 3)))
    (hJ : x2 (ix3 (0 : Fin 1) r w) = GJ (ix3 (i 1) (i 2) (i 3))) :
    blkK x0 x1 x2 k r w ch = updK X GI GJ i := by
  unfold blkK updK
  rw [hX, hI, hJ, hk]

/-- The printed index maps over the 8 × 8 grid: the output's block index is (0, b, hb, 0, 0), the value block's
    (b, 0, hb, 0), a coordinate block's (b, hb, 0). -/
theorem idx_facts : ∀ t : Fin cfg0.N,
    win0_3.index t (0 : Fin 5) = 0 ∧ win0_3.index t (3 : Fin 5) = 0 ∧ win0_3.index t (4 : Fin 5) = 0
    ∧ win0_3.index t (1 : Fin 5) < 8 ∧ win0_3.index t (2 : Fin 5) < 8
    ∧ win0_0.index t (0 : Fin 4) = win0_3.index t (1 : Fin 5) ∧ win0_0.index t (1 : Fin 4) = 0
    ∧ win0_0.index t (2 : Fin 4) = win0_3.index t (2 : Fin 5) ∧ win0_0.index t (3 : Fin 4) = 0
    ∧ win0_1.index t (0 : Fin 3) = win0_3.index t (1 : Fin 5) ∧ win0_1.index t (1 : Fin 3) = win0_3.index t (2 : Fin 5)
    ∧ win0_1.index t (2 : Fin 3) = 0
    ∧ win0_2.index t (0 : Fin 3) = win0_3.index t (1 : Fin 5) ∧ win0_2.index t (1 : Fin 3) = win0_3.index t (2 : Fin 5)
    ∧ win0_2.index t (2 : Fin 3) = 0 :=
  (by decide +kernel : ∀ t : Fin grid0.N, _)

/-- Every (batch, row tile) is some grid point's. -/
theorem idx_onto : ∀ (b hb : Fin 8), ∃ t : Fin cfg0.N,
    win0_3.index t (1 : Fin 5) = b.val ∧ win0_3.index t (2 : Fin 5) = hb.val :=
  (by decide +kernel : ∀ (b hb : Fin 8), ∃ t : Fin grid0.N, _)

variable (m : (ℓ : Loc nD τ sig) → Buf (Elt Ideal) ℓ)

/-- Element (0, ch, r, w) of point `t`'s value block is the value array's at (b, ch, 64·hb + r, w). -/
theorem xblk_at (c : Dev nD) (t : Fin cfg0.N) (ch : Fin 16) (r : Fin 64) (w : Fin 512) (i : SX.Idx)
    (h0 : (i 0).val = win0_0.index t (0 : Fin 4)) (h1 : (i 1).val = win0_0.index t (1 : Fin 4) * 16 + ch.val)
    (h2 : (i 2).val = win0_0.index t (2 : Fin 4) * 64 + r.val) (h3 : (i 3).val = win0_0.index t (3 : Fin 4) * 512 + w.val) :
    (iblk m c 0 t : Vec Ideal S1x16x64x512 .f32) (ix4 (0 : Fin 1) ch r w) = (V m c main_arg0 : SX.Idx → EReal) i := by
  unfold iblk
  rw [View.read_apply]
  show V m c main_arg0 _ = V m c main_arg0 _
  congr 1
  funext a
  apply Fin.ext
  match a with
  | ⟨0, _⟩ => show win0_0.index t (0 : Fin 4) * 1 + 1 * 0 = (i 0).val; omega
  | ⟨1, _⟩ => show win0_0.index t (1 : Fin 4) * 16 + 1 * ch.val = (i 1).val; omega
  | ⟨2, _⟩ => show win0_0.index t (2 : Fin 4) * 64 + 1 * r.val = (i 2).val; omega
  | ⟨3, _⟩ => show win0_0.index t (3 : Fin 4) * 512 + 1 * w.val = (i 3).val; omega

/-- Element (0, r, w) of point `t`'s row-coordinate block is the plane's at (b, 64·hb + r, w). -/
theorem iblk_at (c : Dev nD) (t : Fin cfg0.N) (r : Fin 64) (w : Fin 512) (i : SP.Idx)
    (h0 : (i 0).val = win0_1.index t (0 : Fin 3)) (h1 : (i 1).val = win0_1.index t (1 : Fin 3) * 64 + r.val)
    (h2 : (i 2).val = win0_1.index t (2 : Fin 3) * 512 + w.val) :
    (iblk m c 1 t : Vec Ideal S1x64x512 .f32) (ix3 (0 : Fin 1) r w) = (V m c main_v1 : SP.Idx → EReal) i := by
  unfold iblk
  rw [View.read_apply]
  show V m c main_v1 _ = V m c main_v1 _
  congr 1
  funext a
  apply Fin.ext
  match a with
  | ⟨0, _⟩ => show win0_1.index t (0 : Fin 3) * 1 + 1 * 0 = (i 0).val; omega
  | ⟨1, _⟩ => show win0_1.index t (1 : Fin 3) * 64 + 1 * r.val = (i 1).val; omega
  | ⟨2, _⟩ => show win0_1.index t (2 : Fin 3) * 512 + 1 * w.val = (i 2).val; omega

/-- The same for the column-coordinate block. -/
theorem jblk_at (c : Dev nD) (t : Fin cfg0.N) (r : Fin 64) (w : Fin 512) (i : SP.Idx)
    (h0 : (i 0).val = win0_2.index t (0 : Fin 3)) (h1 : (i 1).val = win0_2.index t (1 : Fin 3) * 64 + r.val)
    (h2 : (i 2).val = win0_2.index t (2 : Fin 3) * 512 + w.val) :
    (iblk m c 2 t : Vec Ideal S1x64x512 .f32) (ix3 (0 : Fin 1) r w) = (V m c main_v3 : SP.Idx → EReal) i := by
  unfold iblk
  rw [View.read_apply]
  show V m c main_v3 _ = V m c main_v3 _
  congr 1
  funext a
  apply Fin.ext
  match a with
  | ⟨0, _⟩ => show win0_2.index t (0 : Fin 3) * 1 + 1 * 0 = (i 0).val; omega
  | ⟨1, _⟩ => show win0_2.index t (1 : Fin 3) * 64 + 1 * r.val = (i 1).val; omega
  | ⟨2, _⟩ => show win0_2.index t (2 : Fin 3) * 512 + 1 * w.val = (i 2).val; omega

/-- What grid point `t` writes back is its block of `updK` of the values and the two coordinate planes as the
    region finds them. -/
theorem flushed3_eq (c : Dev nD) (t : Fin cfg0.N) :
    (dats m 0 c).flushed 3 t
      = ((cfg0.win 3).blk t).view.read (Elt Ideal) (updK (V m c main_arg0) (V m c main_v1) (V m c main_v3)) := by
  show (cfg0.win 3).cut (grid0.coords t) ((dats m 0 c).after 3 t) = _
  rw [after0_3]
  obtain ⟨e0, e3, e4, -, -, a0, a1, a2, a3, b0, b1, b2, d0, d1, d2⟩ := idx_facts t
  funext j
  have j0 : (j 0).val < 4 := (j 0).isLt
  have j1 : (j 1).val < 1 := (j 1).isLt
  have j2 : (j 2).val < 64 := (j 2).isLt
  have j3 : (j 3).val < 512 := (j 3).isLt
  have j4 : (j 4).val < 16 := (j 4).isLt
  show out0_3 (iblk m c 0 t) (iblk m c 1 t) (iblk m c 2 t) (win0_3.xinj (grid0.coords t) j)
      = updK (V m c main_arg0) (V m c main_v1) (V m c main_v3) (((cfg0.win 3).blk t).view.emb j)
  refine (out0_3_at (iblk m c 0 t) (iblk m c 1 t) (iblk m c 2 t) (win0_3.xinj (grid0.coords t) j)).trans ?_
  refine blkK_eq_updK (iblk m c 0 t) (iblk m c 1 t) (iblk m c 2 t) (V m c main_arg0) (V m c main_v1) (V m c main_v3)
    ⟨(j 0).val, j0⟩ ⟨(j 2).val, j2⟩ ⟨(j 3).val, j3⟩ ⟨(j 4).val, j4⟩ (((cfg0.win 3).blk t).view.emb j) ?_ ?_ ?_ ?_
  · apply Fin.ext
    show win0_3.index t (0 : Fin 5) * 4 + 1 * (j 0).val = (j 0).val
    omega
  · refine xblk_at m c t ⟨(j 4).val, j4⟩ ⟨(j 2).val, j2⟩ ⟨(j 3).val, j3⟩ _ ?_ ?_ ?_ ?_
    · show win0_3.index t (1 : Fin 5) * 1 + 1 * (j 1).val = win0_0.index t (0 : Fin 4); omega
    · show win0_3.index t (4 : Fin 5) * 16 + 1 * (j 4).val = win0_0.index t (1 : Fin 4) * 16 + (j 4).val; omega
    · show win0_3.index t (2 : Fin 5) * 64 + 1 * (j 2).val = win0_0.index t (2 : Fin 4) * 64 + (j 2).val; omega
    · show win0_3.index t (3 : Fin 5) * 512 + 1 * (j 3).val = win0_0.index t (3 : Fin 4) * 512 + (j 3).val; omega
  · refine iblk_at m c t ⟨(j 2).val, j2⟩ ⟨(j 3).val, j3⟩ _ ?_ ?_ ?_
    · show win0_3.index t (1 : Fin 5) * 1 + 1 * (j 1).val = win0_1.index t (0 : Fin 3); omega
    · show win0_3.index t (2 : Fin 5) * 64 + 1 * (j 2).val = win0_1.index t (1 : Fin 3) * 64 + (j 2).val; omega
    · show win0_3.index t (3 : Fin 5) * 512 + 1 * (j 3).val = win0_1.index t (2 : Fin 3) * 512 + (j 3).val; omega
  · refine jblk_at m c t ⟨(j 2).val, j2⟩ ⟨(j 3).val, j3⟩ _ ?_ ?_ ?_
    · show win0_3.index t (1 : Fin 5) * 1 + 1 * (j 1).val = win0_2.index t (0 : Fin 3); omega
    · show win0_3.index t (2 : Fin 5) * 64 + 1 * (j 2).val = win0_2.index t (1 : Fin 3) * 64 + (j 2).val; omega
    · show win0_3.index t (3 : Fin 5) * 512 + 1 * (j 3).val = win0_2.index t (2 : Fin 3) * 512 + (j 3).val; omega

/-- An index of the array is in point `t`'s block iff each coordinate is in the block's range on its axis. -/
theorem mem_blk3 (t : Fin cfg0.N) (i : S4x8x512x512x16.Idx) :
    i ∈ ((cfg0.win 3).blk t).view.set ↔ ∀ a : Fin 5, win0_3.index t a * S4x1x64x512x16.size a ≤ (i a).val
      ∧ (i a).val < win0_3.index t a * S4x1x64x512x16.size a + S4x1x64x512x16.size a := by
  show i ∈ ((View.whole main_v4_0).slice (win0_3.rect t)).set ↔ _
  rw [View.set_slice_whole, Rect.mem_set_unit]
  exact Iff.rfl

/-- The 64 blocks tile the array: (k, b, h, w, ch) lies in the block of the point with batch b and row tile h / 64. -/
theorem cover3 (i : S4x8x512x512x16.Idx) :
    ∃ t : Fin cfg0.N, (cfg0.win 3).flush t = true ∧ i ∈ ((cfg0.win 3).blk t).view.set := by
  have h0 : (i 0).val < 4 := (i 0).isLt
  have h1 : (i 1).val < 8 := (i 1).isLt
  have h2 : (i 2).val < 512 := (i 2).isLt
  have h3 : (i 3).val < 512 := (i 3).isLt
  have h4 : (i 4).val < 16 := (i 4).isLt
  obtain ⟨t, q1, q2⟩ := idx_onto ⟨(i 1).val, h1⟩ ⟨(i 2).val / 64, by omega⟩
  have q1' : win0_3.index t (1 : Fin 5) = (i 1).val := q1
  have q2' : win0_3.index t (2 : Fin 5) = (i 2).val / 64 := q2
  obtain ⟨e0, e3, e4, -⟩ := idx_facts t
  refine ⟨t, flush0_3 t, ?_⟩
  rw [mem_blk3]
  intro a
  match a with
  | ⟨0, _⟩ => show win0_3.index t (0 : Fin 5) * 4 ≤ (i 0).val ∧ (i 0).val < win0_3.index t (0 : Fin 5) * 4 + 4; omega
  | ⟨1, _⟩ => show win0_3.index t (1 : Fin 5) * 1 ≤ (i 1).val ∧ (i 1).val < win0_3.index t (1 : Fin 5) * 1 + 1; omega
  | ⟨2, _⟩ => show win0_3.index t (2 : Fin 5) * 64 ≤ (i 2).val ∧ (i 2).val < win0_3.index t (2 : Fin 5) * 64 + 64; omega
  | ⟨3, _⟩ => show win0_3.index t (3 : Fin 5) * 512 ≤ (i 3).val ∧ (i 3).val < win0_3.index t (3 : Fin 5) * 512 + 512; omega
  | ⟨4, _⟩ => show win0_3.index t (4 : Fin 5) * 16 ≤ (i 4).val ∧ (i 4).val < win0_3.index t (4 : Fin 5) * 16 + 16; omega

end Weighted

variable (m : (ℓ : Loc nD τ sig) → Buf (Elt Ideal) ℓ)

/-- After all 64 grid points the weighted-values array is `updK` of the values and the coordinate planes. -/
theorem final3 (c : Dev nD) :
    (dats m 0 c).arrAt 3 cfg0.N = updK (V m c main_arg0) (V m c main_v1) (V m c main_v3) :=
  (dats m 0 c).arrAt_eq_of_cover 3 (updK (V m c main_arg0) (V m c main_v1) (V m c main_v3))
    (fun t _ => Weighted.flushed3_eq m c t) Weighted.cover3

end Cert.KernelIdeal.KValue

end
-- ==== Proof.KArr45.lean ====
/-
  The target-row and target-column arrays after the region, and the region's entry contents. Grid point (b, hb)
  writes back rows 64·hb … 64·hb + 63 of batch b for all four corners; the payload at each element is the cell of
  the pixel's coordinate moved by the corner's shift and clamped into the plane. The two coordinate planes the
  region reads are the two last-axis slices of the grid array.

  The order below: the slice-and-reshape that cuts a coordinate plane out of the grid array; the clipped coordinate
  and its cell at one element of a coordinate block; the six shifted cells; a slab's payload (clamp, two unit axes
  added) and where the slab lands; the staging buffer as the overlay of its four slabs, one function `tgtBlk` of
  the coordinate block; then, for each of the two arrays, the coordinate block read where the target block's index
  says, the cover of the array by the 64 blocks, and the whole array.
-/
import proofs.«114343_j3066606649873_1_alg».proof.Proof.KOut
import proofs.«114343_j3066606649873_1_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.KValue

open Idealize.ShloMosaic Idealize.ShloMosaic.TcCoe Idealize.ShloMosaic.ValueIdx
open Idealize.SL Idealize.SL.Sem
open Cert.KernelIdeal Cert.KernelIdeal.Gen Cert.KernelIdeal.Frame Cert.Splat

variable (m : (ℓ : Loc nD τ sig) → Buf (Elt Ideal) ℓ)

/-- The two argument arrays of core `c`. -/
abbrev argX (c : Dev nD) : SX.Idx → EReal := m ((c.tc : Thread nD τ).loc main_arg0)
abbrev argG (c : Dev nD) : SG.Idx → EReal := m ((c.tc : Thread nD τ).loc main_arg1)

namespace Targets

/-! ## A coordinate plane cut out of the grid array -/

/-- The last-axis slice at `a` of the grid array, with its unit axis dropped, is coordinate plane `a`. -/
theorem plane_of_slice (G : SG.Idx → EReal) (a : Nat) (ha : a < 2) (hs : S8x512x512x2.Slices ![0, 0, 0, a] S8x512x512x1)
    (hc : S8x512x512x1.ShapeCasts S8x512x512) :
    shapeCast S8x512x512 (extractStridedSlice S8x512x512x1 ![0, 0, 0, a] G hs) hc = plane G ⟨a, ha⟩ := by
  funext i
  obtain ⟨b, h, w, rfl⟩ : ∃ (b : Fin 8) (h : Fin 512) (w : Fin 512), i = ix3 b h w := ⟨i 0, i 1, i 2, eq_ix3 i⟩
  refine (shapeCast_apply _ hc (ix3 b h w) (ix4 b h w (0 : Fin 1)) ?_).trans ?_
  · rw [Shape.rowMajor_val_four, Shape.rowMajor_val_three]
    show ((b.val * 512 + h.val) * 512 + w.val) * 1 + 0 = (b.val * 512 + h.val) * 512 + w.val
    omega
  refine (extractStridedSlice_apply _ G hs (ix4 b h w (0 : Fin 1)) (ix4 b h w (⟨a, ha⟩ : Fin 2)) ?_).trans rfl
  intro x
  match x with
  | ⟨0, _⟩ => show b.val = 0 + b.val; omega
  | ⟨1, _⟩ => show h.val = 0 + h.val; omega
  | ⟨2, _⟩ => show w.val = 0 + w.val; omega
  | ⟨3, _⟩ => show a = a + 0; omega

/-! ## The body's scalars at an element of the coordinate block -/

theorem zeros3 : (![0, 0, 0] : Fin 3 → Nat) = fun _ => 0 := funext fun a => by fin_cases a <;> rfl

section Scalars
variable (y : Vec Ideal S1x64x512 .f32) (r : Fin 64) (w : Fin 512)

/-- The load through the whole coordinate block reads the block. -/
theorem ld_whole : View.ld y rG = y := View.ld_unit_zero zeros3 _ y

/-- The clipped pixel coordinate, on either plane. -/
theorem coordI_apply : k0_pay2 y (ix2 r w) = coord (y (ix3 (0 : Fin 1) r w)) :=
  congrArg (fun g : EReal => min c513 (max c0 ((g + c1) * chalf * c512 + c1))) (shapeCast_1ab_ab_apply y _ r w)
theorem coordJ_apply : k0_pay3 y (ix2 r w) = coord (y (ix3 (0 : Fin 1) r w)) :=
  congrArg (fun g : EReal => min c513 (max c0 ((g + c1) * chalf * c512 + c1))) (shapeCast_1ab_ab_apply y _ r w)

/-- Its integer cell. -/
theorem cellI_apply : k0_pay4 (F := Ideal) y (ix2 r w) = cell (y (ix3 (0 : Fin 1) r w)) :=
  congrArg (fun g : EReal => Ideal.fptosi 32 (Ideal.liftRound Int.floor g)) (coordI_apply y r w)
theorem cellJ_apply : k0_pay5 (F := Ideal) y (ix2 r w) = cell (y (ix3 (0 : Fin 1) r w)) :=
  congrArg (fun g : EReal => Ideal.fptosi 32 (Ideal.liftRound Int.floor g)) (coordJ_apply y r w)

end Scalars

/-! ## The shifted cells -/

section Shifted
variable (x : Vec Ideal S1x64x512 .f32) (r : Fin 64) (w : Fin 512)

theorem fi_apply : fi x (ix2 r w) = cell (x (ix3 (0 : Fin 1) r w)) :=
  (congrArg (fun z : Vec Ideal S1x64x512 .f32 => k0_pay4 (F := Ideal) z (ix2 r w)) (ld_whole x)).trans (cellI_apply x r w)
theorem fj_apply : fj x (ix2 r w) = cell (x (ix3 (0 : Fin 1) r w)) :=
  (congrArg (fun z : Vec Ideal S1x64x512 .f32 => k0_pay5 (F := Ideal) z (ix2 r w)) (ld_whole x)).trans (cellJ_apply x r w)

/-- The row cell moved by −1 and by 0. -/
theorem rowM_apply : oiA x (ix2 r w) = tcell (x (ix3 (0 : Fin 1) r w)) wm1 :=
  congrArg (fun b : BitVec 32 => IntOp.addi b wm1) (fi_apply x r w)
theorem rowZ_apply : oiB x (ix2 r w) = tcell (x (ix3 (0 : Fin 1) r w)) 0#32 :=
  congrArg (fun b : BitVec 32 => IntOp.addi b 0#32) (fi_apply x r w)
/-- The column cell moved by −1 and by 0, each as the body computes it twice. -/
theorem colM_apply : ojA x (ix2 r w) = tcell (x (ix3 (0 : Fin 1) r w)) wm1 :=
  congrArg (fun b : BitVec 32 => IntOp.addi b wm1) (fj_apply x r w)
theorem colZ_apply : ojB x (ix2 r w) = tcell (x (ix3 (0 : Fin 1) r w)) 0#32 :=
  congrArg (fun b : BitVec 32 => IntOp.addi b 0#32) (fj_apply x r w)
theorem colM'_apply : ojC x (ix2 r w) = tcell (x (ix3 (0 : Fin 1) r w)) wm1 :=
  congrArg (fun b : BitVec 32 => IntOp.addi b wm1) (fj_apply x r w)
theorem colZ'_apply : k0_pay27 (fj x) (ix2 r w) = tcell (x (ix3 (0 : Fin 1) r w)) 0#32 :=
  congrArg (fun b : BitVec 32 => IntOp.addi b 0#32) (fj_apply x r w)

end Shifted

/-! ## A slab's payload and where it lands -/

/-- Two leading unit axes added by a shape cast. -/
theorem shapeCast_ab_11ab_apply {α : Type} {a b : ℕ} (v : (⟨2, ![a, b]⟩ : Shape).Idx → α)
    (h : (⟨2, ![a, b]⟩ : Shape).ShapeCasts ⟨4, ![1, 1, a, b]⟩) (u0 u1 : Fin 1) (i : Fin a) (j : Fin b) :
    shapeCast ⟨4, ![1, 1, a, b]⟩ v h (ix4 u0 u1 i j) = v (ix2 i j) :=
  shapeCast_apply v h _ _ (by
    have h0 : u0.val = 0 := by omega
    have h1 : u1.val = 0 := by omega
    rw [Shape.rowMajor_val_two, Shape.rowMajor_val_four]
    show i.val * b + j.val = ((u0.val * 1 + u1.val) * a + i.val) * b + j.val
    simp only [h0, h1, Nat.zero_mul, Nat.zero_add])

/-- Every slab's payload is its shifted cell clamped into the plane, with two unit axes added. -/
theorem clampSlab_apply (v : IVec S64x512 32) (h : S64x512.ShapeCasts S1x1x64x512) (u0 u1 : Fin 1) (r : Fin 64) (w : Fin 512) :
    shapeCast S1x1x64x512 (minsi (broadcast S64x512 511#32) (maxsi (broadcast S64x512 0#32) v)) h (ix4 u0 u1 r w) = clampW (v (ix2 r w)) :=
  shapeCast_ab_11ab_apply _ h u0 u1 r w

/-- Slab `k` of a target-index block sits at (k, ·, r, w). -/
theorem slab_emb (k : Nat) (hk : k < 4) (inb : ∀ a, (![k, 0, 0, 0] : Fin 4 → Nat) a + S1x1x64x512.size a ≤ S4x1x64x512.size a)
    (u0 u1 : Fin 1) (r : Fin 64) (w : Fin 512) :
    (Rect.unit (s := S4x1x64x512) ![k, 0, 0, 0] S1x1x64x512.size inb).emb (ix4 u0 u1 r w) = ix4 (⟨k, hk⟩ : Fin 4) u1 r w := by
  funext a; apply Fin.ext
  have h0 : u0.val = 0 := by omega
  match a with
  | ⟨0, _⟩ => show k + 1 * u0.val = k; omega
  | ⟨1, _⟩ => show 0 + 1 * u1.val = u1.val; omega
  | ⟨2, _⟩ => show 0 + 1 * r.val = r.val; omega
  | ⟨3, _⟩ => show 0 + 1 * w.val = w.val; omega

/-- An element whose corner is `k` lies in slab `k`. -/
theorem slab_mem (k : Nat) (inb : ∀ a, (![k, 0, 0, 0] : Fin 4 → Nat) a + S1x1x64x512.size a ≤ S4x1x64x512.size a)
    (y : S4x1x64x512.Idx) (hk : (y 0).val = k) : y ∈ (Rect.unit (s := S4x1x64x512) ![k, 0, 0, 0] S1x1x64x512.size inb).set := by
  rw [Rect.mem_set_unit]
  intro a
  match a with
  | ⟨0, _⟩ => show k ≤ (y 0).val ∧ (y 0).val < k + 1; omega
  | ⟨1, _⟩ => show 0 ≤ (y 1).val ∧ (y 1).val < 0 + 1; have h : (y 1).val < 1 := (y 1).isLt; omega
  | ⟨2, _⟩ => show 0 ≤ (y 2).val ∧ (y 2).val < 0 + 64; have h : (y 2).val < 64 := (y 2).isLt; omega
  | ⟨3, _⟩ => show 0 ≤ (y 3).val ∧ (y 3).val < 0 + 512; have h : (y 3).val < 512 := (y 3).isLt; omega

/-- A target-index block as one function of the coordinate block: at (k, ·, r, w) the cell of the coordinate
    at (r, w), moved by corner `k`'s shift `sh k` and clamped into the plane. -/
def tgtBlk (sh : Fin 4 → BitVec 32) (x : Vec Ideal S1x64x512 .f32) : S4x1x64x512.Idx → BitVec 32 :=
  fun y => clampW (tcell (x (ix3 (0 : Fin 1) (y 2) (y 3))) (sh (y 0)))

/-- A slab store whose value is the cell moved by `s`, at slab `k` with `sh k = s`, writes that function's slab. -/
theorem slab_piece (sh : Fin 4 → BitVec 32) (x : Vec Ideal S1x64x512 .f32) (k : Nat) (hk : k < 4)
    (inb : ∀ a, (![k, 0, 0, 0] : Fin 4 → Nat) a + S1x1x64x512.size a ≤ S4x1x64x512.size a)
    (v : IVec S64x512 32) (s : BitVec 32) (hc : S64x512.ShapeCasts S1x1x64x512) (P : IVec S1x1x64x512 32)
    (hP : P = shapeCast S1x1x64x512 (minsi (broadcast S64x512 511#32) (maxsi (broadcast S64x512 0#32) v)) hc)
    (hv : ∀ r w, v (ix2 r w) = tcell (x (ix3 (0 : Fin 1) r w)) s) (hs : sh ⟨k, hk⟩ = s) :
    ∀ j : S1x1x64x512.Idx, P j = tgtBlk sh x ((Rect.unit (s := S4x1x64x512) ![k, 0, 0, 0] S1x1x64x512.size inb).emb j) := by
  subst hP
  intro j
  obtain ⟨u0, u1, r, w, rfl⟩ : ∃ (u0 u1 : Fin 1) (r : Fin 64) (w : Fin 512), j = ix4 u0 u1 r w := ⟨j 0, j 1, j 2, j 3, eq_ix4 j⟩
  rw [slab_emb k hk inb u0 u1 r w]
  refine (clampSlab_apply v hc u0 u1 r w).trans ?_
  show clampW (v (ix2 r w)) = clampW (tcell (x (ix3 (0 : Fin 1) r w)) (sh ⟨k, hk⟩))
  rw [hv, hs]

/-- Four slab stores, each writing its slab of one function, leave that function. -/
theorem block_apply (G : S4x1x64x512.Idx → BitVec 32) (P0 P1 P2 P3 : IVec S1x1x64x512 32)
    (h0 : ∀ j, P0 j = G (rI0.emb j)) (h1 : ∀ j, P1 j = G (rI1.emb j)) (h2 : ∀ j, P2 j = G (rI2.emb j)) (h3 : ∀ j, P3 j = G (rI3.emb j))
    (y : S4x1x64x512.Idx) :
    View.canon (Val := Elt Ideal) (e := .i32) [⟨rI3, P3⟩, ⟨rI2, P2⟩, ⟨rI1, P1⟩, ⟨rI0, P0⟩] y = G y := by
  refine View.canon_apply_of_pieces (Val := Elt Ideal) (e := .i32) G _ ?_ y ?_
  swap
  · have hy : (y 0).val < 4 := (y 0).isLt
    have hcase : (y 0).val = 0 ∨ (y 0).val = 1 ∨ (y 0).val = 2 ∨ (y 0).val = 3 := by omega
    rcases hcase with h | h | h | h
    · exact ⟨⟨rI0, P0⟩, List.mem_cons_of_mem _ (List.mem_cons_of_mem _ (List.mem_cons_of_mem _ List.mem_cons_self)), (slab_mem 0 _ y h : y ∈ rI0.set)⟩
    · exact ⟨⟨rI1, P1⟩, List.mem_cons_of_mem _ (List.mem_cons_of_mem _ List.mem_cons_self), (slab_mem 1 _ y h : y ∈ rI1.set)⟩
    · exact ⟨⟨rI2, P2⟩, List.mem_cons_of_mem _ List.mem_cons_self, (slab_mem 2 _ y h : y ∈ rI2.set)⟩
    · exact ⟨⟨rI3, P3⟩, List.mem_cons_self, (slab_mem 3 _ y h : y ∈ rI3.set)⟩
  intro p hp
  simp only [List.mem_cons, List.not_mem_nil, or_false] at hp
  rcases hp with rfl | rfl | rfl | rfl
  · exact h3
  · exact h2
  · exact h1
  · exact h0

/-- The target-row block after the body. -/
theorem rows_apply (x : Vec Ideal S1x64x512 .f32) (y : S4x1x64x512.Idx) : out0_4 x y = tgtBlk sI x y := by
  unfold out0_4
  exact block_apply (tgtBlk sI x) _ _ _ _
    (slab_piece sI x 0 (by decide) Facts₀.inb_S4x1x64x512_S1x1x64x512_0_0_0_0 (oiA x) wm1 Facts₀.shapeCasts_S64x512_S1x1x64x512 (k0_pay12 (oiA x)) rfl (rowM_apply x) rfl)
    (slab_piece sI x 1 (by decide) Facts₀.inb_S4x1x64x512_S1x1x64x512_1_0_0_0 (oiA x) wm1 Facts₀.shapeCasts_S64x512_S1x1x64x512 (k0_pay17 (oiA x)) rfl (rowM_apply x) rfl)
    (slab_piece sI x 2 (by decide) Facts₀.inb_S4x1x64x512_S1x1x64x512_2_0_0_0 (oiB x) 0#32 Facts₀.shapeCasts_S64x512_S1x1x64x512 (k0_pay24 (oiB x)) rfl (rowZ_apply x) rfl)
    (slab_piece sI x 3 (by decide) Facts₀.inb_S4x1x64x512_S1x1x64x512_3_0_0_0 (oiB x) 0#32 Facts₀.shapeCasts_S64x512_S1x1x64x512 (k0_pay29 (oiB x)) rfl (rowZ_apply x) rfl) y

/-- The target-column block after the body. -/
theorem cols_apply (x : Vec Ideal S1x64x512 .f32) (y : S4x1x64x512.Idx) : out0_5 x y = tgtBlk sJ x y := by
  unfold out0_5
  exact block_apply (tgtBlk sJ x) _ _ _ _
    (slab_piece sJ x 0 (by decide) Facts₀.inb_S4x1x64x512_S1x1x64x512_0_0_0_0 (ojA x) wm1 Facts₀.shapeCasts_S64x512_S1x1x64x512 (k0_pay13 (ojA x)) rfl (colM_apply x) rfl)
    (slab_piece sJ x 1 (by decide) Facts₀.inb_S4x1x64x512_S1x1x64x512_1_0_0_0 (ojB x) 0#32 Facts₀.shapeCasts_S64x512_S1x1x64x512 (k0_pay18 (ojB x)) rfl (colZ_apply x) rfl)
    (slab_piece sJ x 2 (by decide) Facts₀.inb_S4x1x64x512_S1x1x64x512_2_0_0_0 (ojC x) wm1 Facts₀.shapeCasts_S64x512_S1x1x64x512 (k0_pay26 (k0_pay25 (ojC x))) rfl (colM'_apply x) rfl)
    (slab_piece sJ x 3 (by decide) Facts₀.inb_S4x1x64x512_S1x1x64x512_3_0_0_0 (k0_pay27 (fj x)) 0#32 Facts₀.shapeCasts_S64x512_S1x1x64x512 (k0_pay1 (k0_pay27 (fj x)) 511#32 k0_pay30) rfl (colZ'_apply x) rfl) y

/-! ## The target-row array -/

/-- The printed index maps over the grid: the target blocks move over batch and row tile only, and the coordinate
    blocks move with them. -/
theorem idx_rows : ∀ t : Fin cfg0.N,
    win0_4.index t (0 : Fin 4) = 0 ∧ win0_4.index t (3 : Fin 4) = 0
    ∧ win0_1.index t (0 : Fin 3) = win0_4.index t (1 : Fin 4)
    ∧ win0_1.index t (1 : Fin 3) = win0_4.index t (2 : Fin 4)
    ∧ win0_1.index t (2 : Fin 3) = 0 :=
  (by decide +kernel : ∀ t : Fin grid0.N, _)

/-- Every (batch, row tile) is some grid point's. -/
theorem pts_rows : ∀ (q1 : Fin 8) (q2 : Fin 8), ∃ t : Fin cfg0.N, win0_4.index t (1 : Fin 4) = q1.val ∧ win0_4.index t (2 : Fin 4) = q2.val :=
  (by decide +kernel : ∀ (q1 : Fin 8) (q2 : Fin 8), ∃ t : Fin grid0.N, win0_4.index t (1 : Fin 4) = q1.val ∧ win0_4.index t (2 : Fin 4) = q2.val)

/-- What grid point `t` writes back is its block of `rowK` of the coordinate plane as the region finds it. -/
theorem flushed_rows (c : Dev nD) (t : Fin cfg0.N) :
    (dats m 0 c).flushed 4 t = ((cfg0.win 4).blk t).view.read (Elt Ideal) (rowK (V m c main_v1)) := by
  show (cfg0.win 4).cut (grid0.coords t) ((dats m 0 c).after 4 t) = _
  rw [after0_4]
  obtain ⟨e0, e3, e1, e2, e4⟩ := idx_rows t
  funext y
  show out0_4 (iblk m c 1 t) y = rowK (V m c main_v1) (((cfg0.win 4).blk t).view.emb y)
  refine (rows_apply (iblk m c 1 t) y).trans ?_
  have hy1 : (y 1).val < 1 := (y 1).isLt
  have hI : ((cfg0.win 1).blk t).view.emb (ix3 (0 : Fin 1) (y 2) (y 3))
      = ix3 (((cfg0.win 4).blk t).view.emb y 1) (((cfg0.win 4).blk t).view.emb y 2) (((cfg0.win 4).blk t).view.emb y 3) := by
    funext a; apply Fin.ext
    match a with
    | ⟨0, _⟩ => show win0_1.index t (0 : Fin 3) * 1 + 1 * 0 = win0_4.index t (1 : Fin 4) * 1 + 1 * (y 1).val; omega
    | ⟨1, _⟩ => show win0_1.index t (1 : Fin 3) * 64 + 1 * (y 2).val = win0_4.index t (2 : Fin 4) * 64 + 1 * (y 2).val; omega
    | ⟨2, _⟩ => show win0_1.index t (2 : Fin 3) * 512 + 1 * (y 3).val = win0_4.index t (3 : Fin 4) * 512 + 1 * (y 3).val; omega
  have hK : ((cfg0.win 4).blk t).view.emb y 0 = y 0 :=
    Fin.ext (by show win0_4.index t (0 : Fin 4) * 4 + 1 * (y 0).val = (y 0).val; omega)
  show clampW (tcell (V m c main_v1 (((cfg0.win 1).blk t).view.emb (ix3 (0 : Fin 1) (y 2) (y 3)))) (sI (y 0)))
    = clampW (tcell (V m c main_v1 (ix3 (((cfg0.win 4).blk t).view.emb y 1) (((cfg0.win 4).blk t).view.emb y 2) (((cfg0.win 4).blk t).view.emb y 3)))
        (sI (((cfg0.win 4).blk t).view.emb y 0)))
  rw [hI, hK]
  rfl

/-- An index of the array is in grid point `t`'s block iff each coordinate is in the block's range on its axis. -/
theorem mem_rows (t : Fin cfg0.N) (i : S4x8x512x512.Idx) :
    i ∈ ((cfg0.win 4).blk t).view.set ↔ ∀ a : Fin 4, win0_4.index t a * S4x1x64x512.size a ≤ (i a).val
      ∧ (i a).val < win0_4.index t a * S4x1x64x512.size a + S4x1x64x512.size a := by
  show i ∈ ((View.whole main_v4_1).slice (win0_4.rect t)).set ↔ _
  rw [View.set_slice_whole, Rect.mem_set_unit]
  exact Iff.rfl

/-- The blocks tile the array: (k, b, h, w) is written back by the grid point (b, h / 64). -/
theorem cover_rows (i : S4x8x512x512.Idx) :
    ∃ t : Fin cfg0.N, (cfg0.win 4).flush t = true ∧ i ∈ ((cfg0.win 4).blk t).view.set := by
  have hi0 : (i 0).val < 4 := (i 0).isLt
  have hi1 : (i 1).val < 8 := (i 1).isLt
  have hi2 : (i 2).val < 512 := (i 2).isLt
  have hi3 : (i 3).val < 512 := (i 3).isLt
  obtain ⟨t, q1, q2⟩ := pts_rows ⟨(i 1).val, hi1⟩ ⟨(i 2).val / 64, by omega⟩
  have q1' : win0_4.index t (1 : Fin 4) = (i 1).val := q1
  have q2' : win0_4.index t (2 : Fin 4) = (i 2).val / 64 := q2
  obtain ⟨e0, e3, -⟩ := idx_rows t
  refine ⟨t, flush0_4 t, ?_⟩
  rw [mem_rows]
  intro a
  match a with
  | ⟨0, _⟩ => show win0_4.index t (0 : Fin 4) * 4 ≤ (i 0).val ∧ (i 0).val < win0_4.index t (0 : Fin 4) * 4 + 4; omega
  | ⟨1, _⟩ => show win0_4.index t (1 : Fin 4) * 1 ≤ (i 1).val ∧ (i 1).val < win0_4.index t (1 : Fin 4) * 1 + 1; omega
  | ⟨2, _⟩ => show win0_4.index t (2 : Fin 4) * 64 ≤ (i 2).val ∧ (i 2).val < win0_4.index t (2 : Fin 4) * 64 + 64; omega
  | ⟨3, _⟩ => show win0_4.index t (3 : Fin 4) * 512 ≤ (i 3).val ∧ (i 3).val < win0_4.index t (3 : Fin 4) * 512 + 512; omega

/-! ## The target-column array -/

/-- The printed index maps over the grid: the target blocks move over batch and row tile only, and the coordinate
    blocks move with them. -/
theorem idx_cols : ∀ t : Fin cfg0.N,
    win0_5.index t (0 : Fin 4) = 0 ∧ win0_5.index t (3 : Fin 4) = 0
    ∧ win0_2.index t (0 : Fin 3) = win0_5.index t (1 : Fin 4)
    ∧ win0_2.index t (1 : Fin 3) = win0_5.index t (2 : Fin 4)
    ∧ win0_2.index t (2 : Fin 3) = 0 :=
  (by decide +kernel : ∀ t : Fin grid0.N, _)

/-- Every (batch, row tile) is some grid point's. -/
theorem pts_cols : ∀ (q1 : Fin 8) (q2 : Fin 8), ∃ t : Fin cfg0.N, win0_5.index t (1 : Fin 4) = q1.val ∧ win0_5.index t (2 : Fin 4) = q2.val :=
  (by decide +kernel : ∀ (q1 : Fin 8) (q2 : Fin 8), ∃ t : Fin grid0.N, win0_5.index t (1 : Fin 4) = q1.val ∧ win0_5.index t (2 : Fin 4) = q2.val)

/-- What grid point `t` writes back is its block of `colK` of the coordinate plane as the region finds it. -/
theorem flushed_cols (c : Dev nD) (t : Fin cfg0.N) :
    (dats m 0 c).flushed 5 t = ((cfg0.win 5).blk t).view.read (Elt Ideal) (colK (V m c main_v3)) := by
  show (cfg0.win 5).cut (grid0.coords t) ((dats m 0 c).after 5 t) = _
  rw [after0_5]
  obtain ⟨e0, e3, e1, e2, e4⟩ := idx_cols t
  funext y
  show out0_5 (iblk m c 2 t) y = colK (V m c main_v3) (((cfg0.win 5).blk t).view.emb y)
  refine (cols_apply (iblk m c 2 t) y).trans ?_
  have hy1 : (y 1).val < 1 := (y 1).isLt
  have hI : ((cfg0.win 2).blk t).view.emb (ix3 (0 : Fin 1) (y 2) (y 3))
      = ix3 (((cfg0.win 5).blk t).view.emb y 1) (((cfg0.win 5).blk t).view.emb y 2) (((cfg0.win 5).blk t).view.emb y 3) := by
    funext a; apply Fin.ext
    match a with
    | ⟨0, _⟩ => show win0_2.index t (0 : Fin 3) * 1 + 1 * 0 = win0_5.index t (1 : Fin 4) * 1 + 1 * (y 1).val; omega
    | ⟨1, _⟩ => show win0_2.index t (1 : Fin 3) * 64 + 1 * (y 2).val = win0_5.index t (2 : Fin 4) * 64 + 1 * (y 2).val; omega
    | ⟨2, _⟩ => show win0_2.index t (2 : Fin 3) * 512 + 1 * (y 3).val = win0_5.index t (3 : Fin 4) * 512 + 1 * (y 3).val; omega
  have hK : ((cfg0.win 5).blk t).view.emb y 0 = y 0 :=
    Fin.ext (by show win0_5.index t (0 : Fin 4) * 4 + 1 * (y 0).val = (y 0).val; omega)
  show clampW (tcell (V m c main_v3 (((cfg0.win 2).blk t).view.emb (ix3 (0 : Fin 1) (y 2) (y 3)))) (sJ (y 0)))
    = clampW (tcell (V m c main_v3 (ix3 (((cfg0.win 5).blk t).view.emb y 1) (((cfg0.win 5).blk t).view.emb y 2) (((cfg0.win 5).blk t).view.emb y 3)))
        (sJ (((cfg0.win 5).blk t).view.emb y 0)))
  rw [hI, hK]
  rfl

/-- An index of the array is in grid point `t`'s block iff each coordinate is in the block's range on its axis. -/
theorem mem_cols (t : Fin cfg0.N) (i : S4x8x512x512.Idx) :
    i ∈ ((cfg0.win 5).blk t).view.set ↔ ∀ a : Fin 4, win0_5.index t a * S4x1x64x512.size a ≤ (i a).val
      ∧ (i a).val < win0_5.index t a * S4x1x64x512.size a + S4x1x64x512.size a := by
  show i ∈ ((View.whole main_v4_2).slice (win0_5.rect t)).set ↔ _
  rw [View.set_slice_whole, Rect.mem_set_unit]
  exact Iff.rfl

/-- The blocks tile the array: (k, b, h, w) is written back by the grid point (b, h / 64). -/
theorem cover_cols (i : S4x8x512x512.Idx) :
    ∃ t : Fin cfg0.N, (cfg0.win 5).flush t = true ∧ i ∈ ((cfg0.win 5).blk t).view.set := by
  have hi0 : (i 0).val < 4 := (i 0).isLt
  have hi1 : (i 1).val < 8 := (i 1).isLt
  have hi2 : (i 2).val < 512 := (i 2).isLt
  have hi3 : (i 3).val < 512 := (i 3).isLt
  obtain ⟨t, q1, q2⟩ := pts_cols ⟨(i 1).val, hi1⟩ ⟨(i 2).val / 64, by omega⟩
  have q1' : win0_5.index t (1 : Fin 4) = (i 1).val := q1
  have q2' : win0_5.index t (2 : Fin 4) = (i 2).val / 64 := q2
  obtain ⟨e0, e3, -⟩ := idx_cols t
  refine ⟨t, flush0_5 t, ?_⟩
  rw [mem_cols]
  intro a
  match a with
  | ⟨0, _⟩ => show win0_5.index t (0 : Fin 4) * 4 ≤ (i 0).val ∧ (i 0).val < win0_5.index t (0 : Fin 4) * 4 + 4; omega
  | ⟨1, _⟩ => show win0_5.index t (1 : Fin 4) * 1 ≤ (i 1).val ∧ (i 1).val < win0_5.index t (1 : Fin 4) * 1 + 1; omega
  | ⟨2, _⟩ => show win0_5.index t (2 : Fin 4) * 64 ≤ (i 2).val ∧ (i 2).val < win0_5.index t (2 : Fin 4) * 64 + 64; omega
  | ⟨3, _⟩ => show win0_5.index t (3 : Fin 4) * 512 ≤ (i 3).val ∧ (i 3).val < win0_5.index t (3 : Fin 4) * 512 + 512; omega

end Targets

open Targets

/-! ## The region's entry contents -/

/-- No host operation before the region writes the value array: the region finds it as launched. -/
theorem entryX (c : Dev nD) : V m c main_arg0 = argX m c :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- The row-coordinate plane the region reads is the grid array's last-axis slice at 0, -/
theorem entryI (c : Dev nD) : V m c main_v1 = plane (argG m c) 0 := by
  have e : (V m c main_v1 : S8x512x512.Idx → EReal)
      = shapeCast S8x512x512 (extractStridedSlice S8x512x512x1 ![0, 0, 0, 0] (argG m c) slices_S8x512x512x2_S8x512x512x1_0_0_0_0)
          shapeCasts_S8x512x512x1_S8x512x512 := by
    show StableHlo.after hostOps0 (fun b => m (c, b)) (Proc.devRef .tc main_v1) = _
    after_results
    rfl
  exact e.trans (plane_of_slice (argG m c) 0 (by decide) _ _)

/-- and the column-coordinate plane its slice at 1. -/
theorem entryJ (c : Dev nD) : V m c main_v3 = plane (argG m c) 1 := by
  have e : (V m c main_v3 : S8x512x512.Idx → EReal)
      = shapeCast S8x512x512 (extractStridedSlice S8x512x512x1 ![0, 0, 0, 1] (argG m c) slices_S8x512x512x2_S8x512x512x1_0_0_0_1)
          shapeCasts_S8x512x512x1_S8x512x512 := by
    show StableHlo.after hostOps0 (fun b => m (c, b)) (Proc.devRef .tc main_v3) = _
    after_results
    rfl
  exact e.trans (plane_of_slice (argG m c) 1 (by decide) _ _)

/-! ## The two arrays after the region -/

/-- After all 64 grid points the target-row array is `rowK` of the row-coordinate plane, -/
theorem final4 (c : Dev nD) : (dats m 0 c).arrAt 4 cfg0.N = rowK (V m c main_v1) :=
  (dats m 0 c).arrAt_eq_of_cover 4 (rowK (V m c main_v1)) (fun t _ => flushed_rows m c t) cover_rows
/-- and the target-column array `colK` of the column-coordinate plane. -/
theorem final5 (c : Dev nD) : (dats m 0 c).arrAt 5 cfg0.N = colK (V m c main_v3) :=
  (dats m 0 c).arrAt_eq_of_cover 5 (colK (V m c main_v3)) (fun t _ => flushed_cols m c t) cover_cols

end Cert.KernelIdeal.KValue

end
-- ==== Proof.TailFn.lean ====
/-
  What the kernel program does with the three arrays its region produces: each of the three index planes — the
  batch number, the clamped target row, the clamped target column, all over (corner, batch, row, column) — goes
  through the negative-index wrap, the three are laid side by side as index vectors, the weighted values are
  accumulated into a zero array (batch, row, column, channel) at those index vectors, and the channel axis is moved
  to second place. `tailFn U R C` is that composition as one function of the weighted values `U`, the target rows
  `R` and the target columns `C`.
-/
import proofs.«114343_j3066606649873_1_alg».proof.Proof.Gen.KernelIdeal
import Idealize.ShloMosaic.PureOps.Ideal

noncomputable section

namespace Cert.KernelIdeal.Tail

open Idealize.ShloMosaic
open Cert.KernelIdeal
open Cert.KernelIdeal.Facts₀ Cert.KernelIdeal.Facts

/-- The batch number of each update, as a word: the iota over the batch axis spread over (corner, batch, row, column). -/
def batchIdx : IVec S4x8x512x512 32 :=
  broadcastInDim S4x8x512x512 ![0, 1, 2, 3] Facts₀.bcast_S1x8x1x1_S4x8x512x512_0_1_2_3
    (broadcastInDim S1x8x1x1 ![1] Facts₀.bcast_S8_S1x8x1x1_1 (iotaInDim S8 32 0))

/-- The negative-index wrap at extent `N`, on a whole index plane: `v < 0 ? v + N : v`. -/
def wrapPlane (N : BitVec 32) (v : IVec S4x8x512x512 32) : IVec S4x8x512x512 32 :=
  select (cmpi .slt v (broadcastInDim S4x8x512x512 ![] Facts₀.bcast_S_S4x8x512x512 (constantI S_ 32 0#32)))
    (addi v (broadcastInDim S4x8x512x512 ![] Facts₀.bcast_S_S4x8x512x512 (constantI S_ 32 N))) v

/-- A plane as a last-axis column of index vectors. -/
def asColumn (v : IVec S4x8x512x512 32) : IVec S4x8x512x512x1 32 :=
  broadcastInDim S4x8x512x512x1 ![0, 1, 2, 3] Facts₀.bcast_S4x8x512x512_S4x8x512x512x1_0_1_2_3 v

/-- The index vectors (batch, row, column) of the updates. -/
def indexVectors (R C : IVec S4x8x512x512 32) : IVec S4x8x512x512x3 32 :=
  concatenate S4x8x512x512x3 4
    [⟨S4x8x512x512x1, asColumn (wrapPlane 8#32 batchIdx)⟩, ⟨S4x8x512x512x1, asColumn (wrapPlane 512#32 R)⟩,
      ⟨S4x8x512x512x1, asColumn (wrapPlane 512#32 C)⟩]
    Facts₀.concatenates_S4x8x512x512x1_S4x8x512x512x1_S4x8x512x512x1_S4x8x512x512x3_d4

/-- The program's result from the region's three arrays. -/
def tailFn (U : FVec Ideal S4x8x512x512x16 .f32) (R C : IVec S4x8x512x512 32) : FVec Ideal S8x16x512x512 .f32 :=
  transpose S8x16x512x512 [0, 3, 1, 2]
    (Host.scatterAdd scatter_S8x512x512x16_S4x8x512x512x3_S4x8x512x512x16_4_012_012_4
      (broadcastInDim S8x512x512x16 ![] Facts₀.bcast_S_S8x512x512x16 (constant (F := Ideal) S_ .f32 0x00000000#32))
      (indexVectors R C) U)
    Facts₀.transposes_S8x512x512x16_S8x16x512x512_0_3_1_2

end Cert.KernelIdeal.Tail

end
-- ==== Proof.KValue.lean ====
/-
  The idealized kernel program's result array, from the frame run: after the region each output array is the
  whole-array function whose block at every grid point is what the body left there — the weighted values, the
  clamped target rows and columns of all four corners — and the host tail is applied to those three arrays.
-/
import proofs.«114343_j3066606649873_1_alg».proof.Proof.KOut
import proofs.«114343_j3066606649873_1_alg».proof.Proof.KArr3
import proofs.«114343_j3066606649873_1_alg».proof.Proof.KArr45
import proofs.«114343_j3066606649873_1_alg».proof.Proof.TailFn
import proofs.«114343_j3066606649873_1_alg».proof.Proof.Spec
import Idealize.ShloMosaic.Lib.Pipeline.Value
import Idealize.ShloMosaic.Lib.StableHlo.Run

set_option maxRecDepth 16384

noncomputable section

namespace Cert.KernelIdeal.KValue

open Idealize.ShloMosaic Idealize.ShloMosaic.TcCoe Idealize.ShloMosaic.ValueIdx
open Idealize.SL Idealize.SL.Sem
open Cert.KernelIdeal Cert.KernelIdeal.Gen Cert.KernelIdeal.Frame Cert.KernelIdeal.Tail Cert.Splat

variable (m : (ℓ : Loc nD τ sig) → Buf (Elt Ideal) ℓ)

/-- A host operation with three operand buffers leaves in its result buffer its function of the three operands'
    contents, each read at its own buffer (the family of contents spelt out operand by operand). -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- What the region leaves in its three output arrays, read in the contents the operations after it start from:
    the weighted values, the target rows and the target columns as functions of the two argument arrays. -/
theorem region_outputs (c : Dev nD) (W : Valuation τ sig (Elt Ideal))
    (hW : Pipeline.withArrays (cfgs 0).spec c (V0 m c) (fun w => (dats m 0 c).arrAt w (cfgs 0).N) = W) :
    W (Proc.devRef .tc main_v4_0) = updK (argX m c) (plane (argG m c) 0) (plane (argG m c) 1)
      ∧ W (Proc.devRef .tc main_v4_1) = rowK (plane (argG m c) 0)
      ∧ W (Proc.devRef .tc main_v4_2) = colK (plane (argG m c) 1) := by
  subst hW
  refine ⟨?_, ?_, ?_⟩
  · exact (Pipeline.withArrays_arr spec0 launch0.win.arr_inj c (V0 m c) _ 3).trans
      ((final3 m c).trans (by rw [entryX, entryI, entryJ]))
  · exact (Pipeline.withArrays_arr spec0 launch0.win.arr_inj c (V0 m c) _ 4).trans
      ((final4 m c).trans (by rw [entryI]))
  · exact (Pipeline.withArrays_arr spec0 launch0.win.arr_inj c (V0 m c) _ 5).trans
      ((final5 m c).trans (by rw [entryJ]))

set_option maxHeartbeats 2000000 in
/-- The program's result buffer after the frame run's tail is the tail function of the region's three arrays. -/
theorem kernel_result (c : Dev nD) :
    Pipeline.afterTail₀ cfgs (dats m) 0 (V0 m) [hostOps1] c main_v29
      = tailFn (updK (argX m c) (plane (argG m c) 0) (plane (argG m c) 1)) (rowK (plane (argG m c) 0)) (colK (plane (argG m c) 1)) := by
  unfold Pipeline.afterTail₀
  generalize hW : Pipeline.withArrays (cfgs 0).spec c (V0 m c) (fun w => (dats m 0 c).arrAt w (cfgs 0).N) = W
  obtain ⟨h3, h4, h5⟩ := region_outputs m c W hW
  show StableHlo.after hostOps1 W (Proc.devRef .tc main_v29) = _
  simp only [StableHlo.after_cons, StableHlo.after_nil]
  -- each of the thirty-two operations, last first: at its own result buffer its function of its operands'
  -- contents, at any other buffer what was there before it
  repeat (first
    | rw [nary3_result]
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.nary_result_ne]; rotate_left; decide))
  rw [h3, h4, h5]
  rfl

end Cert.KernelIdeal.KValue

end
-- ==== Proof.Cells.lean ====
/-
  Integer facts about the cells of the splat: the cell of a clipped coordinate is a word between 0 and 513, so
  moving it by −1, 0 or 1 never leaves the signed 32-bit range; the in-plane bit and the clamp read as
  inequalities between integers; and a non-negative index is left alone by the negative-index wrap.
-/
import proofs.«114343_j3066606649873_1_alg».proof.Proof.Spec

noncomputable section

namespace Cert.Splat

open Idealize.ShloMosaic Idealize.ShloMosaic.ValueIdx

/-- The negative-index wrap of array indexing: an index below zero counts from the end `N`. -/
def wrapW (N v : BitVec 32) : BitVec 32 := Scalar.select (IntOp.cmpi .slt v 0#32) (IntOp.addi v N) v

/-! ## The literals 0 and 513 -/

/-- The word of all zeros denotes 0. -/
theorem c0_eq : c0 = 0 := by
  simp [Ideal.ofBits, Ideal.ieee]

/-- The word 0x44004000 has exponent field 136 and fraction 2¹⁴, so it denotes 2⁹ · (1 + 2¹⁴ / 2²³) = 513. -/
theorem c513_eq : c513 = ((513 : ℝ) : EReal) := by
  simp [Ideal.ofBits, Ideal.ieee, -EReal.coe_mul]; norm_num

/-! ## The clipped coordinate is a real between 0 and 513

  Whatever the inner value is, an infinity included, the outer max with 0 and min with 513 bring it into
  that interval. -/

theorem coord_real (g : EReal) : ∃ r : ℝ, coord g = (r : EReal) ∧ 0 ≤ r ∧ r ≤ 513 := by
  have h0 : (0 : EReal) ≤ coord g := by
    unfold coord
    rw [c0_eq, c513_eq]
    exact le_min (by exact_mod_cast (by norm_num : (0 : ℝ) ≤ 513)) (le_max_left _ _)
  have h1 : coord g ≤ ((513 : ℝ) : EReal) := by
    unfold coord
    rw [c513_eq]
    exact min_le_left _ _
  have hb : coord g ≠ ⊥ := fun h => by rw [h] at h0; exact absurd h0 (by simp)
  have ht : coord g ≠ ⊤ := fun h => by rw [h] at h1; exact absurd h1 (by simp)
  lift coord g to ℝ using ⟨ht, hb⟩ with r hr
  exact ⟨r, rfl, by exact_mod_cast h0, by exact_mod_cast h1⟩

/-! ## Small integers as signed words -/

/-- An integer inside the signed 32-bit range is read back unchanged from its word. -/
theorem toInt_ofInt_small (n : ℤ) (h0 : -2147483648 ≤ n) (h1 : n < 2147483648) :
    (BitVec.ofInt 32 n).toInt = n := by
  rw [BitVec.toInt_ofInt]
  exact Int.bmod_eq_of_le_mul_two (by omega) (by omega)

/-- The sum of two words whose integer sum stays inside the signed range is that integer sum. -/
theorem toInt_add_small (x y : BitVec 32) (h0 : -2147483648 ≤ x.toInt + y.toInt)
    (h1 : x.toInt + y.toInt < 2147483648) : (x + y).toInt = x.toInt + y.toInt := by
  rw [BitVec.toInt_add]
  exact Int.bmod_eq_of_le_mul_two (by omega) (by omega)

theorem toInt_511 : (511#32 : BitVec 32).toInt = 511 := by decide
theorem toInt_one32 : (1#32 : BitVec 32).toInt = 1 := by decide
theorem toInt_wm1 : (wm1 : BitVec 32).toInt = -1 := by decide

/-- The cell is the word of the integer ⌊coord g⌋, which lies between 0 and 513: the floor of an integer is itself and
    the clamp to the signed range does nothing. -/
theorem cell_eq_ofInt (g : EReal) : ∃ n : ℤ, 0 ≤ n ∧ n ≤ 513 ∧ cell g = BitVec.ofInt 32 n := by
  obtain ⟨r, hr, h0, h1⟩ := coord_real g
  have hn0 : 0 ≤ ⌊r⌋ := Int.floor_nonneg.mpr h0
  have hn1 : ⌊r⌋ ≤ 513 := by exact_mod_cast (Int.floor_le r).trans h1
  refine ⟨⌊r⌋, hn0, hn1, ?_⟩
  unfold cell
  rw [hr, Ideal.liftRound_coe, Ideal.fptosi, Ideal.toIntClamped_coe]
  congr 1
  simp only [Int.floor_intCast, Int.ceil_intCast, ite_self]
  norm_num
  omega

/-- The cell of a clipped coordinate lies between 0 and 513. -/
theorem cell_nonneg (g : EReal) : 0 ≤ (cell g).toInt := by
  obtain ⟨n, h0, h1, h⟩ := cell_eq_ofInt g
  rw [h, toInt_ofInt_small n (by omega) (by omega)]; exact h0
theorem cell_le (g : EReal) : (cell g).toInt ≤ 513 := by
  obtain ⟨n, h0, h1, h⟩ := cell_eq_ofInt g
  rw [h, toInt_ofInt_small n (by omega) (by omega)]; exact h1

/-- The corner words as integers. -/
theorem aI_toInt (k : Fin 4) : (aI k).toInt = if k.val < 2 then 0 else 1 := by
  unfold aI; split_ifs <;> decide
theorem aJ_toInt (k : Fin 4) : (aJ k).toInt = if k.val % 2 = 0 then 0 else 1 := by
  unfold aJ; split_ifs <;> decide
theorem sI_toInt (k : Fin 4) : (sI k).toInt = (aI k).toInt - 1 := by
  unfold sI aI; split_ifs <;> decide
theorem sJ_toInt (k : Fin 4) : (sJ k).toInt = (aJ k).toInt - 1 := by
  unfold sJ aJ; split_ifs <;> decide

theorem aI_range (k : Fin 4) : 0 ≤ (aI k).toInt ∧ (aI k).toInt ≤ 1 := by
  rw [aI_toInt]; split_ifs <;> omega
theorem aJ_range (k : Fin 4) : 0 ≤ (aJ k).toInt ∧ (aJ k).toInt ≤ 1 := by
  rw [aJ_toInt]; split_ifs <;> omega

/-- Moving a cell by a corner word does not overflow. -/
theorem tcell_sI_toInt (g : EReal) (k : Fin 4) : (tcell g (sI k)).toInt = (cell g).toInt + (aI k).toInt - 1 := by
  have h0 := cell_nonneg g; have h1 := cell_le g; have ha := aI_range k; have hs := sI_toInt k
  unfold tcell IntOp.addi
  rw [toInt_add_small _ _ (by omega) (by omega)]; omega
theorem tcell_sJ_toInt (g : EReal) (k : Fin 4) : (tcell g (sJ k)).toInt = (cell g).toInt + (aJ k).toInt - 1 := by
  have h0 := cell_nonneg g; have h1 := cell_le g; have ha := aJ_range k; have hs := sJ_toInt k
  unfold tcell IntOp.addi
  rw [toInt_add_small _ _ (by omega) (by omega)]; omega
theorem addi_aI_toInt (g : EReal) (k : Fin 4) : (IntOp.addi (cell g) (aI k)).toInt = (cell g).toInt + (aI k).toInt := by
  have h0 := cell_nonneg g; have h1 := cell_le g; have ha := aI_range k
  unfold IntOp.addi
  exact toInt_add_small _ _ (by omega) (by omega)
theorem addi_aJ_toInt (g : EReal) (k : Fin 4) : (IntOp.addi (cell g) (aJ k)).toInt = (cell g).toInt + (aJ k).toInt := by
  have h0 := cell_nonneg g; have h1 := cell_le g; have ha := aJ_range k
  unfold IntOp.addi
  exact toInt_add_small _ _ (by omega) (by omega)

/-! ## The signed comparisons as inequalities between integers -/

theorem ofBool_eq_one_iff (b : Bool) : BitVec.ofBool b = 1#1 ↔ b = true := by
  cases b <;> decide

theorem cmpi_sge_eq_one_iff (x y : BitVec 32) : IntOp.cmpi .sge x y = 1#1 ↔ y.toInt ≤ x.toInt := by
  show BitVec.ofBool (y.sle x) = 1#1 ↔ _
  rw [ofBool_eq_one_iff, BitVec.sle_eq_decide, decide_eq_true_eq]
theorem cmpi_sle_eq_one_iff (x y : BitVec 32) : IntOp.cmpi .sle x y = 1#1 ↔ x.toInt ≤ y.toInt := by
  show BitVec.ofBool (x.sle y) = 1#1 ↔ _
  rw [ofBool_eq_one_iff, BitVec.sle_eq_decide, decide_eq_true_eq]
theorem cmpi_slt_eq_one_iff (x y : BitVec 32) : IntOp.cmpi .slt x y = 1#1 ↔ x.toInt < y.toInt := by
  show BitVec.ofBool (x.slt y) = 1#1 ↔ _
  rw [ofBool_eq_one_iff, BitVec.slt_eq_decide, decide_eq_true_eq]
theorem slt_eq_true_iff (x y : BitVec 32) : x.slt y = true ↔ x.toInt < y.toInt := by
  rw [BitVec.slt_eq_decide, decide_eq_true_eq]

/-- The in-plane bit is set exactly for targets between 0 and 511; a bit that is not set is clear. -/
theorem andi_eq_one_iff (a b : BitVec 1) : IntOp.andi a b = 1#1 ↔ a = 1#1 ∧ b = 1#1 := by
  rcases BitVec.eq_zero_or_eq_one a with rfl | rfl <;> rcases BitVec.eq_zero_or_eq_one b with rfl | rfl <;> decide
theorem inPlane_eq_one_iff (t : BitVec 32) : inPlane t = 1#1 ↔ 0 ≤ t.toInt ∧ t.toInt ≤ 511 := by
  unfold inPlane
  rw [andi_eq_one_iff, cmpi_sge_eq_one_iff, cmpi_sle_eq_one_iff, BitVec.toInt_zero, toInt_511]

/-! ## The clamp -/

/-- The larger of 0 and a word, as an integer. -/
theorem maxsi_zero_toInt (t : BitVec 32) : (IntOp.maxsi 0#32 t).toInt = max 0 t.toInt := by
  unfold IntOp.maxsi
  split
  · next h => rw [slt_eq_true_iff, BitVec.toInt_zero] at h; rw [BitVec.toInt_zero]; omega
  · next h => rw [slt_eq_true_iff, BitVec.toInt_zero] at h; omega

/-- The smaller of 511 and a word, as an integer. -/
theorem minsi_511_toInt (t : BitVec 32) : (IntOp.minsi 511#32 t).toInt = min 511 t.toInt := by
  unfold IntOp.minsi
  split
  · next h => rw [slt_eq_true_iff, toInt_511] at h; rw [toInt_511]; omega
  · next h => rw [slt_eq_true_iff, toInt_511] at h; omega

theorem clampW_toInt (t : BitVec 32) : (clampW t).toInt = min 511 (max 0 t.toInt) := by
  unfold clampW; rw [minsi_511_toInt, maxsi_zero_toInt]

/-- The clamp fixes a target in the plane, and always lands in the plane. -/
theorem clampW_of_inPlane (t : BitVec 32) (h : inPlane t = 1#1) : clampW t = t := by
  obtain ⟨h0, h1⟩ := (inPlane_eq_one_iff t).mp h
  apply BitVec.eq_of_toInt_eq
  rw [clampW_toInt]; omega
theorem clampW_nonneg (t : BitVec 32) : 0 ≤ (clampW t).toInt := by
  rw [clampW_toInt]; omega
theorem clampW_le (t : BitVec 32) : (clampW t).toInt ≤ 511 := by
  rw [clampW_toInt]; omega

/-- A non-negative index is not wrapped. -/
theorem wrapW_of_nonneg (N v : BitVec 32) (h : 0 ≤ v.toInt) : wrapW N v = v := by
  unfold wrapW Scalar.select
  rw [if_neg]
  intro hc
  have hlt := (cmpi_slt_eq_one_iff v 0#32).mp hc
  rw [BitVec.toInt_zero] at hlt; omega

/-- The batch index `b` as a word is not wrapped and reads back as `b`. -/
theorem wrapW_batch (N : BitVec 32) (b : Fin 8) : (wrapW N (BitVec.ofNat 32 b.val)).toInt = (b.val : ℤ) := by
  have hb := b.isLt
  have e : (BitVec.ofNat 32 b.val).toInt = (b.val : ℤ) := by
    rw [BitVec.toInt_ofNat']
    exact Int.bmod_eq_of_le_mul_two (by omega) (by omega)
  rw [wrapW_of_nonneg N _ (by rw [e]; omega), e]

end Cert.Splat

end
-- ==== Proof.ScatterRead.lean ====
/-
  The two accumulating scatters of the splat, read at one element.

  On the extended reals an accumulating scatter leaves, at each element of its operand, that element plus the sum of
  the updates whose index vector names it; an update whose index vector leaves the operand contributes nothing.
  For the two index layouts that occur here the sum over update indices is written out over the updates'
  coordinates, the channel coordinate (the one window axis) already identified with the element's.

  Kernel side: operand (batch, row, column, channel) 8 × 512 × 512 × 16, updates (corner, batch, row, column,
  channel), index vectors (batch, row, column) on the last axis of a (corner, batch, row, column, 3) array.
  Reference side: operand (batch, channel, row, column) 8 × 16 × 515 × 515, updates (batch, row, column, channel),
  index vectors (batch, row, column) on the last axis of a (batch, row, column, 3) array.
-/
import proofs.«114343_j3066606649873_1_alg».proof.Proof.Gen.KernelIdeal
import proofs.«114343_j3066606649873_1_alg».proof.Proof.Gen.ReferenceIdeal
import Idealize.ShloMosaic.PureOps.Ideal
import Idealize.ShloMosaic.Lib.ValueIdx

noncomputable section

open scoped BigOperators

namespace Cert.Splat

open Idealize.ShloMosaic Idealize.ShloMosaic.ValueIdx

/-! ## Sums over index sets of rank 4 and 5, by coordinates -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the fivefold sum over the coordinates. -/
theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

/-- An update lands at operand index `i` exactly when, on every operand axis, its window's start plus its window
    coordinate is `i`'s coordinate: the range test of the result index is then met by `i` being an index. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    by_cases hb : ∀ a, 0 ≤ d.start j idx a + d.window j a ∧ d.start j idx a + d.window j a < s.size a
    · rw [dif_pos hb] at h
      have hi := Option.some.inj h
      intro a
      have hv := congrArg Fin.val (congrFun hi a)
      have h0 := (hb a).1
      simp only at hv
      omega
    · rw [dif_neg hb] at h
      exact absurd h (by simp)
  · intro h
    have hb : ∀ a, 0 ≤ d.start j idx a + d.window j a ∧ d.start j idx a + d.window j a < s.size a := by
      intro a
      have h1 := h a
      have h2 := (i a).isLt
      omega
    rw [dif_pos hb]
    congr 1
    funext a
    apply Fin.ext
    show (d.start j idx a + d.window j a).toNat = (i a).val
    have h1 := h a
    omega

/-- A sum over one coordinate of terms that vanish unless a side condition holds and the coordinate is `c0` is the
    term at `c0` under the side condition. -/
theorem sum_ite_and_eq {n : Nat} (P : Prop) [Decidable P] (c0 : Fin n) (f : Fin n → EReal) :
    (∑ c : Fin n, if P ∧ c = c0 then f c else 0) = if P then f c0 else 0 := by
  by_cases hP : P
  · simp [hP]
  · simp [hP]

/-! ## The kernel program's scatter record: where an update lands -/

/-- The kernel program's scatter record, by a short name. -/
abbrev dK := Cert.KernelIdeal.scatter_S8x512x512x16_S4x8x512x512x3_S4x8x512x512x16_4_012_012_4

/-- The scatter-indices index the kernel's update `(k, b, h, w, c)` reads component `t` of its start at is `(k, b, h, w, t)`. -/
theorem dK_siIdx (k : Fin 4) (b : Fin 8) (h w : Fin 512) (c : Fin 16) (t : Fin 3) (ht : t.val < dK.scatterDimsToOperandDims.length) :
    dK.siIdx (ix5 k b h w c) ⟨t.val, ht⟩ = ix5 k b h w t := by
  funext a
  refine Fin.ext ?_
  match a with
  | ⟨0, _⟩ => rfl
  | ⟨1, _⟩ => rfl
  | ⟨2, _⟩ => rfl
  | ⟨3, _⟩ => rfl
  | ⟨4, _⟩ => rfl

/-- The kernel scatter's window starts on the batch axis at the index vector's component 0 … -/
theorem dK_start0 {wd : Nat} (idx : IVec Cert.KernelIdeal.S4x8x512x512x3 wd) (k : Fin 4) (b : Fin 8) (h w : Fin 512) (c : Fin 16) :
    dK.start (ix5 k b h w c) idx (0 : Fin 4) = (idx (ix5 k b h w (0 : Fin 3))).toInt := by
  unfold ScatterDims.start
  rw [dif_pos (by decide)]
  exact congrArg (fun z => (idx z).toInt) (dK_siIdx k b h w c 0 (by decide))

/-- … on the row axis at component 1 … -/
theorem dK_start1 {wd : Nat} (idx : IVec Cert.KernelIdeal.S4x8x512x512x3 wd) (k : Fin 4) (b : Fin 8) (h w : Fin 512) (c : Fin 16) :
    dK.start (ix5 k b h w c) idx (1 : Fin 4) = (idx (ix5 k b h w (1 : Fin 3))).toInt := by
  unfold ScatterDims.start
  rw [dif_pos (by decide)]
  exact congrArg (fun z => (idx z).toInt) (dK_siIdx k b h w c 1 (by decide))

/-- … on the column axis at component 2 … -/
theorem dK_start2 {wd : Nat} (idx : IVec Cert.KernelIdeal.S4x8x512x512x3 wd) (k : Fin 4) (b : Fin 8) (h w : Fin 512) (c : Fin 16) :
    dK.start (ix5 k b h w c) idx (2 : Fin 4) = (idx (ix5 k b h w (2 : Fin 3))).toInt := by
  unfold ScatterDims.start
  rw [dif_pos (by decide)]
  exact congrArg (fun z => (idx z).toInt) (dK_siIdx k b h w c 2 (by decide))

/-- … and on the channel axis, which the index vector does not name, at 0. -/
theorem dK_start3 {wd : Nat} (idx : IVec Cert.KernelIdeal.S4x8x512x512x3 wd) (j : Cert.KernelIdeal.S4x8x512x512x16.Idx) :
    dK.start j idx (3 : Fin 4) = 0 := rfl

/-- The kernel scatter's window coordinate is 0 on the three inserted axes (the batch axis) … -/
theorem dK_window0 (j : Cert.KernelIdeal.S4x8x512x512x16.Idx) : dK.window j (0 : Fin 4) = 0 := rfl
/-- (the row axis) … -/
theorem dK_window1 (j : Cert.KernelIdeal.S4x8x512x512x16.Idx) : dK.window j (1 : Fin 4) = 0 := rfl
/-- (the column axis) … -/
theorem dK_window2 (j : Cert.KernelIdeal.S4x8x512x512x16.Idx) : dK.window j (2 : Fin 4) = 0 := rfl
/-- … and the update's channel coordinate on the channel axis. -/
theorem dK_window3 (k : Fin 4) (b : Fin 8) (h w : Fin 512) (c : Fin 16) : dK.window (ix5 k b h w c) (3 : Fin 4) = c.val := rfl

/-- The kernel's update `(k, b, h, w, c)` lands at element `(b0, p, q, c0)` exactly when its index vector reads
    `(b0, p, q)` and its channel is `c0`. -/
theorem dK_resultIdx?_iff {wd : Nat} (idx : IVec Cert.KernelIdeal.S4x8x512x512x3 wd) (k : Fin 4) (b : Fin 8) (h w : Fin 512) (c : Fin 16)
    (b0 : Fin 8) (p q : Fin 512) (c0 : Fin 16) :
    dK.resultIdx? (ix5 k b h w c) idx = some (ix4 b0 p q c0) ↔
      ((idx (ix5 k b h w (0 : Fin 3))).toInt = (b0.val : ℤ) ∧ (idx (ix5 k b h w (1 : Fin 3))).toInt = (p.val : ℤ)
        ∧ (idx (ix5 k b h w (2 : Fin 3))).toInt = (q.val : ℤ)) ∧ c = c0 := by
  rw [resultIdx?_eq_some_iff]
  constructor
  · intro H
    have H0 := H (0 : Fin 4)
    have H1 := H (1 : Fin 4)
    have H2 := H (2 : Fin 4)
    have H3 := H (3 : Fin 4)
    rw [dK_start0, dK_window0] at H0
    rw [dK_start1, dK_window1] at H1
    rw [dK_start2, dK_window2] at H2
    rw [dK_start3, dK_window3] at H3
    refine ⟨⟨?_, ?_, ?_⟩, Fin.ext ?_⟩
    · simpa using H0
    · simpa using H1
    · simpa using H2
    · have : ((c.val : ℤ)) = (c0.val : ℤ) := by simpa using H3
      exact_mod_cast this
  · rintro ⟨⟨h0, h1, h2⟩, rfl⟩ a
    match a with
    | ⟨0, _⟩ => rw [show (⟨0, _⟩ : Fin 4) = (0 : Fin 4) from rfl, dK_start0, dK_window0]; simpa using h0
    | ⟨1, _⟩ => rw [show (⟨1, _⟩ : Fin 4) = (1 : Fin 4) from rfl, dK_start1, dK_window1]; simpa using h1
    | ⟨2, _⟩ => rw [show (⟨2, _⟩ : Fin 4) = (2 : Fin 4) from rfl, dK_start2, dK_window2]; simpa using h2
    | ⟨3, _⟩ => rw [show (⟨3, _⟩ : Fin 4) = (3 : Fin 4) from rfl, dK_start3, dK_window3]; simp

/-! ## The reference program's scatter record: where an update lands -/

/-- The reference program's scatter record, by a short name. -/
abbrev dR := Cert.ReferenceIdeal.scatter_S8x16x515x515_S8x512x512x3_S8x512x512x16_3_023_023_3

/-- The scatter-indices index the reference's update `(b, h, w, c)` reads component `t` of its start at is `(b, h, w, t)`. -/
theorem dR_siIdx (b : Fin 8) (h w : Fin 512) (c : Fin 16) (t : Fin 3) (ht : t.val < dR.scatterDimsToOperandDims.length) :
    dR.siIdx (ix4 b h w c) ⟨t.val, ht⟩ = ix4 b h w t := by
  funext a
  refine Fin.ext ?_
  match a with
  | ⟨0, _⟩ => rfl
  | ⟨1, _⟩ => rfl
  | ⟨2, _⟩ => rfl
  | ⟨3, _⟩ => rfl

/-- The reference scatter's window starts on the batch axis at the index vector's component 0 … -/
theorem dR_start0 {wd : Nat} (idx : IVec Cert.ReferenceIdeal.S8x512x512x3 wd) (b : Fin 8) (h w : Fin 512) (c : Fin 16) :
    dR.start (ix4 b h w c) idx (0 : Fin 4) = (idx (ix4 b h w (0 : Fin 3))).toInt := by
  unfold ScatterDims.start
  rw [dif_pos (by decide)]
  exact congrArg (fun z => (idx z).toInt) (dR_siIdx b h w c 0 (by decide))

/-- … on the channel axis, which the index vector does not name, at 0 … -/
theorem dR_start1 {wd : Nat} (idx : IVec Cert.ReferenceIdeal.S8x512x512x3 wd) (j : Cert.ReferenceIdeal.S8x512x512x16.Idx) :
    dR.start j idx (1 : Fin 4) = 0 := rfl

/-- … on the row axis at component 1 … -/
theorem dR_start2 {wd : Nat} (idx : IVec Cert.ReferenceIdeal.S8x512x512x3 wd) (b : Fin 8) (h w : Fin 512) (c : Fin 16) :
    dR.start (ix4 b h w c) idx (2 : Fin 4) = (idx (ix4 b h w (1 : Fin 3))).toInt := by
  unfold ScatterDims.start
  rw [dif_pos (by decide)]
  exact congrArg (fun z => (idx z).toInt) (dR_siIdx b h w c 1 (by decide))

/-- … and on the column axis at component 2. -/
theorem dR_start3 {wd : Nat} (idx : IVec Cert.ReferenceIdeal.S8x512x512x3 wd) (b : Fin 8) (h w : Fin 512) (c : Fin 16) :
    dR.start (ix4 b h w c) idx (3 : Fin 4) = (idx (ix4 b h w (2 : Fin 3))).toInt := by
  unfold ScatterDims.start
  rw [dif_pos (by decide)]
  exact congrArg (fun z => (idx z).toInt) (dR_siIdx b h w c 2 (by decide))

/-- The reference scatter's window coordinate is 0 on the three inserted axes (the batch axis) … -/
theorem dR_window0 (j : Cert.ReferenceIdeal.S8x512x512x16.Idx) : dR.window j (0 : Fin 4) = 0 := rfl
/-- (the row axis) … -/
theorem dR_window2 (j : Cert.ReferenceIdeal.S8x512x512x16.Idx) : dR.window j (2 : Fin 4) = 0 := rfl
/-- (the column axis) … -/
theorem dR_window3 (j : Cert.ReferenceIdeal.S8x512x512x16.Idx) : dR.window j (3 : Fin 4) = 0 := rfl
/-- … and the update's channel coordinate on the channel axis. -/
theorem dR_window1 (b : Fin 8) (h w : Fin 512) (c : Fin 16) : dR.window (ix4 b h w c) (1 : Fin 4) = c.val := rfl

/-- The reference's update `(b, h, w, c)` lands at element `(b0, c0, p, q)` exactly when its index vector reads
    `(b0, p, q)` and its channel is `c0`. -/
theorem dR_resultIdx?_iff {wd : Nat} (idx : IVec Cert.ReferenceIdeal.S8x512x512x3 wd) (b : Fin 8) (h w : Fin 512) (c : Fin 16)
    (b0 : Fin 8) (c0 : Fin 16) (p q : Fin 515) :
    dR.resultIdx? (ix4 b h w c) idx = some (ix4 b0 c0 p q) ↔
      ((idx (ix4 b h w (0 : Fin 3))).toInt = (b0.val : ℤ) ∧ (idx (ix4 b h w (1 : Fin 3))).toInt = (p.val : ℤ)
        ∧ (idx (ix4 b h w (2 : Fin 3))).toInt = (q.val : ℤ)) ∧ c = c0 := by
  rw [resultIdx?_eq_some_iff]
  constructor
  · intro H
    have H0 := H (0 : Fin 4)
    have H1 := H (1 : Fin 4)
    have H2 := H (2 : Fin 4)
    have H3 := H (3 : Fin 4)
    rw [dR_start0, dR_window0] at H0
    rw [dR_start1, dR_window1] at H1
    rw [dR_start2, dR_window2] at H2
    rw [dR_start3, dR_window3] at H3
    refine ⟨⟨?_, ?_, ?_⟩, Fin.ext ?_⟩
    · simpa using H0
    · simpa using H2
    · simpa using H3
    · have : ((c.val : ℤ)) = (c0.val : ℤ) := by simpa using H1
      exact_mod_cast this
  · rintro ⟨⟨h0, h1, h2⟩, rfl⟩ a
    match a with
    | ⟨0, _⟩ => rw [show (⟨0, _⟩ : Fin 4) = (0 : Fin 4) from rfl, dR_start0, dR_window0]; simpa using h0
    | ⟨1, _⟩ => rw [show (⟨1, _⟩ : Fin 4) = (1 : Fin 4) from rfl, dR_start1, dR_window1]; simp
    | ⟨2, _⟩ => rw [show (⟨2, _⟩ : Fin 4) = (2 : Fin 4) from rfl, dR_start2, dR_window2]; simpa using h1
    | ⟨3, _⟩ => rw [show (⟨3, _⟩ : Fin 4) = (3 : Fin 4) from rfl, dR_start3, dR_window3]; simpa using h2

/-! ## The two scatters at one element -/

/-- The kernel program's scatter, at one element of its operand. -/
theorem scatterAddK_apply (x : Cert.KernelIdeal.S8x512x512x16.Idx → EReal) (idx : IVec Cert.KernelIdeal.S4x8x512x512x3 32)
    (upd : Cert.KernelIdeal.S4x8x512x512x16.Idx → EReal) (b0 : Fin 8) (p q : Fin 512) (c0 : Fin 16) :
    Host.scatterAdd (F := Ideal) (φ := .f32) Cert.KernelIdeal.scatter_S8x512x512x16_S4x8x512x512x3_S4x8x512x512x16_4_012_012_4 x idx upd (ix4 b0 p q c0)
      = x (ix4 b0 p q c0) + ∑ k : Fin 4, ∑ b : Fin 8, ∑ h : Fin 512, ∑ w : Fin 512,
          if (idx (ix5 k b h w (0 : Fin 3))).toInt = (b0.val : ℤ) ∧ (idx (ix5 k b h w (1 : Fin 3))).toInt = (p.val : ℤ)
              ∧ (idx (ix5 k b h w (2 : Fin 3))).toInt = (q.val : ℤ)
          then upd (ix5 k b h w c0) else 0 := by
  show x (ix4 b0 p q c0) + ∑ j ∈ Finset.univ.filter (fun j => dK.resultIdx? j idx = some (ix4 b0 p q c0)), upd j = _
  congr 1
  rw [Finset.sum_filter, sum_idx5]
  refine Finset.sum_congr rfl fun k _ => Finset.sum_congr rfl fun b _ => Finset.sum_congr rfl fun h _ =>
    Finset.sum_congr rfl fun w _ => ?_
  refine Eq.trans ?_ (sum_ite_and_eq _ c0 fun c => upd (ix5 k b h w c))
  refine Finset.sum_congr rfl fun c _ => ?_
  exact if_congr (dK_resultIdx?_iff idx k b h w c b0 p q c0) rfl rfl

/-- The reference program's scatter, at one element of its operand. -/
theorem scatterAddR_apply (x : Cert.ReferenceIdeal.S8x16x515x515.Idx → EReal) (idx : IVec Cert.ReferenceIdeal.S8x512x512x3 32)
    (upd : Cert.ReferenceIdeal.S8x512x512x16.Idx → EReal) (b0 : Fin 8) (c0 : Fin 16) (p q : Fin 515) :
    Host.scatterAdd (F := Ideal) (φ := .f32) Cert.ReferenceIdeal.scatter_S8x16x515x515_S8x512x512x3_S8x512x512x16_3_023_023_3 x idx upd (ix4 b0 c0 p q)
      = x (ix4 b0 c0 p q) + ∑ b : Fin 8, ∑ h : Fin 512, ∑ w : Fin 512,
          if (idx (ix4 b h w (0 : Fin 3))).toInt = (b0.val : ℤ) ∧ (idx (ix4 b h w (1 : Fin 3))).toInt = (p.val : ℤ)
              ∧ (idx (ix4 b h w (2 : Fin 3))).toInt = (q.val : ℤ)
          then upd (ix4 b h w c0) else 0 := by
  show x (ix4 b0 c0 p q) + ∑ j ∈ Finset.univ.filter (fun j => dR.resultIdx? j idx = some (ix4 b0 c0 p q)), upd j = _
  congr 1
  rw [Finset.sum_filter, sum_idx4]
  refine Finset.sum_congr rfl fun b _ => Finset.sum_congr rfl fun h _ => Finset.sum_congr rfl fun w _ => ?_
  refine Eq.trans ?_ (sum_ite_and_eq _ c0 fun c => upd (ix4 b h w c))
  refine Finset.sum_congr rfl fun c _ => ?_
  exact if_congr (dR_resultIdx?_iff idx b h w c b0 c0 p q) rfl rfl

end Cert.Splat

end
-- ==== Proof.KTail.lean ====
/-
  The kernel program's host tail computes the splat from the region's three arrays: the one accumulating scatter
  over (corner, batch, row, column) with clamped targets and zeroed out-of-plane weights leaves, at (b, p, q, c), the
  sum over the four corners of the contributions landing on (p, q); an out-of-plane corner adds x · 0 = 0 at its
  clamped cell.

  The proof reads the tail at one element (b, c, p, q). The transpose reads the scatter's result at (b, p, q, c);
  the scatter into zeros leaves there the sum of the updates whose index vector is (b, p, q). An update
  (corner k, batch b', row h, column w) has the index vector (b', clamped target row, clamped target column): the
  negative-index wrap does nothing to a batch number or to a clamped target. So only the updates of batch b count,
  and for each corner the sum over (h, w) of the counted updates is that corner's term of the splat, by the
  comparison of one corner of one source pixel (`corner_eq`).
-/
import proofs.«114343_j3066606649873_1_alg».proof.Proof.TailFn
import proofs.«114343_j3066606649873_1_alg».proof.Proof.Spec
import proofs.«114343_j3066606649873_1_alg».proof.Proof.Cells
import proofs.«114343_j3066606649873_1_alg».proof.Proof.ScatterRead
import Idealize.ShloMosaic.Lib.Pipeline.Value

noncomputable section

open scoped BigOperators

namespace Cert.KernelIdeal.Tail

open Idealize.ShloMosaic Idealize.ShloMosaic.ValueIdx
open Cert.KernelIdeal Cert.Splat

/-! ## The index vectors, read at one update -/

/-- The batch plane holds the batch number. -/
theorem batchIdx_apply (k : Fin 4) (b : Fin 8) (h w : Fin 512) :
    batchIdx (ix4 k b h w) = BitVec.ofNat 32 b.val := by
  unfold batchIdx
  refine (broadcastInDim_apply _ _ _ (ix4 k b h w) (ix4 (0 : Fin 1) b (0 : Fin 1) (0 : Fin 1)) ?_).trans ?_
  · intro a
    match a with
    | ⟨0, _⟩ => rfl
    | ⟨1, _⟩ => rfl
    | ⟨2, _⟩ => rfl
    | ⟨3, _⟩ => rfl
  · exact (broadcastInDim_apply _ _ _ _ (ix1 b) (fun a => match a with | ⟨0, _⟩ => rfl)).trans rfl

/-- The wrap of a plane is the scalar wrap of each entry. -/
theorem wrapPlane_apply (N : BitVec 32) (v : IVec S4x8x512x512 32) (k : Fin 4) (b : Fin 8) (h w : Fin 512) :
    wrapPlane N v (ix4 k b h w) = wrapW N (v (ix4 k b h w)) := rfl

/-- A plane laid out as a column is read at the plane's index. -/
theorem asColumn_apply (v : IVec S4x8x512x512 32) (k : Fin 4) (b : Fin 8) (h w : Fin 512) :
    asColumn v (ix5 k b h w (0 : Fin 1)) = v (ix4 k b h w) := by
  unfold asColumn
  refine broadcastInDim_apply _ _ _ _ (ix4 k b h w) ?_
  intro a
  match a with
  | ⟨0, _⟩ => rfl
  | ⟨1, _⟩ => rfl
  | ⟨2, _⟩ => rfl
  | ⟨3, _⟩ => rfl

/-- Component 0 of an update's index vector is its wrapped batch number. -/
theorem indexVectors_apply0 (R C : IVec S4x8x512x512 32) (k : Fin 4) (b : Fin 8) (h w : Fin 512) :
    indexVectors R C (ix5 k b h w (0 : Fin 3)) = wrapW 8#32 (BitVec.ofNat 32 b.val) := by
  unfold indexVectors
  refine (concatenate_apply_piece (t := S4x8x512x512x3) (4 : Fin 5)
    [⟨S4x8x512x512x1, asColumn (wrapPlane 8#32 batchIdx)⟩, ⟨S4x8x512x512x1, asColumn (wrapPlane 512#32 R)⟩,
      ⟨S4x8x512x512x1, asColumn (wrapPlane 512#32 C)⟩]
    Facts₀.concatenates_S4x8x512x512x1_S4x8x512x512x1_S4x8x512x512x1_S4x8x512x512x3_d4
    (ix5 k b h w (0 : Fin 3)) 0 (by show (0 : ℕ) < 3; decide) S4x8x512x512x1
    (asColumn (wrapPlane 8#32 batchIdx)) rfl rfl 0 rfl (ix5 k b h w (0 : Fin 1)) ?_ rfl).trans ?_
  · intro a ha
    match a, ha with
    | ⟨0, _⟩, _ => rfl
    | ⟨1, _⟩, _ => rfl
    | ⟨2, _⟩, _ => rfl
    | ⟨3, _⟩, _ => rfl
    | ⟨4, _⟩, ha => exact absurd rfl ha
  · rw [asColumn_apply, wrapPlane_apply, batchIdx_apply]

/-- Component 1 of an update's index vector is its wrapped target row. -/
theorem indexVectors_apply1 (R C : IVec S4x8x512x512 32) (k : Fin 4) (b : Fin 8) (h w : Fin 512) :
    indexVectors R C (ix5 k b h w (1 : Fin 3)) = wrapW 512#32 (R (ix4 k b h w)) := by
  unfold indexVectors
  refine (concatenate_apply_piece (t := S4x8x512x512x3) (4 : Fin 5)
    [⟨S4x8x512x512x1, asColumn (wrapPlane 8#32 batchIdx)⟩, ⟨S4x8x512x512x1, asColumn (wrapPlane 512#32 R)⟩,
      ⟨S4x8x512x512x1, asColumn (wrapPlane 512#32 C)⟩]
    Facts₀.concatenates_S4x8x512x512x1_S4x8x512x512x1_S4x8x512x512x1_S4x8x512x512x3_d4
    (ix5 k b h w (1 : Fin 3)) 1 (by show (1 : ℕ) < 3; decide) S4x8x512x512x1
    (asColumn (wrapPlane 512#32 R)) rfl rfl 1 rfl (ix5 k b h w (0 : Fin 1)) ?_ rfl).trans ?_
  · intro a ha
    match a, ha with
    | ⟨0, _⟩, _ => rfl
    | ⟨1, _⟩, _ => rfl
    | ⟨2, _⟩, _ => rfl
    | ⟨3, _⟩, _ => rfl
    | ⟨4, _⟩, ha => exact absurd rfl ha
  · rw [asColumn_apply, wrapPlane_apply]

/-- Component 2 of an update's index vector is its wrapped target column. -/
theorem indexVectors_apply2 (R C : IVec S4x8x512x512 32) (k : Fin 4) (b : Fin 8) (h w : Fin 512) :
    indexVectors R C (ix5 k b h w (2 : Fin 3)) = wrapW 512#32 (C (ix4 k b h w)) := by
  unfold indexVectors
  refine (concatenate_apply_piece (t := S4x8x512x512x3) (4 : Fin 5)
    [⟨S4x8x512x512x1, asColumn (wrapPlane 8#32 batchIdx)⟩, ⟨S4x8x512x512x1, asColumn (wrapPlane 512#32 R)⟩,
      ⟨S4x8x512x512x1, asColumn (wrapPlane 512#32 C)⟩]
    Facts₀.concatenates_S4x8x512x512x1_S4x8x512x512x1_S4x8x512x512x1_S4x8x512x512x3_d4
    (ix5 k b h w (2 : Fin 3)) 2 (by show (2 : ℕ) < 3; decide) S4x8x512x512x1
    (asColumn (wrapPlane 512#32 C)) rfl rfl 2 rfl (ix5 k b h w (0 : Fin 1)) ?_ rfl).trans ?_
  · intro a ha
    match a, ha with
    | ⟨0, _⟩, _ => rfl
    | ⟨1, _⟩, _ => rfl
    | ⟨2, _⟩, _ => rfl
    | ⟨3, _⟩, _ => rfl
    | ⟨4, _⟩, ha => exact absurd rfl ha
  · rw [asColumn_apply, wrapPlane_apply]

/-! ## One corner of one source pixel -/

/-- One corner's contribution, as the scatter holds it and as the splat states it: the update lands on (p, q) and
    is non-zero only where the unclamped target is (p, q); where the target is out of the plane the update is
    x · 0 = 0 wherever the clamp puts it, and no in-plane (p, q) is the target. -/
theorem corner_eq (k : Fin 4) (gI gJ x : EReal) (p q : Fin 512) :
    (if (clampW (tcell gI (sI k))).toInt = (p.val : ℤ) ∧ (clampW (tcell gJ (sJ k))).toInt = (q.val : ℤ)
      then x * Scalar.select (IntOp.andi (inPlane (tcell gI (sI k))) (inPlane (tcell gJ (sJ k))))
        (wgt gI (aI k) * wgt gJ (aJ k)) c0 else 0)
    = (if (cell gI).toInt + (aI k).toInt = (p.val : ℤ) + 1 ∧ (cell gJ).toInt + (aJ k).toInt = (q.val : ℤ) + 1
      then x * (wgt gI (aI k) * wgt gJ (aJ k)) else 0) := by
  have hp := p.isLt
  have hq := q.isLt
  have tI := tcell_sI_toInt gI k
  have tJ := tcell_sJ_toInt gJ k
  by_cases hI : inPlane (tcell gI (sI k)) = 1#1
  · by_cases hJ : inPlane (tcell gJ (sJ k)) = 1#1
    · rw [clampW_of_inPlane _ hI, clampW_of_inPlane _ hJ, hI, hJ]
      have e : IntOp.andi (1#1) (1#1) = 1#1 := by decide
      rw [e, select_one, tI, tJ]
      refine if_congr ?_ rfl rfl
      constructor <;> rintro ⟨h1, h2⟩ <;> constructor <;> omega
    · have hz : IntOp.andi (inPlane (tcell gI (sI k))) (inPlane (tcell gJ (sJ k))) = 0#1 :=
        eq_zero_of_ne_one (fun h => hJ ((andi_eq_one_iff _ _).mp h).2)
      rw [hz, select_zero, c0_eq, mul_zero, ite_self]
      rw [if_neg]
      rintro ⟨_, h2⟩
      exact hJ ((inPlane_eq_one_iff _).mpr (by omega))
  · have hz : IntOp.andi (inPlane (tcell gI (sI k))) (inPlane (tcell gJ (sJ k))) = 0#1 :=
      eq_zero_of_ne_one (fun h => hI ((andi_eq_one_iff _ _).mp h).1)
    rw [hz, select_zero, c0_eq, mul_zero, ite_self]
    rw [if_neg]
    rintro ⟨h1, _⟩
    exact hI ((inPlane_eq_one_iff _).mpr (by omega))

/-! ## The tail at one element -/

/-- The transpose puts the channel second: the result at (b, c, p, q) is the scatter's result at (b, p, q, c). -/
theorem tailFn_apply (U : FVec Ideal S4x8x512x512x16 .f32) (R C : IVec S4x8x512x512 32) (b0 : Fin 8) (c : Fin 16)
    (p q : Fin 512) :
    tailFn U R C (ix4 b0 c p q)
      = Host.scatterAdd scatter_S8x512x512x16_S4x8x512x512x3_S4x8x512x512x16_4_012_012_4
          (broadcastInDim S8x512x512x16 ![] Facts₀.bcast_S_S8x512x512x16 (constant (F := Ideal) S_ .f32 0x00000000#32))
          (indexVectors R C) U (ix4 b0 p q c) := by
  unfold tailFn
  refine transpose_apply _ _ _ (ix4 b0 c p q) (ix4 b0 p q c) ?_
  intro a
  match a with
  | ⟨0, _⟩ => rfl
  | ⟨1, _⟩ => rfl
  | ⟨2, _⟩ => rfl
  | ⟨3, _⟩ => rfl

/-- The array the scatter accumulates into is zero everywhere. -/
theorem zero_operand (b0 : Fin 8) (p q : Fin 512) (c : Fin 16) :
    broadcastInDim S8x512x512x16 ![] Facts₀.bcast_S_S8x512x512x16 (constant (F := Ideal) S_ .f32 0x00000000#32)
      (ix4 b0 p q c) = 0 := c0_eq

/-- Corner `k`'s contribution from the source pixel (b, h, w) to the result at (b, c, p, q), as the splat states it. -/
def contrib (X : SX.Idx → EReal) (G : SG.Idx → EReal) (k : Fin 4) (b : Fin 8) (c : Fin 16) (h w p q : Fin 512) : EReal :=
  if (cell (G (ix4 b h w (0 : Fin 2)))).toInt + (aI k).toInt = (p.val : ℤ) + 1
      ∧ (cell (G (ix4 b h w (1 : Fin 2)))).toInt + (aJ k).toInt = (q.val : ℤ) + 1
  then X (ix4 b c h w) * (wgt (G (ix4 b h w (0 : Fin 2))) (aI k) * wgt (G (ix4 b h w (1 : Fin 2))) (aJ k))
  else 0

/-- A corner's term of the splat is the sum of its contributions over the source pixels of the batch. -/
theorem term_apply (X : SX.Idx → EReal) (G : SG.Idx → EReal) (k : Fin 4) (b0 : Fin 8) (c : Fin 16) (p q : Fin 512) :
    term X G k (ix4 b0 c p q) = ∑ h : Fin 512, ∑ w : Fin 512, contrib X G k b0 c h w p q := rfl

/-- One update of the scatter, seen from the element (b0, p, q, c): it is counted when its index vector is
    (b0, p, q). The batch component is the update's own batch; the row and column components are clamped, hence
    non-negative, hence not wrapped; and then the corner lemma applies. -/
theorem summand_eq (X : SX.Idx → EReal) (G : SG.Idx → EReal) (k : Fin 4) (b b0 : Fin 8) (c : Fin 16) (h w p q : Fin 512) :
    (if (indexVectors (rowK (plane G 0)) (colK (plane G 1)) (ix5 k b h w (0 : Fin 3))).toInt = (b0.val : ℤ)
        ∧ (indexVectors (rowK (plane G 0)) (colK (plane G 1)) (ix5 k b h w (1 : Fin 3))).toInt = (p.val : ℤ)
        ∧ (indexVectors (rowK (plane G 0)) (colK (plane G 1)) (ix5 k b h w (2 : Fin 3))).toInt = (q.val : ℤ)
      then updK X (plane G 0) (plane G 1) (ix5 k b h w c) else 0)
    = if b = b0 then contrib X G k b c h w p q else 0 := by
  rw [indexVectors_apply0, indexVectors_apply1, indexVectors_apply2, wrapW_batch]
  have hR : rowK (plane G 0) (ix4 k b h w) = clampW (tcell (G (ix4 b h w (0 : Fin 2))) (sI k)) := rfl
  have hC : colK (plane G 1) (ix4 k b h w) = clampW (tcell (G (ix4 b h w (1 : Fin 2))) (sJ k)) := rfl
  have hU : updK X (plane G 0) (plane G 1) (ix5 k b h w c)
      = X (ix4 b c h w) * Scalar.select (IntOp.andi (inPlane (tcell (G (ix4 b h w (0 : Fin 2))) (sI k)))
            (inPlane (tcell (G (ix4 b h w (1 : Fin 2))) (sJ k))))
          (wgt (G (ix4 b h w (0 : Fin 2))) (aI k) * wgt (G (ix4 b h w (1 : Fin 2))) (aJ k)) c0 := rfl
  rw [hR, hC, hU, wrapW_of_nonneg _ _ (clampW_nonneg _), wrapW_of_nonneg _ _ (clampW_nonneg _)]
  by_cases hb : b = b0
  · subst hb
    rw [if_pos rfl]
    simp only [true_and]
    exact corner_eq k _ _ _ p q
  · rw [if_neg hb, if_neg]
    rintro ⟨h0, _⟩
    exact hb (Fin.ext (by exact_mod_cast h0))

/-- One corner: the updates counted at (b0, p, q, c) are those of batch b0, and they add up to the corner's term. -/
theorem corner_sum (X : SX.Idx → EReal) (G : SG.Idx → EReal) (k : Fin 4) (b0 : Fin 8) (c : Fin 16) (p q : Fin 512) :
    (∑ b : Fin 8, ∑ h : Fin 512, ∑ w : Fin 512,
      if (indexVectors (rowK (plane G 0)) (colK (plane G 1)) (ix5 k b h w (0 : Fin 3))).toInt = (b0.val : ℤ)
          ∧ (indexVectors (rowK (plane G 0)) (colK (plane G 1)) (ix5 k b h w (1 : Fin 3))).toInt = (p.val : ℤ)
          ∧ (indexVectors (rowK (plane G 0)) (colK (plane G 1)) (ix5 k b h w (2 : Fin 3))).toInt = (q.val : ℤ)
        then updK X (plane G 0) (plane G 1) (ix5 k b h w c) else 0)
    = term X G k (ix4 b0 c p q) := by
  rw [term_apply]
  calc _ = ∑ b : Fin 8, ∑ h : Fin 512, ∑ w : Fin 512, (if b = b0 then contrib X G k b c h w p q else 0) :=
        Finset.sum_congr rfl fun b _ => Finset.sum_congr rfl fun h _ => Finset.sum_congr rfl fun w _ =>
          summand_eq X G k b b0 c h w p q
    _ = ∑ h : Fin 512, ∑ w : Fin 512, contrib X G k b0 c h w p q := by
        rw [Finset.sum_eq_single b0]
        · exact Finset.sum_congr rfl fun h _ => Finset.sum_congr rfl fun w _ => if_pos rfl
        · intro b _ hb
          exact Finset.sum_eq_zero fun h _ => Finset.sum_eq_zero fun w _ => if_neg hb
        · intro hn
          exact absurd (Finset.mem_univ b0) hn

/-- The tail at one element is the splat there: the four corners' sums are the four terms. -/
theorem tail_spec_at (X : SX.Idx → EReal) (G : SG.Idx → EReal) (b0 : Fin 8) (c : Fin 16) (p q : Fin 512) :
    tailFn (updK X (plane G 0) (plane G 1)) (rowK (plane G 0)) (colK (plane G 1)) (ix4 b0 c p q)
      = Spec X G (ix4 b0 c p q) := by
  rw [tailFn_apply, scatterAddK_apply, zero_operand, zero_add, Fin.sum_univ_four,
    corner_sum X G 0, corner_sum X G 1, corner_sum X G 2, corner_sum X G 3]
  rfl

/-- The tail applied to the region's arrays is the splat. -/
theorem tail_spec (X : SX.Idx → EReal) (G : SG.Idx → EReal) :
    tailFn (updK X (plane G 0) (plane G 1)) (rowK (plane G 0)) (colK (plane G 1)) = Spec X G := by
  funext i
  rw [eq_ix4 i]
  exact tail_spec_at X G (i 0) (i 1) (i 2) (i 3)

end Cert.KernelIdeal.Tail

end
-- ==== Proof.RefBase.lean ====
/-
  The reference program's shared quantities, read at one index: the two clipped pixel coordinates of a source pixel,
  their integer cells, the values with the channel axis moved last, and the batch-number plane each of the four
  scatter-adds uses as the first piece of its index.
-/
import proofs.«114343_j3066606649873_1_alg».proof.Proof.Gen.ReferenceIdeal.Read
import proofs.«114343_j3066606649873_1_alg».proof.Proof.Spec
import proofs.«114343_j3066606649873_1_alg».proof.Proof.Cells
import Idealize.ShloMosaic.Lib.ValueIdx

noncomputable section

namespace Cert.ReferenceIdeal.RefValue

open Cert.ReferenceIdeal Cert.ReferenceIdeal.Read Cert.Splat Idealize.ShloMosaic Idealize.ShloMosaic.ValueIdx

/-! ## Where the layout operations read

  A slice of the last axis at 0 (or 1) followed by dropping that axis reads the grid at (b, h, w, 0) (or 1): the
  row-major position of (b, h, w) among 8 · 512 · 512 splits back into b, h, w. -/

theorem idx_rowCoord (b : Fin 8) (h w : Fin 512) :
    idx_main_v4 (idx_main_v5 (ix3 b h w)) = ix4 b h w (0 : Fin 2) := by
  funext a
  apply Fin.ext
  have hb := b.isLt; have hh := h.isLt; have hw := w.isLt
  match a with
  | ⟨0, _⟩ => show ((b.val * 512 + h.val) * 512 + w.val) / 262144 = b.val; omega
  | ⟨1, _⟩ => show ((b.val * 512 + h.val) * 512 + w.val) / 512 % 512 = h.val; omega
  | ⟨2, _⟩ => show ((b.val * 512 + h.val) * 512 + w.val) / 1 % 512 = w.val; omega
  | ⟨3, _⟩ => rfl

theorem idx_colCoord (b : Fin 8) (h w : Fin 512) :
    idx_main_v11 (idx_main_v12 (ix3 b h w)) = ix4 b h w (1 : Fin 2) := by
  funext a
  apply Fin.ext
  have hb := b.isLt; have hh := h.isLt; have hw := w.isLt
  match a with
  | ⟨0, _⟩ => show ((b.val * 512 + h.val) * 512 + w.val) / 262144 = b.val; omega
  | ⟨1, _⟩ => show ((b.val * 512 + h.val) * 512 + w.val) / 512 % 512 = h.val; omega
  | ⟨2, _⟩ => show ((b.val * 512 + h.val) * 512 + w.val) / 1 % 512 = w.val; omega
  | ⟨3, _⟩ => rfl

/-- The transpose [0, 2, 3, 1] reads the values at (b, c, h, w). -/
theorem idx_chanLast (b : Fin 8) (h w : Fin 512) (c : Fin 16) :
    idx_main_v25 (ix4 b h w c) = ix4 b c h w := by
  funext a
  match a with
  | ⟨0, _⟩ => rfl
  | ⟨1, _⟩ => rfl
  | ⟨2, _⟩ => rfl
  | ⟨3, _⟩ => rfl

/-! ## The clipped coordinates and their cells -/

/-- The row coordinate: min 513 (max 0 ((g + 1) · ½ · 512 + 1)) of the grid's coordinate 0. -/
theorem gI_apply (x1 : (⟨S8x512x512x2, .f32⟩ : BufTy).Contents (Elt Ideal)) (b : Fin 8) (h w : Fin 512) :
    val_main_v10 (F := Ideal) x1 (ix3 b h w) = coord (x1 (ix4 b h w (0 : Fin 2))) := by
  rw [val_main_v10_apply, val_main_call0_v4_apply, val_main_call0_v3_apply, val_main_cst_4_apply,
    val_main_call0_v2_apply, val_main_call0_v1_apply, val_main_call0_v0_apply, val_main_cst_3_apply,
    val_main_v9_apply, val_main_v8_apply, val_main_cst_2_apply, val_main_v7_apply, val_main_v6_apply, val_main_cst_1_apply,
    val_main_v5_apply, val_main_v4_apply, val_main_v3_apply, val_main_v2_apply, val_main_cst_0_apply,
    val_main_v1_apply, val_main_v0_apply, val_main_cst_apply, idx_rowCoord]
  rfl

/-- The column coordinate: the same of the grid's coordinate 1. -/
theorem gJ_apply (x1 : (⟨S8x512x512x2, .f32⟩ : BufTy).Contents (Elt Ideal)) (b : Fin 8) (h w : Fin 512) :
    val_main_v17 (F := Ideal) x1 (ix3 b h w) = coord (x1 (ix4 b h w (1 : Fin 2))) := by
  rw [val_main_v17_apply, val_main_call1_v4_apply, val_main_call1_v3_apply, val_main_cst_8_apply,
    val_main_call1_v2_apply, val_main_call1_v1_apply, val_main_call1_v0_apply, val_main_cst_7_apply,
    val_main_v16_apply, val_main_v15_apply, val_main_cst_6_apply, val_main_v14_apply, val_main_v13_apply, val_main_cst_5_apply,
    val_main_v12_apply, val_main_v11_apply, val_main_v3_apply, val_main_v2_apply, val_main_cst_0_apply,
    val_main_v1_apply, val_main_v0_apply, val_main_cst_apply, idx_colCoord]
  rfl

/-- The row cell: the floor of the row coordinate as a signed word. -/
theorem fI_apply (x1 : (⟨S8x512x512x2, .f32⟩ : BufTy).Contents (Elt Ideal)) (b : Fin 8) (h w : Fin 512) :
    val_main_v19 (F := Ideal) x1 (ix3 b h w) = cell (x1 (ix4 b h w (0 : Fin 2))) := by
  rw [val_main_v19_apply, val_main_v18_apply, gI_apply]
  rfl

/-- The column cell. -/
theorem fJ_apply (x1 : (⟨S8x512x512x2, .f32⟩ : BufTy).Contents (Elt Ideal)) (b : Fin 8) (h w : Fin 512) :
    val_main_v21 (F := Ideal) x1 (ix3 b h w) = cell (x1 (ix4 b h w (1 : Fin 2))) := by
  rw [val_main_v21_apply, val_main_v20_apply, gJ_apply]
  rfl

/-! ## The values, channel last -/

theorem xT_apply (x0 : (⟨S8x16x512x512, .f32⟩ : BufTy).Contents (Elt Ideal)) (b : Fin 8) (h w : Fin 512) (c : Fin 16) :
    val_main_v25 (F := Ideal) x0 (ix4 b h w c) = x0 (ix4 b c h w) := by
  rw [val_main_v25_apply, idx_chanLast]

/-! ## The batch-number planes

  Each scatter-add's first index piece is the batch number b as a word, passed through the negative-index wrap
  with the extent 8 and spread over the plane. -/

theorem batch66_apply (b : Fin 8) (h w : Fin 512) :
    val_main_v66 (F := Ideal) (ix4 b h w (0 : Fin 1)) = wrapW 8#32 (BitVec.ofNat 32 b.val) := by
  rw [val_main_v66_apply, val_main_v65_apply, val_main_v54_apply, val_main_v51_apply, val_main_v53_apply,
    val_main_v50_apply, val_main_c_15_apply, val_main_v52_apply, val_main_c_16_apply, val_main_v24_apply, val_main_v23_apply]
  rfl

theorem batch103_apply (b : Fin 8) (h w : Fin 512) :
    val_main_v103 (F := Ideal) (ix4 b h w (0 : Fin 1)) = wrapW 8#32 (BitVec.ofNat 32 b.val) := by
  rw [val_main_v103_apply, val_main_v102_apply, val_main_v91_apply, val_main_v88_apply, val_main_v90_apply,
    val_main_v87_apply, val_main_c_25_apply, val_main_v89_apply, val_main_c_26_apply, val_main_v24_apply, val_main_v23_apply]
  rfl

theorem batch148_apply (b : Fin 8) (h w : Fin 512) :
    val_main_v148 (F := Ideal) (ix4 b h w (0 : Fin 1)) = wrapW 8#32 (BitVec.ofNat 32 b.val) := by
  rw [val_main_v148_apply, val_main_v147_apply, val_main_v136_apply, val_main_v133_apply, val_main_v135_apply,
    val_main_v132_apply, val_main_c_37_apply, val_main_v134_apply, val_main_c_38_apply, val_main_v24_apply, val_main_v23_apply]
  rfl

theorem batch185_apply (b : Fin 8) (h w : Fin 512) :
    val_main_v185 (F := Ideal) (ix4 b h w (0 : Fin 1)) = wrapW 8#32 (BitVec.ofNat 32 b.val) := by
  rw [val_main_v185_apply, val_main_v184_apply, val_main_v173_apply, val_main_v170_apply, val_main_v172_apply,
    val_main_v169_apply, val_main_c_47_apply, val_main_v171_apply, val_main_c_48_apply, val_main_v24_apply, val_main_v23_apply]
  rfl

end Cert.ReferenceIdeal.RefValue

end
-- ==== Proof.RefCorner01.lean ====
/-
  The reference's first two scatters, corners (di, dj) = (0, 0) and (0, 1): the index vector of pixel (b, h, w) is
  (b, cell g_i + di, cell g_j + dj) after the negative-index wrap, which changes nothing because a cell is between
  0 and 513; the update is the transposed value times the product of the two one-axis weights. Summed over the
  pixels whose index vector names the padded cell (p + 1, q + 1) of batch b0, this is the corner's term of the splat.
-/
import proofs.«114343_j3066606649873_1_alg».proof.Proof.Gen.ReferenceIdeal.Read
import proofs.«114343_j3066606649873_1_alg».proof.Proof.Spec
import proofs.«114343_j3066606649873_1_alg».proof.Proof.Cells
import proofs.«114343_j3066606649873_1_alg».proof.Proof.RefBase
import Idealize.ShloMosaic.Lib.ValueIdx
import Idealize.ShloMosaic.Lib.Pipeline.Value

noncomputable section

open scoped BigOperators

namespace Cert.ReferenceIdeal.RefValue

open Idealize.ShloMosaic Idealize.ShloMosaic.ValueIdx
open Cert.ReferenceIdeal Cert.ReferenceIdeal.Read Cert.Splat

/-! # The lemmas the two corners are read down by, in a namespace of their own -/

namespace C01

/-! ## The index vectors of corner (0, 0), component by component -/

/-- Component 0 of the joined index array is the batch plane. -/
theorem v69_at0 (x1 : (⟨S8x512x512x2, .f32⟩ : BufTy).Contents (Elt Ideal)) (b : Fin 8) (h w : Fin 512) :
    val_main_v69 (F := Ideal) x1 (ix4 b h w (0 : Fin 3)) = val_main_v66 (F := Ideal) (ix4 b h w (0 : Fin 1)) := by
  unfold val_main_v69
  refine concatenate_apply_piece _ _ _ (ix4 b h w (0 : Fin 3)) 0 (by simp) S8x512x512x1 _ rfl rfl 0 rfl
    (ix4 b h w (0 : Fin 1)) (fun a ha => ?_) rfl
  match a with
  | ⟨0, _⟩ => rfl
  | ⟨1, _⟩ => rfl
  | ⟨2, _⟩ => rfl
  | ⟨3, _⟩ => exact absurd rfl ha

/-- Component 1 is the wrapped row plane. -/
theorem v69_at1 (x1 : (⟨S8x512x512x2, .f32⟩ : BufTy).Contents (Elt Ideal)) (b : Fin 8) (h w : Fin 512) :
    val_main_v69 (F := Ideal) x1 (ix4 b h w (1 : Fin 3)) = val_main_v67 (F := Ideal) x1 (ix4 b h w (0 : Fin 1)) := by
  unfold val_main_v69
  refine concatenate_apply_piece _ _ _ (ix4 b h w (1 : Fin 3)) 1 (by simp) S8x512x512x1 _ rfl rfl 1 rfl
    (ix4 b h w (0 : Fin 1)) (fun a ha => ?_) rfl
  match a with
  | ⟨0, _⟩ => rfl
  | ⟨1, _⟩ => rfl
  | ⟨2, _⟩ => rfl
  | ⟨3, _⟩ => exact absurd rfl ha

/-- Component 2 is the wrapped column plane. -/
theorem v69_at2 (x1 : (⟨S8x512x512x2, .f32⟩ : BufTy).Contents (Elt Ideal)) (b : Fin 8) (h w : Fin 512) :
    val_main_v69 (F := Ideal) x1 (ix4 b h w (2 : Fin 3)) = val_main_v68 (F := Ideal) x1 (ix4 b h w (0 : Fin 1)) := by
  unfold val_main_v69
  refine concatenate_apply_piece _ _ _ (ix4 b h w (2 : Fin 3)) 2 (by simp) S8x512x512x1 _ rfl rfl 2 rfl
    (ix4 b h w (0 : Fin 1)) (fun a ha => ?_) rfl
  match a with
  | ⟨0, _⟩ => rfl
  | ⟨1, _⟩ => rfl
  | ⟨2, _⟩ => rfl
  | ⟨3, _⟩ => exact absurd rfl ha

/-! ## The planes under the broadcasts -/

/-- Dropping the unit last axis of `(b, h, w, 0)` gives `(b, h, w)`. -/
theorem idx_drop1 (b : Fin 8) (h w : Fin 512) : idx_main_v67 (ix4 b h w (0 : Fin 1)) = ix3 b h w := by
  funext a
  match a with
  | ⟨0, _⟩ => rfl
  | ⟨1, _⟩ => rfl
  | ⟨2, _⟩ => rfl

/-- The same for the other broadcasts of a plane onto a unit last axis. -/
theorem idx_drop1_v68 (b : Fin 8) (h w : Fin 512) : idx_main_v68 (ix4 b h w (0 : Fin 1)) = ix3 b h w := idx_drop1 b h w
theorem idx_drop1_v43 (b : Fin 8) (h w : Fin 512) : idx_main_v43 (ix4 b h w (0 : Fin 1)) = ix3 b h w := idx_drop1 b h w
theorem idx_drop1_v104 (b : Fin 8) (h w : Fin 512) : idx_main_v104 (ix4 b h w (0 : Fin 1)) = ix3 b h w := idx_drop1 b h w
theorem idx_drop1_v105 (b : Fin 8) (h w : Fin 512) : idx_main_v105 (ix4 b h w (0 : Fin 1)) = ix3 b h w := idx_drop1 b h w
theorem idx_drop1_v80 (b : Fin 8) (h w : Fin 512) : idx_main_v80 (ix4 b h w (0 : Fin 1)) = ix3 b h w := idx_drop1 b h w

/-- Spreading over the 16 channels reads `(b, h, w, 0)` at every channel. -/
theorem idx_chan0 (b : Fin 8) (h w : Fin 512) (c : Fin 16) : idx_main_v48 (ix4 b h w c) = ix4 b h w (0 : Fin 1) := by
  funext a
  match a with
  | ⟨0, _⟩ => rfl
  | ⟨1, _⟩ => rfl
  | ⟨2, _⟩ => rfl
  | ⟨3, _⟩ => rfl

theorem idx_chan0_v85 (b : Fin 8) (h w : Fin 512) (c : Fin 16) : idx_main_v85 (ix4 b h w c) = ix4 b h w (0 : Fin 1) :=
  idx_chan0 b h w c

/-- The negative-index wrap with extent 515 leaves a cell moved by 0 or 1 alone: its signed value is the cell's
    plus the move's. Rows … -/
theorem wrap_row_toInt (g : EReal) (k : Fin 4) :
    (wrapW 515#32 (IntOp.addi (cell g) (aI k))).toInt = (cell g).toInt + (aI k).toInt := by
  have h0 : 0 ≤ (IntOp.addi (cell g) (aI k)).toInt := by
    rw [addi_aI_toInt]
    have h1 := cell_nonneg g
    have h2 := (aI_range k).1
    omega
  rw [wrapW_of_nonneg _ _ h0, addi_aI_toInt]

/-- … and columns. -/
theorem wrap_col_toInt (g : EReal) (k : Fin 4) :
    (wrapW 515#32 (IntOp.addi (cell g) (aJ k))).toInt = (cell g).toInt + (aJ k).toInt := by
  have h0 : 0 ≤ (IntOp.addi (cell g) (aJ k)).toInt := by
    rw [addi_aJ_toInt]
    have h1 := cell_nonneg g
    have h2 := (aJ_range k).1
    omega
  rw [wrapW_of_nonneg _ _ h0, addi_aJ_toInt]

/-- The words of the four corners' moves. -/
theorem aI_0 : aI 0 = 0#32 := rfl
theorem aJ_0 : aJ 0 = 0#32 := rfl
theorem aI_1 : aI 1 = 0#32 := rfl
theorem aJ_1 : aJ 1 = 1#32 := rfl

/-- Corner (0, 0)'s wrapped row plane at a pixel: the wrap of the row cell moved by 0. -/
theorem row0_apply (x1 : (⟨S8x512x512x2, .f32⟩ : BufTy).Contents (Elt Ideal)) (b : Fin 8) (h w : Fin 512) :
    val_main_v59 (F := Ideal) x1 (ix3 b h w) = wrapW 515#32 (IntOp.addi (cell (x1 (ix4 b h w (0 : Fin 2)))) (aI 0)) := by
  rw [val_main_v59_apply, val_main_v56_apply, val_main_v58_apply, val_main_v55_apply, val_main_v57_apply,
    val_main_c_17_apply, val_main_c_18_apply, val_main_v45_apply, val_main_v44_apply, val_main_c_13_apply, fI_apply]
  rfl

/-- Corner (0, 0)'s wrapped column plane at a pixel. -/
theorem col0_apply (x1 : (⟨S8x512x512x2, .f32⟩ : BufTy).Contents (Elt Ideal)) (b : Fin 8) (h w : Fin 512) :
    val_main_v64 (F := Ideal) x1 (ix3 b h w) = wrapW 515#32 (IntOp.addi (cell (x1 (ix4 b h w (1 : Fin 2)))) (aJ 0)) := by
  rw [val_main_v64_apply, val_main_v61_apply, val_main_v63_apply, val_main_v60_apply, val_main_v62_apply,
    val_main_c_19_apply, val_main_c_20_apply, val_main_v47_apply, val_main_v46_apply, val_main_c_14_apply, fJ_apply]
  rfl

/-! ## The one-axis weights -/

/-- The row weight toward the cell itself (di = 0). -/
theorem wI0_apply (x1 : (⟨S8x512x512x2, .f32⟩ : BufTy).Contents (Elt Ideal)) (b : Fin 8) (h w : Fin 512) :
    val_main_v33 (F := Ideal) x1 (ix3 b h w) = wgt (x1 (ix4 b h w (0 : Fin 2))) (aI 0) := by
  rw [val_main_v33_apply, val_main_call2_v0_apply, val_main_call2_cst_apply, val_main_v32_apply, val_main_v31_apply,
    val_main_cst_10_apply, val_main_v30_apply, val_main_v29_apply, val_main_v28_apply, val_main_v27_apply,
    val_main_v26_apply, val_main_c_apply, gI_apply, fI_apply]
  rfl

/-- The column weight toward the cell itself (dj = 0). -/
theorem wJ0_apply (x1 : (⟨S8x512x512x2, .f32⟩ : BufTy).Contents (Elt Ideal)) (b : Fin 8) (h w : Fin 512) :
    val_main_v41 (F := Ideal) x1 (ix3 b h w) = wgt (x1 (ix4 b h w (1 : Fin 2))) (aJ 0) := by
  rw [val_main_v41_apply, val_main_call3_v0_apply, val_main_call3_cst_apply, val_main_v40_apply, val_main_v39_apply,
    val_main_cst_12_apply, val_main_v38_apply, val_main_v37_apply, val_main_v36_apply, val_main_v35_apply,
    val_main_v34_apply, val_main_c_11_apply, gJ_apply, fJ_apply]
  rfl

/-! ## Corner (0, 0): index vector and update at a pixel -/

/-- The index vector's batch component is the pixel's batch. -/
theorem idx0_c0 (x1 : (⟨S8x512x512x2, .f32⟩ : BufTy).Contents (Elt Ideal)) (b : Fin 8) (h w : Fin 512) :
    (val_main_v69 (F := Ideal) x1 (ix4 b h w (0 : Fin 3))).toInt = (b.val : ℤ) := by
  rw [v69_at0, batch66_apply, wrapW_batch]

/-- Its row component is the row cell moved by di. -/
theorem idx1_c0 (x1 : (⟨S8x512x512x2, .f32⟩ : BufTy).Contents (Elt Ideal)) (b : Fin 8) (h w : Fin 512) :
    (val_main_v69 (F := Ideal) x1 (ix4 b h w (1 : Fin 3))).toInt
      = (cell (x1 (ix4 b h w (0 : Fin 2)))).toInt + (aI 0).toInt := by
  rw [v69_at1, val_main_v67_apply, idx_drop1, row0_apply, wrap_row_toInt]

/-- Its column component is the column cell moved by dj. -/
theorem idx2_c0 (x1 : (⟨S8x512x512x2, .f32⟩ : BufTy).Contents (Elt Ideal)) (b : Fin 8) (h w : Fin 512) :
    (val_main_v69 (F := Ideal) x1 (ix4 b h w (2 : Fin 3))).toInt
      = (cell (x1 (ix4 b h w (1 : Fin 2)))).toInt + (aJ 0).toInt := by
  rw [v69_at2, val_main_v68_apply, idx_drop1_v68, col0_apply, wrap_col_toInt]

/-- The update is the value times the two weights. -/
theorem upd_c0 (x0 : (⟨S8x16x512x512, .f32⟩ : BufTy).Contents (Elt Ideal)) (x1 : (⟨S8x512x512x2, .f32⟩ : BufTy).Contents (Elt Ideal))
    (b : Fin 8) (h w : Fin 512) (c : Fin 16) :
    val_main_v49 (F := Ideal) x0 x1 (ix4 b h w c)
      = x0 (ix4 b c h w) * (wgt (x1 (ix4 b h w (0 : Fin 2))) (aI 0) * wgt (x1 (ix4 b h w (1 : Fin 2))) (aJ 0)) := by
  rw [val_main_v49_apply, xT_apply, val_main_v48_apply, idx_chan0, val_main_v43_apply, idx_drop1_v43, val_main_v42_apply,
    wI0_apply, wJ0_apply]
  rfl

/-! ## From a corner's index vectors and updates to its term -/

/-- A corner's term at `(b0, c0, p, q)`, written over the coordinates. -/
theorem term_ix4 (X : SX.Idx → EReal) (G : SG.Idx → EReal) (k : Fin 4) (b0 : Fin 8) (c0 : Fin 16) (p q : Fin 512) :
    term X G k (ix4 b0 c0 p q) = ∑ h : Fin 512, ∑ w : Fin 512,
      if (cell (G (ix4 b0 h w (0 : Fin 2)))).toInt + (aI k).toInt = (p.val : ℤ) + 1
          ∧ (cell (G (ix4 b0 h w (1 : Fin 2)))).toInt + (aJ k).toInt = (q.val : ℤ) + 1
      then X (ix4 b0 c0 h w) * (wgt (G (ix4 b0 h w (0 : Fin 2))) (aI k) * wgt (G (ix4 b0 h w (1 : Fin 2))) (aJ k))
      else 0 := rfl

/-- If the index vector of pixel `(b, h, w)` is (b, row cell + di, column cell + dj) and its update at channel `c` is
    the value times the two weights, the updates of the pixels whose index vector names the padded cell
    (p + 1, q + 1) of batch `b0` sum to corner `k`'s term: only batch `b0` contributes, and there the two conditions
    are the term's. -/
theorem corner_sum (X : SX.Idx → EReal) (G : SG.Idx → EReal) (k : Fin 4)
    (I : (⟨4, ![8, 512, 512, 3]⟩ : Shape).Idx → BitVec 32) (V : (⟨4, ![8, 512, 512, 16]⟩ : Shape).Idx → EReal)
    (hI0 : ∀ (b : Fin 8) (h w : Fin 512), (I (ix4 b h w (0 : Fin 3))).toInt = (b.val : ℤ))
    (hI1 : ∀ (b : Fin 8) (h w : Fin 512),
      (I (ix4 b h w (1 : Fin 3))).toInt = (cell (G (ix4 b h w (0 : Fin 2)))).toInt + (aI k).toInt)
    (hI2 : ∀ (b : Fin 8) (h w : Fin 512),
      (I (ix4 b h w (2 : Fin 3))).toInt = (cell (G (ix4 b h w (1 : Fin 2)))).toInt + (aJ k).toInt)
    (hV : ∀ (b : Fin 8) (h w : Fin 512) (c : Fin 16), V (ix4 b h w c)
      = X (ix4 b c h w) * (wgt (G (ix4 b h w (0 : Fin 2))) (aI k) * wgt (G (ix4 b h w (1 : Fin 2))) (aJ k)))
    (b0 : Fin 8) (c0 : Fin 16) (p q : Fin 512) (P Q : Fin 515) (hP : P.val = 1 + p.val) (hQ : Q.val = 1 + q.val) :
    (∑ b : Fin 8, ∑ h : Fin 512, ∑ w : Fin 512,
      if (I (ix4 b h w (0 : Fin 3))).toInt = (b0.val : ℤ) ∧ (I (ix4 b h w (1 : Fin 3))).toInt = (P.val : ℤ)
          ∧ (I (ix4 b h w (2 : Fin 3))).toInt = (Q.val : ℤ)
      then V (ix4 b h w c0) else 0)
      = term X G k (ix4 b0 c0 p q) := by
  rw [term_ix4, Finset.sum_eq_single b0]
  · refine Finset.sum_congr rfl fun h _ => Finset.sum_congr rfl fun w _ => ?_
    rw [hI0, hI1, hI2, hV]
    refine if_congr ?_ rfl rfl
    constructor
    · rintro ⟨_, h1, h2⟩
      exact ⟨by omega, by omega⟩
    · rintro ⟨h1, h2⟩
      exact ⟨rfl, by omega, by omega⟩
  · intro b _ hb
    refine Finset.sum_eq_zero fun h _ => Finset.sum_eq_zero fun w _ => ?_
    rw [if_neg]
    rintro ⟨h0, _⟩
    rw [hI0] at h0
    exact hb (Fin.ext (by exact_mod_cast h0))
  · intro hb
    exact absurd (Finset.mem_univ b0) hb

/-! ## Corner (0, 1) -/

/-- Component 0 of the joined index array is the batch plane. -/
theorem v106_at0 (x1 : (⟨S8x512x512x2, .f32⟩ : BufTy).Contents (Elt Ideal)) (b : Fin 8) (h w : Fin 512) :
    val_main_v106 (F := Ideal) x1 (ix4 b h w (0 : Fin 3)) = val_main_v103 (F := Ideal) (ix4 b h w (0 : Fin 1)) := by
  unfold val_main_v106
  refine concatenate_apply_piece _ _ _ (ix4 b h w (0 : Fin 3)) 0 (by simp) S8x512x512x1 _ rfl rfl 0 rfl
    (ix4 b h w (0 : Fin 1)) (fun a ha => ?_) rfl
  match a with
  | ⟨0, _⟩ => rfl
  | ⟨1, _⟩ => rfl
  | ⟨2, _⟩ => rfl
  | ⟨3, _⟩ => exact absurd rfl ha

/-- Component 1 is the wrapped row plane. -/
theorem v106_at1 (x1 : (⟨S8x512x512x2, .f32⟩ : BufTy).Contents (Elt Ideal)) (b : Fin 8) (h w : Fin 512) :
    val_main_v106 (F := Ideal) x1 (ix4 b h w (1 : Fin 3)) = val_main_v104 (F := Ideal) x1 (ix4 b h w (0 : Fin 1)) := by
  unfold val_main_v106
  refine concatenate_apply_piece _ _ _ (ix4 b h w (1 : Fin 3)) 1 (by simp) S8x512x512x1 _ rfl rfl 1 rfl
    (ix4 b h w (0 : Fin 1)) (fun a ha => ?_) rfl
  match a with
  | ⟨0, _⟩ => rfl
  | ⟨1, _⟩ => rfl
  | ⟨2, _⟩ => rfl
  | ⟨3, _⟩ => exact absurd rfl ha

/-- Component 2 is the wrapped column plane. -/
theorem v106_at2 (x1 : (⟨S8x512x512x2, .f32⟩ : BufTy).Contents (Elt Ideal)) (b : Fin 8) (h w : Fin 512) :
    val_main_v106 (F := Ideal) x1 (ix4 b h w (2 : Fin 3)) = val_main_v105 (F := Ideal) x1 (ix4 b h w (0 : Fin 1)) := by
  unfold val_main_v106
  refine concatenate_apply_piece _ _ _ (ix4 b h w (2 : Fin 3)) 2 (by simp) S8x512x512x1 _ rfl rfl 2 rfl
    (ix4 b h w (0 : Fin 1)) (fun a ha => ?_) rfl
  match a with
  | ⟨0, _⟩ => rfl
  | ⟨1, _⟩ => rfl
  | ⟨2, _⟩ => rfl
  | ⟨3, _⟩ => exact absurd rfl ha

/-- Corner (0, 1)'s wrapped row plane at a pixel: the wrap of the row cell moved by 0. -/
theorem row1_apply (x1 : (⟨S8x512x512x2, .f32⟩ : BufTy).Contents (Elt Ideal)) (b : Fin 8) (h w : Fin 512) :
    val_main_v96 (F := Ideal) x1 (ix3 b h w) = wrapW 515#32 (IntOp.addi (cell (x1 (ix4 b h w (0 : Fin 2)))) (aI 1)) := by
  rw [val_main_v96_apply, val_main_v93_apply, val_main_v95_apply, val_main_v92_apply, val_main_v94_apply,
    val_main_c_27_apply, val_main_c_28_apply, val_main_v82_apply, val_main_v81_apply, val_main_c_23_apply, fI_apply]
  rfl

/-- Corner (0, 1)'s wrapped column plane at a pixel: the wrap of the column cell moved by 1. -/
theorem col1_apply (x1 : (⟨S8x512x512x2, .f32⟩ : BufTy).Contents (Elt Ideal)) (b : Fin 8) (h w : Fin 512) :
    val_main_v101 (F := Ideal) x1 (ix3 b h w) = wrapW 515#32 (IntOp.addi (cell (x1 (ix4 b h w (1 : Fin 2)))) (aJ 1)) := by
  rw [val_main_v101_apply, val_main_v98_apply, val_main_v100_apply, val_main_v97_apply, val_main_v99_apply,
    val_main_c_29_apply, val_main_c_30_apply, val_main_v84_apply, val_main_v83_apply, val_main_c_24_apply, fJ_apply]
  rfl

/-- The column weight toward the next cell (dj = 1). -/
theorem wJ1_apply (x1 : (⟨S8x512x512x2, .f32⟩ : BufTy).Contents (Elt Ideal)) (b : Fin 8) (h w : Fin 512) :
    val_main_v78 (F := Ideal) x1 (ix3 b h w) = wgt (x1 (ix4 b h w (1 : Fin 2))) (aJ 1) := by
  rw [val_main_v78_apply, val_main_call4_v0_apply, val_main_call4_cst_apply, val_main_v77_apply, val_main_v76_apply,
    val_main_cst_22_apply, val_main_v75_apply, val_main_v74_apply, val_main_v73_apply, val_main_v72_apply,
    val_main_v71_apply, val_main_c_21_apply, gJ_apply, fJ_apply]
  rfl

/-- The index vector's batch component is the pixel's batch. -/
theorem idx0_c1 (x1 : (⟨S8x512x512x2, .f32⟩ : BufTy).Contents (Elt Ideal)) (b : Fin 8) (h w : Fin 512) :
    (val_main_v106 (F := Ideal) x1 (ix4 b h w (0 : Fin 3))).toInt = (b.val : ℤ) := by
  rw [v106_at0, batch103_apply, wrapW_batch]

/-- Its row component is the row cell moved by di. -/
theorem idx1_c1 (x1 : (⟨S8x512x512x2, .f32⟩ : BufTy).Contents (Elt Ideal)) (b : Fin 8) (h w : Fin 512) :
    (val_main_v106 (F := Ideal) x1 (ix4 b h w (1 : Fin 3))).toInt
      = (cell (x1 (ix4 b h w (0 : Fin 2)))).toInt + (aI 1).toInt := by
  rw [v106_at1, val_main_v104_apply, idx_drop1_v104, row1_apply, wrap_row_toInt]

/-- Its column component is the column cell moved by dj. -/
theorem idx2_c1 (x1 : (⟨S8x512x512x2, .f32⟩ : BufTy).Contents (Elt Ideal)) (b : Fin 8) (h w : Fin 512) :
    (val_main_v106 (F := Ideal) x1 (ix4 b h w (2 : Fin 3))).toInt
      = (cell (x1 (ix4 b h w (1 : Fin 2)))).toInt + (aJ 1).toInt := by
  rw [v106_at2, val_main_v105_apply, idx_drop1_v105, col1_apply, wrap_col_toInt]

/-- The update is the value times the two weights. -/
theorem upd_c1 (x0 : (⟨S8x16x512x512, .f32⟩ : BufTy).Contents (Elt Ideal)) (x1 : (⟨S8x512x512x2, .f32⟩ : BufTy).Contents (Elt Ideal))
    (b : Fin 8) (h w : Fin 512) (c : Fin 16) :
    val_main_v86 (F := Ideal) x0 x1 (ix4 b h w c)
      = x0 (ix4 b c h w) * (wgt (x1 (ix4 b h w (0 : Fin 2))) (aI 1) * wgt (x1 (ix4 b h w (1 : Fin 2))) (aJ 1)) := by
  rw [val_main_v86_apply, xT_apply, val_main_v85_apply, idx_chan0_v85, val_main_v80_apply, idx_drop1_v80, val_main_v79_apply,
    wI0_apply, wJ1_apply]
  rfl

end C01

open C01

/-- Corner 0: the pixels of batch `b0` whose padded target is (P, Q) = (p + 1, q + 1) contribute the corner's term. -/
theorem corner0 (x0 : (⟨S8x16x512x512, .f32⟩ : BufTy).Contents (Elt Ideal)) (x1 : (⟨S8x512x512x2, .f32⟩ : BufTy).Contents (Elt Ideal))
    (b0 : Fin 8) (c0 : Fin 16) (p q : Fin 512) (P Q : Fin 515) (hP : P.val = 1 + p.val) (hQ : Q.val = 1 + q.val) :
    (∑ b : Fin 8, ∑ h : Fin 512, ∑ w : Fin 512,
      if (val_main_v69 (F := Ideal) x1 (ix4 b h w (0 : Fin 3))).toInt = (b0.val : ℤ)
          ∧ (val_main_v69 (F := Ideal) x1 (ix4 b h w (1 : Fin 3))).toInt = (P.val : ℤ)
          ∧ (val_main_v69 (F := Ideal) x1 (ix4 b h w (2 : Fin 3))).toInt = (Q.val : ℤ)
      then val_main_v49 (F := Ideal) x0 x1 (ix4 b h w c0) else 0)
      = term x0 x1 0 (ix4 b0 c0 p q) := by
  exact corner_sum x0 x1 0 (val_main_v69 (F := Ideal) x1) (val_main_v49 (F := Ideal) x0 x1)
    (idx0_c0 x1) (idx1_c0 x1) (idx2_c0 x1) (upd_c0 x0 x1) b0 c0 p q P Q hP hQ

/-- Corner 1: the pixels of batch `b0` whose padded target is (P, Q) = (p + 1, q + 1) contribute the corner's term. -/
theorem corner1 (x0 : (⟨S8x16x512x512, .f32⟩ : BufTy).Contents (Elt Ideal)) (x1 : (⟨S8x512x512x2, .f32⟩ : BufTy).Contents (Elt Ideal))
    (b0 : Fin 8) (c0 : Fin 16) (p q : Fin 512) (P Q : Fin 515) (hP : P.val = 1 + p.val) (hQ : Q.val = 1 + q.val) :
    (∑ b : Fin 8, ∑ h : Fin 512, ∑ w : Fin 512,
      if (val_main_v106 (F := Ideal) x1 (ix4 b h w (0 : Fin 3))).toInt = (b0.val : ℤ)
          ∧ (val_main_v106 (F := Ideal) x1 (ix4 b h w (1 : Fin 3))).toInt = (P.val : ℤ)
          ∧ (val_main_v106 (F := Ideal) x1 (ix4 b h w (2 : Fin 3))).toInt = (Q.val : ℤ)
      then val_main_v86 (F := Ideal) x0 x1 (ix4 b h w c0) else 0)
      = term x0 x1 1 (ix4 b0 c0 p q) := by
  exact corner_sum x0 x1 1 (val_main_v106 (F := Ideal) x1) (val_main_v86 (F := Ideal) x0 x1)
    (idx0_c1 x1) (idx1_c1 x1) (idx2_c1 x1) (upd_c1 x0 x1) b0 c0 p q P Q hP hQ

end Cert.ReferenceIdeal.RefValue

end
-- ==== Proof.RefCorner23.lean ====
/-
  The reference's last two scatters, corners (di, dj) = (1, 0) and (1, 1): the index vector of pixel (b, h, w) is
  (b, cell g_i + di, cell g_j + dj) after the negative-index wrap, which changes nothing because a cell is between
  0 and 513; the update is the transposed value times the product of the two one-axis weights. Summed over the
  pixels whose index vector names the padded cell (p + 1, q + 1) of batch b0, this is the corner's term of the splat.
-/
import proofs.«114343_j3066606649873_1_alg».proof.Proof.Gen.ReferenceIdeal.Read
import proofs.«114343_j3066606649873_1_alg».proof.Proof.Spec
import proofs.«114343_j3066606649873_1_alg».proof.Proof.Cells
import proofs.«114343_j3066606649873_1_alg».proof.Proof.RefBase
import Idealize.ShloMosaic.Lib.ValueIdx
import Idealize.ShloMosaic.Lib.Pipeline.Value

noncomputable section

open scoped BigOperators

namespace Cert.ReferenceIdeal.RefValue

open Idealize.ShloMosaic Idealize.ShloMosaic.ValueIdx
open Cert.ReferenceIdeal Cert.ReferenceIdeal.Read Cert.Splat

/-! ## Layout reads

  Spreading a plane (batch, row, column) over a last axis of extent 1 reads the plane at (b, h, w); spreading that over
  the 16 channels reads it at (b, h, w, 0). -/

theorem idx_unitAxis (b : Fin 8) (h w : Fin 512) : idx_main_v149 (ix4 b h w (0 : Fin 1)) = ix3 b h w := by
  funext a
  match a with
  | ⟨0, _⟩ => rfl
  | ⟨1, _⟩ => rfl
  | ⟨2, _⟩ => rfl

theorem idx_overChannels (b : Fin 8) (h w : Fin 512) (c : Fin 16) :
    idx_main_v130 (ix4 b h w c) = ix4 b h w (0 : Fin 1) := by
  funext a
  match a with
  | ⟨0, _⟩ => rfl
  | ⟨1, _⟩ => rfl
  | ⟨2, _⟩ => rfl
  | ⟨3, _⟩ => rfl

/-! ## Three planes joined along a last axis of extent 3

  Component t of the joined array at (b, h, w) is plane t at (b, h, w, 0). -/

section Join
variable {α : Type} (y0 y1 y2 : S8x512x512x1.Idx → α)
  (hc : Shape.Concatenates (([⟨S8x512x512x1, y0⟩, ⟨S8x512x512x1, y1⟩, ⟨S8x512x512x1, y2⟩] :
    List ((s : Shape) × (s.Idx → α))).map (·.1)) S8x512x512x3 3)
  (b : Fin 8) (h w : Fin 512)

theorem join3_at0 :
    concatenate S8x512x512x3 3 [⟨S8x512x512x1, y0⟩, ⟨S8x512x512x1, y1⟩, ⟨S8x512x512x1, y2⟩] hc (ix4 b h w (0 : Fin 3))
      = y0 (ix4 b h w (0 : Fin 1)) := by
  refine concatenate_apply_piece 3 _ hc _ 0 (by show (0 : Nat) < 3; omega) S8x512x512x1 y0 rfl rfl 0 rfl (ix4 b h w (0 : Fin 1)) ?_ rfl
  intro c hne
  match c with
  | ⟨0, _⟩ => rfl
  | ⟨1, _⟩ => rfl
  | ⟨2, _⟩ => rfl
  | ⟨3, _⟩ => exact absurd rfl hne

theorem join3_at1 :
    concatenate S8x512x512x3 3 [⟨S8x512x512x1, y0⟩, ⟨S8x512x512x1, y1⟩, ⟨S8x512x512x1, y2⟩] hc (ix4 b h w (1 : Fin 3))
      = y1 (ix4 b h w (0 : Fin 1)) := by
  refine concatenate_apply_piece 3 _ hc _ 1 (by show (1 : Nat) < 3; omega) S8x512x512x1 y1 rfl rfl 1 rfl (ix4 b h w (0 : Fin 1)) ?_ rfl
  intro c hne
  match c with
  | ⟨0, _⟩ => rfl
  | ⟨1, _⟩ => rfl
  | ⟨2, _⟩ => rfl
  | ⟨3, _⟩ => exact absurd rfl hne

theorem join3_at2 :
    concatenate S8x512x512x3 3 [⟨S8x512x512x1, y0⟩, ⟨S8x512x512x1, y1⟩, ⟨S8x512x512x1, y2⟩] hc (ix4 b h w (2 : Fin 3))
      = y2 (ix4 b h w (0 : Fin 1)) := by
  refine concatenate_apply_piece 3 _ hc _ 2 (by show (2 : Nat) < 3; omega) S8x512x512x1 y2 rfl rfl 2 rfl (ix4 b h w (0 : Fin 1)) ?_ rfl
  intro c hne
  match c with
  | ⟨0, _⟩ => rfl
  | ⟨1, _⟩ => rfl
  | ⟨2, _⟩ => rfl
  | ⟨3, _⟩ => exact absurd rfl hne

end Join

/-! ## A cell moved by 0 or 1, after the wrap with the padded extent 515 -/

theorem wrap515_cell (g : EReal) (d : BitVec 32) (hd0 : 0 ≤ d.toInt) (hd1 : d.toInt ≤ 1) :
    (wrapW 515#32 (IntOp.addi (cell g) d)).toInt = (cell g).toInt + d.toInt := by
  have h0 := cell_nonneg g
  have h1 := cell_le g
  have e : (IntOp.addi (cell g) d).toInt = (cell g).toInt + d.toInt := by
    unfold IntOp.addi
    exact toInt_add_small _ _ (by omega) (by omega)
  rw [wrapW_of_nonneg _ _ (by rw [e]; omega), e]

/-! ## The index vectors' row and column components

  Each is the cell moved by the corner's 0 or 1, passed through the wrap with the padded extent 515. -/

/-- The row component with di = 1, as corner (1, 0) computes it. -/
theorem rowIdx2_apply (x1 : (⟨S8x512x512x2, .f32⟩ : BufTy).Contents (Elt Ideal)) (b : Fin 8) (h w : Fin 512) :
    val_main_v141 (F := Ideal) x1 (ix3 b h w) = wrapW 515#32 (IntOp.addi (cell (x1 (ix4 b h w (0 : Fin 2)))) 1#32) := by
  rw [val_main_v141_apply, val_main_v138_apply, val_main_v140_apply, val_main_v137_apply, val_main_c_39_apply,
    val_main_v139_apply, val_main_c_40_apply, val_main_v127_apply, val_main_v126_apply, val_main_c_35_apply, fI_apply]
  rfl

/-- The column component with dj = 0. -/
theorem colIdx2_apply (x1 : (⟨S8x512x512x2, .f32⟩ : BufTy).Contents (Elt Ideal)) (b : Fin 8) (h w : Fin 512) :
    val_main_v146 (F := Ideal) x1 (ix3 b h w) = wrapW 515#32 (IntOp.addi (cell (x1 (ix4 b h w (1 : Fin 2)))) 0#32) := by
  rw [val_main_v146_apply, val_main_v143_apply, val_main_v145_apply, val_main_v142_apply, val_main_c_41_apply,
    val_main_v144_apply, val_main_c_42_apply, val_main_v129_apply, val_main_v128_apply, val_main_c_36_apply, fJ_apply]
  rfl

/-- The row component with di = 1, as corner (1, 1) computes it. -/
theorem rowIdx3_apply (x1 : (⟨S8x512x512x2, .f32⟩ : BufTy).Contents (Elt Ideal)) (b : Fin 8) (h w : Fin 512) :
    val_main_v178 (F := Ideal) x1 (ix3 b h w) = wrapW 515#32 (IntOp.addi (cell (x1 (ix4 b h w (0 : Fin 2)))) 1#32) := by
  rw [val_main_v178_apply, val_main_v175_apply, val_main_v177_apply, val_main_v174_apply, val_main_c_49_apply,
    val_main_v176_apply, val_main_c_50_apply, val_main_v164_apply, val_main_v163_apply, val_main_c_45_apply, fI_apply]
  rfl

/-- The column component with dj = 1. -/
theorem colIdx3_apply (x1 : (⟨S8x512x512x2, .f32⟩ : BufTy).Contents (Elt Ideal)) (b : Fin 8) (h w : Fin 512) :
    val_main_v183 (F := Ideal) x1 (ix3 b h w) = wrapW 515#32 (IntOp.addi (cell (x1 (ix4 b h w (1 : Fin 2)))) 1#32) := by
  rw [val_main_v183_apply, val_main_v180_apply, val_main_v182_apply, val_main_v179_apply, val_main_c_51_apply,
    val_main_v181_apply, val_main_c_52_apply, val_main_v166_apply, val_main_v165_apply, val_main_c_46_apply, fJ_apply]
  rfl

/-! ## The one-axis weights: max (1 − |coordinate − (cell + d)|) 0 -/

/-- The row weight toward the next cell (di = 1); both corners use it. -/
theorem wI1_apply (x1 : (⟨S8x512x512x2, .f32⟩ : BufTy).Contents (Elt Ideal)) (b : Fin 8) (h w : Fin 512) :
    val_main_v115 (F := Ideal) x1 (ix3 b h w) = wgt (x1 (ix4 b h w (0 : Fin 2))) 1#32 := by
  rw [val_main_v115_apply, val_main_v114_apply, val_main_v113_apply, val_main_cst_32_apply, val_main_v112_apply,
    val_main_v111_apply, val_main_v110_apply, val_main_v109_apply, val_main_v108_apply, val_main_c_31_apply,
    val_main_call5_v0_apply, val_main_call5_cst_apply, gI_apply, fI_apply]
  rfl

/-- The column weight toward the cell itself (dj = 0). -/
theorem wJ0_apply (x1 : (⟨S8x512x512x2, .f32⟩ : BufTy).Contents (Elt Ideal)) (b : Fin 8) (h w : Fin 512) :
    val_main_v123 (F := Ideal) x1 (ix3 b h w) = wgt (x1 (ix4 b h w (1 : Fin 2))) 0#32 := by
  rw [val_main_v123_apply, val_main_v122_apply, val_main_v121_apply, val_main_cst_34_apply, val_main_v120_apply,
    val_main_v119_apply, val_main_v118_apply, val_main_v117_apply, val_main_v116_apply, val_main_c_33_apply,
    val_main_call6_v0_apply, val_main_call6_cst_apply, gJ_apply, fJ_apply]
  rfl

/-- The column weight toward the next cell (dj = 1). -/
theorem wJ1_apply (x1 : (⟨S8x512x512x2, .f32⟩ : BufTy).Contents (Elt Ideal)) (b : Fin 8) (h w : Fin 512) :
    val_main_v160 (F := Ideal) x1 (ix3 b h w) = wgt (x1 (ix4 b h w (1 : Fin 2))) 1#32 := by
  rw [val_main_v160_apply, val_main_v159_apply, val_main_v158_apply, val_main_cst_44_apply, val_main_v157_apply,
    val_main_v156_apply, val_main_v155_apply, val_main_v154_apply, val_main_v153_apply, val_main_c_43_apply,
    val_main_call7_v0_apply, val_main_call7_cst_apply, gJ_apply, fJ_apply]
  rfl

/-! ## The updates: the value with the channel last, times the product of the two weights -/

theorem upd2_apply (x0 : (⟨S8x16x512x512, .f32⟩ : BufTy).Contents (Elt Ideal)) (x1 : (⟨S8x512x512x2, .f32⟩ : BufTy).Contents (Elt Ideal)) (b : Fin 8) (h w : Fin 512) (c : Fin 16) :
    val_main_v131 (F := Ideal) x0 x1 (ix4 b h w c)
      = x0 (ix4 b c h w) * (wgt (x1 (ix4 b h w (0 : Fin 2))) 1#32 * wgt (x1 (ix4 b h w (1 : Fin 2))) 0#32) := by
  have e1 : val_main_v130 (F := Ideal) x1 (ix4 b h w c) = val_main_v124 (F := Ideal) x1 (ix3 b h w) :=
    ((val_main_v130_apply x1 _).trans (congrArg (val_main_v125 (F := Ideal) x1) (idx_overChannels b h w c))).trans
      ((val_main_v125_apply x1 _).trans (congrArg (val_main_v124 (F := Ideal) x1) (idx_unitAxis b h w)))
  rw [val_main_v131_apply, xT_apply, e1, val_main_v124_apply, wI1_apply, wJ0_apply]
  rfl

theorem upd3_apply (x0 : (⟨S8x16x512x512, .f32⟩ : BufTy).Contents (Elt Ideal)) (x1 : (⟨S8x512x512x2, .f32⟩ : BufTy).Contents (Elt Ideal)) (b : Fin 8) (h w : Fin 512) (c : Fin 16) :
    val_main_v168 (F := Ideal) x0 x1 (ix4 b h w c)
      = x0 (ix4 b c h w) * (wgt (x1 (ix4 b h w (0 : Fin 2))) 1#32 * wgt (x1 (ix4 b h w (1 : Fin 2))) 1#32) := by
  have e1 : val_main_v167 (F := Ideal) x1 (ix4 b h w c) = val_main_v161 (F := Ideal) x1 (ix3 b h w) :=
    ((val_main_v167_apply x1 _).trans (congrArg (val_main_v162 (F := Ideal) x1) (idx_overChannels b h w c))).trans
      ((val_main_v162_apply x1 _).trans (congrArg (val_main_v161 (F := Ideal) x1) (idx_unitAxis b h w)))
  rw [val_main_v168_apply, xT_apply, e1, val_main_v161_apply, wI1_apply, wJ1_apply]
  rfl

/-! ## The index vectors, component by component, as integers -/

theorem c2_comp0 (x1 : (⟨S8x512x512x2, .f32⟩ : BufTy).Contents (Elt Ideal)) (b : Fin 8) (h w : Fin 512) :
    (val_main_v151 (F := Ideal) x1 (ix4 b h w (0 : Fin 3))).toInt = (b.val : ℤ) := by
  unfold val_main_v151
  rw [join3_at0, batch148_apply, wrapW_batch]

theorem c2_comp1 (x1 : (⟨S8x512x512x2, .f32⟩ : BufTy).Contents (Elt Ideal)) (b : Fin 8) (h w : Fin 512) :
    (val_main_v151 (F := Ideal) x1 (ix4 b h w (1 : Fin 3))).toInt = (cell (x1 (ix4 b h w (0 : Fin 2)))).toInt + 1 := by
  have e : val_main_v149 (F := Ideal) x1 (ix4 b h w (0 : Fin 1)) = val_main_v141 (F := Ideal) x1 (ix3 b h w) :=
    (val_main_v149_apply x1 _).trans (congrArg (val_main_v141 (F := Ideal) x1) (idx_unitAxis b h w))
  unfold val_main_v151
  rw [join3_at1, e, rowIdx2_apply, wrap515_cell _ _ (by decide) (by decide), toInt_one32]

theorem c2_comp2 (x1 : (⟨S8x512x512x2, .f32⟩ : BufTy).Contents (Elt Ideal)) (b : Fin 8) (h w : Fin 512) :
    (val_main_v151 (F := Ideal) x1 (ix4 b h w (2 : Fin 3))).toInt = (cell (x1 (ix4 b h w (1 : Fin 2)))).toInt + 0 := by
  have e : val_main_v150 (F := Ideal) x1 (ix4 b h w (0 : Fin 1)) = val_main_v146 (F := Ideal) x1 (ix3 b h w) :=
    (val_main_v150_apply x1 _).trans (congrArg (val_main_v146 (F := Ideal) x1) (idx_unitAxis b h w))
  unfold val_main_v151
  rw [join3_at2, e, colIdx2_apply, wrap515_cell _ _ (by decide) (by decide), BitVec.toInt_zero]

theorem c3_comp0 (x1 : (⟨S8x512x512x2, .f32⟩ : BufTy).Contents (Elt Ideal)) (b : Fin 8) (h w : Fin 512) :
    (val_main_v188 (F := Ideal) x1 (ix4 b h w (0 : Fin 3))).toInt = (b.val : ℤ) := by
  unfold val_main_v188
  rw [join3_at0, batch185_apply, wrapW_batch]

theorem c3_comp1 (x1 : (⟨S8x512x512x2, .f32⟩ : BufTy).Contents (Elt Ideal)) (b : Fin 8) (h w : Fin 512) :
    (val_main_v188 (F := Ideal) x1 (ix4 b h w (1 : Fin 3))).toInt = (cell (x1 (ix4 b h w (0 : Fin 2)))).toInt + 1 := by
  have e : val_main_v186 (F := Ideal) x1 (ix4 b h w (0 : Fin 1)) = val_main_v178 (F := Ideal) x1 (ix3 b h w) :=
    (val_main_v186_apply x1 _).trans (congrArg (val_main_v178 (F := Ideal) x1) (idx_unitAxis b h w))
  unfold val_main_v188
  rw [join3_at1, e, rowIdx3_apply, wrap515_cell _ _ (by decide) (by decide), toInt_one32]

theorem c3_comp2 (x1 : (⟨S8x512x512x2, .f32⟩ : BufTy).Contents (Elt Ideal)) (b : Fin 8) (h w : Fin 512) :
    (val_main_v188 (F := Ideal) x1 (ix4 b h w (2 : Fin 3))).toInt = (cell (x1 (ix4 b h w (1 : Fin 2)))).toInt + 1 := by
  have e : val_main_v187 (F := Ideal) x1 (ix4 b h w (0 : Fin 1)) = val_main_v183 (F := Ideal) x1 (ix3 b h w) :=
    (val_main_v187_apply x1 _).trans (congrArg (val_main_v183 (F := Ideal) x1) (idx_unitAxis b h w))
  unfold val_main_v188
  rw [join3_at2, e, colIdx3_apply, wrap515_cell _ _ (by decide) (by decide), toInt_one32]

/-! ## The corners' sums

  Only the pixels of batch b0 have an index vector whose first component is b0, so the sum over the batch keeps that
  one batch; there the two remaining equations are the term's, the padded target being one more than the target. -/

/-- Corner 2: the pixels of batch `b0` whose padded target is (P, Q) = (p + 1, q + 1) contribute the corner's term. -/
theorem corner2 (x0 : (⟨S8x16x512x512, .f32⟩ : BufTy).Contents (Elt Ideal)) (x1 : (⟨S8x512x512x2, .f32⟩ : BufTy).Contents (Elt Ideal))
    (b0 : Fin 8) (c0 : Fin 16) (p q : Fin 512) (P Q : Fin 515) (hP : P.val = 1 + p.val) (hQ : Q.val = 1 + q.val) :
    (∑ b : Fin 8, ∑ h : Fin 512, ∑ w : Fin 512,
      if (val_main_v151 (F := Ideal) x1 (ix4 b h w (0 : Fin 3))).toInt = (b0.val : ℤ)
          ∧ (val_main_v151 (F := Ideal) x1 (ix4 b h w (1 : Fin 3))).toInt = (P.val : ℤ)
          ∧ (val_main_v151 (F := Ideal) x1 (ix4 b h w (2 : Fin 3))).toInt = (Q.val : ℤ)
      then val_main_v131 (F := Ideal) x0 x1 (ix4 b h w c0) else 0)
      = term x0 x1 2 (ix4 b0 c0 p q) := by
  have hP' : (P.val : ℤ) = (p.val : ℤ) + 1 := by omega
  have hQ' : (Q.val : ℤ) = (q.val : ℤ) + 1 := by omega
  have hI : (aI 2).toInt = 1 := by decide
  have hJ : (aJ 2).toInt = 0 := by decide
  rw [Finset.sum_eq_single b0]
  · unfold term
    refine Finset.sum_congr rfl fun h _ => Finset.sum_congr rfl fun w _ => ?_
    rw [c2_comp0, c2_comp1, c2_comp2, upd2_apply]
    refine if_congr ?_ rfl rfl
    show (_ ∧ _ ∧ _) ↔ ((cell (x1 (ix4 b0 h w (0 : Fin 2)))).toInt + (aI 2).toInt = (p.val : ℤ) + 1
      ∧ (cell (x1 (ix4 b0 h w (1 : Fin 2)))).toInt + (aJ 2).toInt = (q.val : ℤ) + 1)
    rw [hI, hJ, hP', hQ']
    constructor
    · rintro ⟨-, h1, h2⟩
      exact ⟨h1, h2⟩
    · rintro ⟨h1, h2⟩
      exact ⟨rfl, h1, h2⟩
  · intro b _ hb
    refine Finset.sum_eq_zero fun h _ => Finset.sum_eq_zero fun w _ => if_neg ?_
    rintro ⟨h0, -⟩
    rw [c2_comp0] at h0
    exact hb (Fin.ext (by exact_mod_cast h0))
  · intro hne
    exact absurd (Finset.mem_univ b0) hne

/-- Corner 3: the pixels of batch `b0` whose padded target is (P, Q) = (p + 1, q + 1) contribute the corner's term. -/
theorem corner3 (x0 : (⟨S8x16x512x512, .f32⟩ : BufTy).Contents (Elt Ideal)) (x1 : (⟨S8x512x512x2, .f32⟩ : BufTy).Contents (Elt Ideal))
    (b0 : Fin 8) (c0 : Fin 16) (p q : Fin 512) (P Q : Fin 515) (hP : P.val = 1 + p.val) (hQ : Q.val = 1 + q.val) :
    (∑ b : Fin 8, ∑ h : Fin 512, ∑ w : Fin 512,
      if (val_main_v188 (F := Ideal) x1 (ix4 b h w (0 : Fin 3))).toInt = (b0.val : ℤ)
          ∧ (val_main_v188 (F := Ideal) x1 (ix4 b h w (1 : Fin 3))).toInt = (P.val : ℤ)
          ∧ (val_main_v188 (F := Ideal) x1 (ix4 b h w (2 : Fin 3))).toInt = (Q.val : ℤ)
      then val_main_v168 (F := Ideal) x0 x1 (ix4 b h w c0) else 0)
      = term x0 x1 3 (ix4 b0 c0 p q) := by
  have hP' : (P.val : ℤ) = (p.val : ℤ) + 1 := by omega
  have hQ' : (Q.val : ℤ) = (q.val : ℤ) + 1 := by omega
  have hI : (aI 3).toInt = 1 := by decide
  have hJ : (aJ 3).toInt = 1 := by decide
  rw [Finset.sum_eq_single b0]
  · unfold term
    refine Finset.sum_congr rfl fun h _ => Finset.sum_congr rfl fun w _ => ?_
    rw [c3_comp0, c3_comp1, c3_comp2, upd3_apply]
    refine if_congr ?_ rfl rfl
    show (_ ∧ _ ∧ _) ↔ ((cell (x1 (ix4 b0 h w (0 : Fin 2)))).toInt + (aI 3).toInt = (p.val : ℤ) + 1
      ∧ (cell (x1 (ix4 b0 h w (1 : Fin 2)))).toInt + (aJ 3).toInt = (q.val : ℤ) + 1)
    rw [hI, hJ, hP', hQ']
    constructor
    · rintro ⟨-, h1, h2⟩
      exact ⟨h1, h2⟩
    · rintro ⟨h1, h2⟩
      exact ⟨rfl, h1, h2⟩
  · intro b _ hb
    refine Finset.sum_eq_zero fun h _ => Finset.sum_eq_zero fun w _ => if_neg ?_
    rintro ⟨h0, -⟩
    rw [c3_comp0] at h0
    exact hb (Fin.ext (by exact_mod_cast h0))
  · intro hne
    exact absurd (Finset.mem_univ b0) hne

end Cert.ReferenceIdeal.RefValue

end
-- ==== Proof.RefValue.lean ====
/-
  The reference program computes the splat: its four accumulating scatters into the padded (8, 16, 515, 515) array,
  one per corner, followed by the crop of rows and columns 1 … 512, leave at (b, c, p, q) the sum over the four
  corners of the contributions landing on padded cell (p + 1, q + 1).
-/
import proofs.«114343_j3066606649873_1_alg».proof.Proof.Gen.ReferenceIdeal.Read
import proofs.«114343_j3066606649873_1_alg».proof.Proof.Spec
import proofs.«114343_j3066606649873_1_alg».proof.Proof.Cells
import proofs.«114343_j3066606649873_1_alg».proof.Proof.ScatterRead
import proofs.«114343_j3066606649873_1_alg».proof.Proof.RefCorner01
import proofs.«114343_j3066606649873_1_alg».proof.Proof.RefCorner23

noncomputable section

open scoped BigOperators

namespace Cert.ReferenceIdeal.RefValue

open Idealize.ShloMosaic Idealize.ShloMosaic.ValueIdx
open Cert.ReferenceIdeal Cert.Splat

/-- The crop reads the padded array one row and one column further on: result element (b, c, p, q) is padded
    element (b, c, p + 1, q + 1). -/
theorem crop_idx (b : Fin 8) (ch : Fin 16) (p q : Fin 512) (P Q : Fin 515) (hP : P.val = 1 + p.val) (hQ : Q.val = 1 + q.val) :
    Read.idx_main_v190 (ix4 b ch p q) = ix4 b ch P Q := by
  funext a
  match a with
  | ⟨0, _⟩ => rfl
  | ⟨1, _⟩ => rfl
  | ⟨2, _⟩ => exact Fin.ext hP.symm
  | ⟨3, _⟩ => exact Fin.ext hQ.symm

/-- The padded array the scatters accumulate into starts at zero everywhere. -/
theorem pad_zero (i : S8x16x515x515.Idx) : Read.val_main_v22 (F := Ideal) i = 0 := by
  rw [Read.val_main_v22_apply, Read.val_main_cst_9_apply]
  exact c0_eq

/-- The padded array after the four scatters, at one element: the four corners' sums over the pixels whose index
    vector names that element, accumulated in the program's order onto zero. -/
theorem padded_apply (x0 : (⟨S8x16x512x512, .f32⟩ : BufTy).Contents (Elt Ideal)) (x1 : (⟨S8x512x512x2, .f32⟩ : BufTy).Contents (Elt Ideal))
    (b0 : Fin 8) (ch : Fin 16) (p q : Fin 512) (P Q : Fin 515) (hP : P.val = 1 + p.val) (hQ : Q.val = 1 + q.val) :
    Read.val_main_v189 (F := Ideal) x0 x1 (ix4 b0 ch P Q)
      = term x0 x1 0 (ix4 b0 ch p q) + term x0 x1 1 (ix4 b0 ch p q) + term x0 x1 2 (ix4 b0 ch p q) + term x0 x1 3 (ix4 b0 ch p q) := by
  unfold Read.val_main_v189
  rw [scatterAddR_apply, corner3 x0 x1 b0 ch p q P Q hP hQ]
  unfold Read.val_main_v152
  rw [scatterAddR_apply, corner2 x0 x1 b0 ch p q P Q hP hQ]
  unfold Read.val_main_v107
  rw [scatterAddR_apply, corner1 x0 x1 b0 ch p q P Q hP hQ]
  unfold Read.val_main_v70
  rw [scatterAddR_apply, corner0 x0 x1 b0 ch p q P Q hP hQ, pad_zero, zero_add]

/-- The reference's result, as a function of its two argument arrays, is the splat. -/
theorem ref_spec (x0 : (⟨S8x16x512x512, .f32⟩ : BufTy).Contents (Elt Ideal)) (x1 : (⟨S8x512x512x2, .f32⟩ : BufTy).Contents (Elt Ideal)) :
    Cert.ReferenceIdeal.Read.val_main_v190 (F := Ideal) x0 x1 = Spec x0 x1 := by
  funext i
  obtain ⟨b0, ch, p, q, rfl⟩ : ∃ (b0 : Fin 8) (ch : Fin 16) (p q : Fin 512), i = ix4 b0 ch p q := ⟨i 0, i 1, i 2, i 3, eq_ix4 i⟩
  obtain ⟨P, hP⟩ : ∃ P : Fin 515, P.val = 1 + p.val := ⟨⟨1 + p.val, by have := p.isLt; omega⟩, rfl⟩
  obtain ⟨Q, hQ⟩ : ∃ Q : Fin 515, Q.val = 1 + q.val := ⟨⟨1 + q.val, by have := q.isLt; omega⟩, rfl⟩
  rw [Read.val_main_v190_apply, crop_idx b0 ch p q P Q hP hQ, padded_apply x0 x1 b0 ch p q P Q hP hQ]
  rfl

end Cert.ReferenceIdeal.RefValue

end
-- ==== Proof.lean ====
/-
  The inverse bilinear splat: the certificate's five claims.

  The kernel program cuts the two coordinate planes out of the grid array, runs one pallas region that turns each
  source pixel into its four weighted corner contributions with clamped targets (zero weight where a corner falls
  outside the 512 × 512 plane), and accumulates them with one scatter. The reference accumulates the four corners
  with four scatters into a plane padded to 515 × 515 and crops. On the extended reals both results are the same
  finite sum: a corner outside the plane contributes x · 0 = 0 in the kernel and lands in the cropped border in the
  reference (`Cert.Splat.Spec`). The three frames: the two kernel programs by the region's launch with the host
  lines around it, the reference by its run.
-/
import proofs.«114343_j3066606649873_1_alg».proof.Defs
import proofs.«114343_j3066606649873_1_alg».proof.Proof.Gen.Kernel
import proofs.«114343_j3066606649873_1_alg».proof.Proof.Gen.KernelIdeal
import proofs.«114343_j3066606649873_1_alg».proof.Proof.Gen.ReferenceIdeal
import proofs.«114343_j3066606649873_1_alg».proof.Proof.Gen.ReferenceIdeal.Run
import proofs.«114343_j3066606649873_1_alg».proof.Proof.Gen.ReferenceIdeal.Read
import proofs.«114343_j3066606649873_1_alg».proof.Proof.Gen.Pre_finite_inputs
import proofs.«114343_j3066606649873_1_alg».proof.Proof.KFrameBits
import proofs.«114343_j3066606649873_1_alg».proof.Proof.KFrame
import proofs.«114343_j3066606649873_1_alg».proof.Proof.KRun
import proofs.«114343_j3066606649873_1_alg».proof.Proof.KValue
import proofs.«114343_j3066606649873_1_alg».proof.Proof.KTail
import proofs.«114343_j3066606649873_1_alg».proof.Proof.RefValue

noncomputable section

namespace Cert.Proof

open Idealize.ShloMosaic Idealize.SL.Sem

/-- The word-level kernel program runs to its end and leaves both arguments as launched. -/
theorem frame_kernel : Cert.frame_Kernel := fun m ρ _ => Cert.Kernel.Frame.frame m ρ

/-- So does the idealized kernel program. -/
theorem frame_kernelIdeal : Cert.frame_KernelIdeal := fun m ρ _ => Cert.KernelIdeal.Frame.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the splat of the values along the grid. -/
theorem algebraic : Cert.algebraic_KernelIdeal_ReferenceIdeal := by
  intro m ρ m' ρ' _ hagree
  refine ⟨fun c => Cert.Splat.Spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans ((Cert.KernelIdeal.KValue.kernel_result m c).trans (Cert.KernelIdeal.Tail.tail_spec _ _)), (h c).2.1, (h c).2.2⟩)
      (Cert.KernelIdeal.Frame.run_value m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v190_eq, Cert.ReferenceIdeal.RefValue.ref_spec, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
